-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x255x76x76 : Shape := ⟨4, ![32, 255, 76, 76]⟩
abbrev S2x1x1x3 : Shape := ⟨4, ![2, 1, 1, 3]⟩
abbrev S_ : Shape := ⟨0, ![]⟩

class Facts : Prop where
  bcast_S_S32x255x76x76 : S_.BroadcastsInDim S32x255x76x76 (![] : Fin 0 → Fin S32x255x76x76.rank)
  reducesTo_S32x255x76x76_S_d0_1_2_3 : S32x255x76x76.ReducesTo [0, 1, 2, 3] S_
  h_S_ : 0 < S_.numel
  bcast_S_S2x1x1x3 : S_.BroadcastsInDim S2x1x1x3 (![] : Fin 0 → Fin S2x1x1x3.rank)
  reducesTo_S2x1x1x3_S_d0_1_2_3 : S2x1x1x3.ReducesTo [0, 1, 2, 3] S_

variable [Facts]

def fn {F : FTy → Type} [FloatOps F] (main_arg0 : FVec F S32x255x76x76 .f32) (main_arg1 : FVec F S2x1x1x3 .f32) : IVec S_ 1 :=
  let main_v0 : FVec F S32x255x76x76 .f32 := Host.absf main_arg0
  let main_cst : FVec F S_ .f32 := constant S_ .f32 0x7F800000#32
  let main_v1 : FVec F S32x255x76x76 .f32 := broadcastInDim S32x255x76x76 ![] bcast_S_S32x255x76x76 main_cst
  let main_v2 : IVec S32x255x76x76 1 := cmpf .olt main_v0 main_v1
  let main_c : IVec S_ 1 := constantI S_ 1 1#1
  let main_v3 : IVec S_ 1 := (fun x v => Host.reduce IntOp.andi x v reducesTo_S32x255x76x76_S_d0_1_2_3 h_S_) main_v2 main_c
  let main_v4 : FVec F S2x1x1x3 .f32 := Host.absf main_arg1
  let main_cst_0 : FVec F S_ .f32 := constant S_ .f32 0x7F800000#32
  let main_v5 : FVec F S2x1x1x3 .f32 := broadcastInDim S2x1x1x3 ![] bcast_S_S2x1x1x3 main_cst_0
  let main_v6 : IVec S2x1x1x3 1 := cmpf .olt main_v4 main_v5
  let main_c_1 : IVec S_ 1 := constantI S_ 1 1#1
  let main_v7 : IVec S_ 1 := (fun x v => Host.reduce IntOp.andi x v reducesTo_S2x1x1x3_S_d0_1_2_3 h_S_) main_v6 main_c_1
  let main_v8 : IVec S_ 1 := andi main_v3 main_v7
  main_v8
-- ==== Kernel.lean ====
abbrev S32x255x76x76 : Shape := ⟨4, ![32, 255, 76, 76]⟩
abbrev S2x1x1x3 : Shape := ⟨4, ![2, 1, 1, 3]⟩
abbrev S2x3 : Shape := ⟨2, ![2, 3]⟩
abbrev S3x2 : Shape := ⟨2, ![3, 2]⟩
abbrev S1x1x3x2 : Shape := ⟨4, ![1, 1, 3, 2]⟩
abbrev S32x76x76x3x4 : Shape := ⟨5, ![32, 76, 76, 3, 4]⟩
abbrev S32x76x76x3x80 : Shape := ⟨5, ![32, 76, 76, 3, 80]⟩
abbrev S32x76x76x3 : Shape := ⟨4, ![32, 76, 76, 3]⟩
abbrev S1x255x40x76 : Shape := ⟨4, ![1, 255, 40, 76]⟩
abbrev S1x40x76x3x4 : Shape := ⟨5, ![1, 40, 76, 3, 4]⟩
abbrev S1x40x76x3x80 : Shape := ⟨5, ![1, 40, 76, 3, 80]⟩
abbrev S1x40x76x3 : Shape := ⟨4, ![1, 40, 76, 3]⟩
abbrev S255x40x76 : Shape := ⟨3, ![255, 40, 76]⟩
abbrev S3x85x40x76 : Shape := ⟨4, ![3, 85, 40, 76]⟩
abbrev S40x76x3x85 : Shape := ⟨4, ![40, 76, 3, 85]⟩
abbrev S40x76x3x2 : Shape := ⟨4, ![40, 76, 3, 2]⟩
abbrev S40x76x3x1 : Shape := ⟨4, ![40, 76, 3, 1]⟩
abbrev S40x76x3x80 : Shape := ⟨4, ![40, 76, 3, 80]⟩
abbrev S40x76 : Shape := ⟨2, ![40, 76]⟩
abbrev S40x76x1x1 : Shape := ⟨4, ![40, 76, 1, 1]⟩
abbrev S40x76x3 : Shape := ⟨3, ![40, 76, 3]⟩
abbrev S40x76x3x4 : Shape := ⟨4, ![40, 76, 3, 4]⟩
abbrev S32x17328x4 : Shape := ⟨3, ![32, 17328, 4]⟩
abbrev S32x17328x80 : Shape := ⟨3, ![32, 17328, 80]⟩
abbrev S32x17328 : Shape := ⟨2, ![32, 17328]⟩

abbrev nBuf : Space → Nat
  | .hbm => 11
  | .vmem => 9
  | .smem => 0
  | _ => 0

abbrev bufTy : (tb : Table) → Fin (tcTables nBuf tb) → BufTy
  | .hbm, ⟨0, _⟩ => ⟨S32x255x76x76, .f32⟩
  | .hbm, ⟨1, _⟩ => ⟨S2x1x1x3, .f32⟩
  | .hbm, ⟨2, _⟩ => ⟨S2x3, .f32⟩
  | .hbm, ⟨3, _⟩ => ⟨S3x2, .f32⟩
  | .hbm, ⟨4, _⟩ => ⟨S1x1x3x2, .f32⟩
  | .hbm, ⟨5, _⟩ => ⟨S32x76x76x3x4, .f32⟩
  | .hbm, ⟨6, _⟩ => ⟨S32x76x76x3x80, .f32⟩
  | .hbm, ⟨7, _⟩ => ⟨S32x76x76x3, .f32⟩
  | .hbm, ⟨8, _⟩ => ⟨S32x17328x4, .f32⟩
  | .hbm, ⟨9, _⟩ => ⟨S32x17328x80, .f32⟩
  | .hbm, ⟨10, _⟩ => ⟨S32x17328, .f32⟩
  | .local _ .vmem, ⟨0, _⟩ => ⟨S1x255x40x76, .f32⟩
  | .local _ .vmem, ⟨1, _⟩ => ⟨S1x255x40x76, .f32⟩
  | .local _ .vmem, ⟨2, _⟩ => ⟨S1x1x3x2, .f32⟩
  | .local _ .vmem, ⟨3, _⟩ => ⟨S1x40x76x3x4, .f32⟩
  | .local _ .vmem, ⟨4, _⟩ => ⟨S1x40x76x3x4, .f32⟩
  | .local _ .vmem, ⟨5, _⟩ => ⟨S1x40x76x3x80, .f32⟩
  | .local _ .vmem, ⟨6, _⟩ => ⟨S1x40x76x3x80, .f32⟩
  | .local _ .vmem, ⟨7, _⟩ => ⟨S1x40x76x3, .f32⟩
  | .local _ .vmem, ⟨8, _⟩ => ⟨S1x40x76x3, .f32⟩
  | _, _ => ⟨S32x255x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x255x40x76 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x40x76x3x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x76x3x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x76x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x1x1x3_S2x3 : S2x1x1x3.ShapeCasts S2x3
  transposes_S2x3_S3x2_1_0 : S2x3.Transposes [1, 0] S3x2
  shapeCasts_S3x2_S1x1x3x2 : S3x2.ShapeCasts S1x1x3x2
  inb_S1x255x40x76_S1x255x40x76_0_0_0_0 : ∀ a, (![0, 0, 0, 0] : Fin 4 → Nat) a + S1x255x40x76.size a ≤ S1x255x40x76.size a
  h_S1x255x40x76 : 0 < S1x255x40x76.numel
  shapeCasts_S1x255x40x76_S255x40x76 : S1x255x40x76.ShapeCasts S255x40x76
  shapeCasts_S255x40x76_S3x85x40x76 : S255x40x76.ShapeCasts S3x85x40x76
  transposes_S3x85x40x76_p2_3_0_1_S40x76x3x85 : S3x85x40x76.Transposes [2, 3, 0, 1] S40x76x3x85
  slices_S40x76x3x85_o0_0_0_0_S40x76x3x2 : S40x76x3x85.Slices ![0, 0, 0, 0] S40x76x3x2
  slices_S40x76x3x85_o0_0_0_2_S40x76x3x2 : S40x76x3x85.Slices ![0, 0, 0, 2] S40x76x3x2
  slices_S40x76x3x85_o0_0_0_4_S40x76x3x1 : S40x76x3x85.Slices ![0, 0, 0, 4] S40x76x3x1
  slices_S40x76x3x85_o0_0_0_5_S40x76x3x80 : S40x76x3x85.Slices ![0, 0, 0, 5] S40x76x3x80
  iota_S40x76_d0_w32 : S40x76.Iotas .tc 32 [0]
  iota_S40x76_d1_w32 : S40x76.Iotas .tc 32 [1]
  shapeCasts_S40x76_S40x76x1x1 : S40x76.ShapeCasts S40x76x1x1
  slices_S40x76x3x2_o0_0_0_0_S40x76x3x1 : S40x76x3x2.Slices ![0, 0, 0, 0] S40x76x3x1
  broadcasts_S40x76x1x1_S40x76x3x1 : S40x76x1x1.Broadcasts S40x76x3x1
  slices_S40x76x3x2_o0_0_0_1_S40x76x3x1 : S40x76x3x2.Slices ![0, 0, 0, 1] S40x76x3x1
  concatenates_S40x76x3x1_S40x76x3x1_S40x76x3x2_d3 : Shape.Concatenates [S40x76x3x1, S40x76x3x1] S40x76x3x2 3
  inb_S1x1x3x2_S1x1x3x2_0_0_0_0 : ∀ a, (![0, 0, 0, 0] : Fin 4 → Nat) a + S1x1x3x2.size a ≤ S1x1x3x2.size a
  h_S1x1x3x2 : 0 < S1x1x3x2.numel
  shapeCasts_S1x1x3x2_S3x2 : S1x1x3x2.ShapeCasts S3x2
  broadcasts_S1x1x3x2_S40x76x3x2 : S1x1x3x2.Broadcasts S40x76x3x2
  broadcasts_S40x76x3x1_S40x76x3x80 : S40x76x3x1.Broadcasts S40x76x3x80
  reduces_S40x76x3x80_S40x76x3 : S40x76x3x80.Reduces [3] S40x76x3
  concatenates_S40x76x3x2_S40x76x3x2_S40x76x3x4_d3 : Shape.Concatenates [S40x76x3x2, S40x76x3x2] S40x76x3x4 3
  inb_S1x40x76x3x4_S1x40x76x3x4_0_0_0_0_0 : ∀ a, (![0, 0, 0, 0, 0] : Fin 5 → Nat) a + S1x40x76x3x4.size a ≤ S1x40x76x3x4.size a
  h_S1x40x76x3x4 : 0 < S1x40x76x3x4.numel
  shapeCasts_S1x40x76x3x4_S40x76x3x4 : S1x40x76x3x4.ShapeCasts S40x76x3x4
  shapeCasts_S40x76x3x4_S1x40x76x3x4 : S40x76x3x4.ShapeCasts S1x40x76x3x4
  inb_S1x40x76x3x80_S1x40x76x3x80_0_0_0_0_0 : ∀ a, (![0, 0, 0, 0, 0] : Fin 5 → Nat) a + S1x40x76x3x80.size a ≤ S1x40x76x3x80.size a
  h_S1x40x76x3x80 : 0 < S1x40x76x3x80.numel
  shapeCasts_S1x40x76x3x80_S40x76x3x80 : S1x40x76x3x80.ShapeCasts S40x76x3x80
  shapeCasts_S40x76x3x80_S1x40x76x3x80 : S40x76x3x80.ShapeCasts S1x40x76x3x80
  inb_S1x40x76x3_S1x40x76x3_0_0_0_0 : ∀ a, (![0, 0, 0, 0] : Fin 4 → Nat) a + S1x40x76x3.size a ≤ S1x40x76x3.size a
  h_S1x40x76x3 : 0 < S1x40x76x3.numel
  shapeCasts_S1x40x76x3_S40x76x3 : S1x40x76x3.ShapeCasts S40x76x3
  shapeCasts_S40x76x3_S1x40x76x3 : S40x76x3.ShapeCasts S1x40x76x3
  shapeCasts_S32x76x76x3x4_S32x17328x4 : S32x76x76x3x4.ShapeCasts S32x17328x4
  shapeCasts_S32x76x76x3x80_S32x17328x80 : S32x76x76x3x80.ShapeCasts S32x17328x80
  shapeCasts_S32x76x76x3_S32x17328 : S32x76x76x3.ShapeCasts S32x17328
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x255x40x76.size a < S32x255x76x76.size a
  hwx0_0 : ∀ i : grid0.Coords, EltTy.bits .f32 = 32 ∨ (Rect.unit (s := S32x255x76x76) (fun a => cc0_transform_0 i a * S1x255x40x76.size a) (fun a => (Pipeline.Clip.of (cc0_transform_0 i a) (S1x255x40x76.size a) (S32x255x76x76.size a)).extent (S1x255x40x76.size a)) fun a => Pipeline.Clip.inb (Pipeline.Clip.ok_of (hstart0_0 i a))).WholeWords (EltTy.packing .f32)
  hwxs0_0 : ∀ i : grid0.Coords, EltTy.bits .f32 = 32 ∨ (Rect.unit (s := S1x255x40x76) (fun _ => 0) (fun a => (Pipeline.Clip.of (cc0_transform_0 i a) (S1x255x40x76.size a) (S32x255x76x76.size a)).extent (S1x255x40x76.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x3x2.size a ≤ S1x1x3x2.size a
  hwx0_1 : ∀ i : grid0.Coords, EltTy.bits .f32 = 32 ∨ (Rect.block (s := S1x1x3x2) S1x1x3x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x40x76x3x4.size a < S32x76x76x3x4.size a
  hwx0_2 : ∀ i : grid0.Coords, EltTy.bits .f32 = 32 ∨ (Rect.unit (s := S32x76x76x3x4) (fun a => cc0_transform_2 i a * S1x40x76x3x4.size a) (fun a => (Pipeline.Clip.of (cc0_transform_2 i a) (S1x40x76x3x4.size a) (S32x76x76x3x4.size a)).extent (S1x40x76x3x4.size a)) fun a => Pipeline.Clip.inb (Pipeline.Clip.ok_of (hstart0_2 i a))).WholeWords (EltTy.packing .f32)
  hwxs0_2 : ∀ i : grid0.Coords, EltTy.bits .f32 = 32 ∨ (Rect.unit (s := S1x40x76x3x4) (fun _ => 0) (fun a => (Pipeline.Clip.of (cc0_transform_2 i a) (S1x40x76x3x4.size a) (S32x76x76x3x4.size a)).extent (S1x40x76x3x4.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x40x76x3x80.size a < S32x76x76x3x80.size a
  hwx0_3 : ∀ i : grid0.Coords, EltTy.bits .f32 = 32 ∨ (Rect.unit (s := S32x76x76x3x80) (fun a => cc0_transform_3 i a * S1x40x76x3x80.size a) (fun a => (Pipeline.Clip.of (cc0_transform_3 i a) (S1x40x76x3x80.size a) (S32x76x76x3x80.size a)).extent (S1x40x76x3x80.size a)) fun a => Pipeline.Clip.inb (Pipeline.Clip.ok_of (hstart0_3 i a))).WholeWords (EltTy.packing .f32)
  hwxs0_3 : ∀ i : grid0.Coords, EltTy.bits .f32 = 32 ∨ (Rect.unit (s := S1x40x76x3x80) (fun _ => 0) (fun a => (Pipeline.Clip.of (cc0_transform_3 i a) (S1x40x76x3x80.size a) (S32x76x76x3x80.size a)).extent (S1x40x76x3x80.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x40x76x3.size a < S32x76x76x3.size a
  hwx0_4 : ∀ i : grid0.Coords, EltTy.bits .f32 = 32 ∨ (Rect.unit (s := S32x76x76x3) (fun a => cc0_transform_4 i a * S1x40x76x3.size a) (fun a => (Pipeline.Clip.of (cc0_transform_4 i a) (S1x40x76x3.size a) (S32x76x76x3.size a)).extent (S1x40x76x3.size a)) fun a => Pipeline.Clip.inb (Pipeline.Clip.ok_of (hstart0_4 i a))).WholeWords (EltTy.packing .f32)
  hwxs0_4 : ∀ i : grid0.Coords, EltTy.bits .f32 = 32 ∨ (Rect.unit (s := S1x40x76x3) (fun _ => 0) (fun a => (Pipeline.Clip.of (cc0_transform_4 i a) (S1x40x76x3.size a) (S32x76x76x3.size a)).extent (S1x40x76x3.size a)) fun a => (Nat.zero_add _).trans_le (Pipeline.Clip.extent_le (Pipeline.Clip.ok_of (hstart0_4 i a)))).WholeWords (EltTy.packing .f32)

variable [Facts₀]

abbrev win0_0 : Pipeline.Window sig grid0 :=
  Pipeline.Window.ofSpecClip (Memref.whole main_arg0) S1x255x40x76.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S1x1x3x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v3_0) S1x40x76x3x4.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3_1) S1x40x76x3x80.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3_2) S1x40x76x3.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x255x76x76 : Shape := ⟨4, ![32, 255, 76, 76]⟩
abbrev S2x1x1x3 : Shape := ⟨4, ![2, 1, 1, 3]⟩
abbrev S2 : Shape := ⟨1, ![2]⟩
abbrev S32x3x85x76x76 : Shape := ⟨5, ![32, 3, 85, 76, 76]⟩
abbrev S32x85x76x76x3 : Shape := ⟨5, ![32, 85, 76, 76, 3]⟩
abbrev S32x2x76x76x3 : Shape := ⟨5, ![32, 2, 76, 76, 3]⟩
abbrev S32x1x76x76x3 : Shape := ⟨5, ![32, 1, 76, 76, 3]⟩
abbrev S32x80x76x76x3 : Shape := ⟨5, ![32, 80, 76, 76, 3]⟩
abbrev S76 : Shape := ⟨1, ![76]⟩
abbrev S76x76 : Shape := ⟨2, ![76, 76]⟩
abbrev S1x76x76 : Shape := ⟨3, ![1, 76, 76]⟩
abbrev S2x76x76 : Shape := ⟨3, ![2, 76, 76]⟩
abbrev S1x2x76x76x1 : Shape := ⟨5, ![1, 2, 76, 76, 1]⟩
abbrev S1x2x1x1x1 : Shape := ⟨5, ![1, 2, 1, 1, 1]⟩
abbrev S_ : Shape := ⟨0, ![]⟩
abbrev S1x2x1x1x3 : Shape := ⟨5, ![1, 2, 1, 1, 3]⟩
abbrev S32x80x17328 : Shape := ⟨3, ![32, 80, 17328]⟩
abbrev S32x17328x80 : Shape := ⟨3, ![32, 17328, 80]⟩
abbrev S32x17328 : Shape := ⟨2, ![32, 17328]⟩
abbrev S32x4x76x76x3 : Shape := ⟨5, ![32, 4, 76, 76, 3]⟩
abbrev S32x4x17328 : Shape := ⟨3, ![32, 4, 17328]⟩
abbrev S32x17328x4 : Shape := ⟨3, ![32, 17328, 4]⟩

abbrev nBuf : Space → Nat
  | .hbm => 65
  | .vmem => 0
  | .smem => 0
  | _ => 0

abbrev bufTy : (tb : Table) → Fin (tcTables nBuf tb) → BufTy
  | .hbm, ⟨0, _⟩ => ⟨S32x255x76x76, .f32⟩
  | .hbm, ⟨1, _⟩ => ⟨S2x1x1x3, .f32⟩
  | .hbm, ⟨2, _⟩ => ⟨S2, .f32⟩
  | .hbm, ⟨3, _⟩ => ⟨S32x3x85x76x76, .f32⟩
  | .hbm, ⟨4, _⟩ => ⟨S32x85x76x76x3, .f32⟩
  | .hbm, ⟨5, _⟩ => ⟨S32x2x76x76x3, .f32⟩
  | .hbm, ⟨6, _⟩ => ⟨S32x2x76x76x3, .f32⟩
  | .hbm, ⟨7, _⟩ => ⟨S32x1x76x76x3, .f32⟩
  | .hbm, ⟨8, _⟩ => ⟨S32x80x76x76x3, .f32⟩
  | .hbm, ⟨9, _⟩ => ⟨S76, .i32⟩
  | .hbm, ⟨10, _⟩ => ⟨S76, .i32⟩
  | .hbm, ⟨11, _⟩ => ⟨S76x76, .i32⟩
  | .hbm, ⟨12, _⟩ => ⟨S76x76, .i32⟩
  | .hbm, ⟨13, _⟩ => ⟨S1x76x76, .i32⟩
  | .hbm, ⟨14, _⟩ => ⟨S1x76x76, .i32⟩
  | .hbm, ⟨15, _⟩ => ⟨S2x76x76, .i32⟩
  | .hbm, ⟨16, _⟩ => ⟨S1x2x76x76x1, .i32⟩
  | .hbm, ⟨17, _⟩ => ⟨S1x2x76x76x1, .f32⟩
  | .hbm, ⟨18, _⟩ => ⟨S1x2x1x1x1, .f32⟩
  | .hbm, ⟨19, _⟩ => ⟨S32x2x76x76x3, .f32⟩
  | .hbm, ⟨20, _⟩ => ⟨S32x2x76x76x3, .f32⟩
  | .hbm, ⟨21, _⟩ => ⟨S_, .f32⟩
  | .hbm, ⟨22, _⟩ => ⟨S32x2x76x76x3, .f32⟩
  | .hbm, ⟨23, _⟩ => ⟨S32x2x76x76x3, .f32⟩
  | .hbm, ⟨24, _⟩ => ⟨S_, .f32⟩
  | .hbm, ⟨25, _⟩ => ⟨S32x2x76x76x3, .f32⟩
  | .hbm, ⟨26, _⟩ => ⟨S32x2x76x76x3, .f32⟩
  | .hbm, ⟨27, _⟩ => ⟨S32x2x76x76x3, .f32⟩
  | .hbm, ⟨28, _⟩ => ⟨S32x2x76x76x3, .f32⟩
  | .hbm, ⟨29, _⟩ => ⟨S32x2x76x76x3, .f32⟩
  | .hbm, ⟨30, _⟩ => ⟨S32x2x76x76x3, .f32⟩
  | .hbm, ⟨31, _⟩ => ⟨S32x2x76x76x3, .f32⟩
  | .hbm, ⟨32, _⟩ => ⟨S1x2x1x1x3, .f32⟩
  | .hbm, ⟨33, _⟩ => ⟨S32x2x76x76x3, .f32⟩
  | .hbm, ⟨34, _⟩ => ⟨S32x2x76x76x3, .f32⟩
  | .hbm, ⟨35, _⟩ => ⟨S32x80x76x76x3, .f32⟩
  | .hbm, ⟨36, _⟩ => ⟨S32x80x76x76x3, .f32⟩
  | .hbm, ⟨37, _⟩ => ⟨S_, .f32⟩
  | .hbm, ⟨38, _⟩ => ⟨S32x80x76x76x3, .f32⟩
  | .hbm, ⟨39, _⟩ => ⟨S32x80x76x76x3, .f32⟩
  | .hbm, ⟨40, _⟩ => ⟨S_, .f32⟩
  | .hbm, ⟨41, _⟩ => ⟨S32x80x76x76x3, .f32⟩
  | .hbm, ⟨42, _⟩ => ⟨S32x80x76x76x3, .f32⟩
  | .hbm, ⟨43, _⟩ => ⟨S32x1x76x76x3, .f32⟩
  | .hbm, ⟨44, _⟩ => ⟨S32x1x76x76x3, .f32⟩
  | .hbm, ⟨45, _⟩ => ⟨S_, .f32⟩
  | .hbm, ⟨46, _⟩ => ⟨S32x1x76x76x3, .f32⟩
  | .hbm, ⟨47, _⟩ => ⟨S32x1x76x76x3, .f32⟩
  | .hbm, ⟨48, _⟩ => ⟨S_, .f32⟩
  | .hbm, ⟨49, _⟩ => ⟨S32x1x76x76x3, .f32⟩
  | .hbm, ⟨50, _⟩ => ⟨S32x1x76x76x3, .f32⟩
  | .hbm, ⟨51, _⟩ => ⟨S32x80x76x76x3, .f32⟩
  | .hbm, ⟨52, _⟩ => ⟨S32x80x76x76x3, .f32⟩
  | .hbm, ⟨53, _⟩ => ⟨S32x80x17328, .f32⟩
  | .hbm, ⟨54, _⟩ => ⟨S32x17328x80, .f32⟩
  | .hbm, ⟨55, _⟩ => ⟨S_, .f32⟩
  | .hbm, ⟨56, _⟩ => ⟨S32x17328, .f32⟩
  | .hbm, ⟨57, _⟩ => ⟨S_, .f32⟩
  | .hbm, ⟨58, _⟩ => ⟨S32x2x76x76x3, .f32⟩
  | .hbm, ⟨59, _⟩ => ⟨S32x2x76x76x3, .f32⟩
  | .hbm, ⟨60, _⟩ => ⟨S32x2x76x76x3, .f32⟩
  | .hbm, ⟨61, _⟩ => ⟨S32x2x76x76x3, .f32⟩
  | .hbm, ⟨62, _⟩ => ⟨S32x4x76x76x3, .f32⟩
  | .hbm, ⟨63, _⟩ => ⟨S32x4x17328, .f32⟩
  | .hbm, ⟨64, _⟩ => ⟨S32x17328x4, .f32⟩
  | _, _ => ⟨S32x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]

class Facts₀ : Prop where
  shapeCasts_S32x255x76x76_S32x3x85x76x76 : S32x255x76x76.ShapeCasts S32x3x85x76x76
  transposes_S32x3x85x76x76_S32x85x76x76x3_0_2_3_4_1 : S32x3x85x76x76.Transposes [0, 2, 3, 4, 1] S32x85x76x76x3
  slices_S32x85x76x76x3_S32x2x76x76x3_0_0_0_0_0 : S32x85x76x76x3.Slices ![0, 0, 0, 0, 0] S32x2x76x76x3
  slices_S32x85x76x76x3_S32x2x76x76x3_0_2_0_0_0 : S32x85x76x76x3.Slices ![0, 2, 0, 0, 0] S32x2x76x76x3
  slices_S32x85x76x76x3_S32x1x76x76x3_0_4_0_0_0 : S32x85x76x76x3.Slices ![0, 4, 0, 0, 0] S32x1x76x76x3
  slices_S32x85x76x76x3_S32x80x76x76x3_0_5_0_0_0 : S32x85x76x76x3.Slices ![0, 5, 0, 0, 0] S32x80x76x76x3
  bcast_S76_S76x76_0 : S76.BroadcastsInDim S76x76 (![0] : Fin 1 → Fin S76x76.rank)
  bcast_S76_S76x76_1 : S76.BroadcastsInDim S76x76 (![1] : Fin 1 → Fin S76x76.rank)
  bcast_S76x76_S1x76x76_1_2 : S76x76.BroadcastsInDim S1x76x76 (![1, 2] : Fin 2 → Fin S1x76x76.rank)
  concatenates_S1x76x76_S1x76x76_S2x76x76_d0 : Shape.Concatenates [S1x76x76, S1x76x76] S2x76x76 0
  shapeCasts_S2x76x76_S1x2x76x76x1 : S2x76x76.ShapeCasts S1x2x76x76x1
  shapeCasts_S2_S1x2x1x1x1 : S2.ShapeCasts S1x2x1x1x1
  bcast_S_S32x2x76x76x3 : S_.BroadcastsInDim S32x2x76x76x3 (![] : Fin 0 → Fin S32x2x76x76x3.rank)
  bcast_S1x2x76x76x1_S32x2x76x76x3_0_1_2_3_4 : S1x2x76x76x1.BroadcastsInDim S32x2x76x76x3 (![0, 1, 2, 3, 4] : Fin 5 → Fin S32x2x76x76x3.rank)
  bcast_S1x2x1x1x1_S32x2x76x76x3_0_1_2_3_4 : S1x2x1x1x1.BroadcastsInDim S32x2x76x76x3 (![0, 1, 2, 3, 4] : Fin 5 → Fin S32x2x76x76x3.rank)
  bcast_S2x1x1x3_S1x2x1x1x3_1_2_3_4 : S2x1x1x3.BroadcastsInDim S1x2x1x1x3 (![1, 2, 3, 4] : Fin 4 → Fin S1x2x1x1x3.rank)
  bcast_S1x2x1x1x3_S32x2x76x76x3_0_1_2_3_4 : S1x2x1x1x3.BroadcastsInDim S32x2x76x76x3 (![0, 1, 2, 3, 4] : Fin 5 → Fin S32x2x76x76x3.rank)
  bcast_S_S32x80x76x76x3 : S_.BroadcastsInDim S32x80x76x76x3 (![] : Fin 0 → Fin S32x80x76x76x3.rank)
  bcast_S_S32x1x76x76x3 : S_.BroadcastsInDim S32x1x76x76x3 (![] : Fin 0 → Fin S32x1x76x76x3.rank)
  bcast_S32x1x76x76x3_S32x80x76x76x3_0_1_2_3_4 : S32x1x76x76x3.BroadcastsInDim S32x80x76x76x3 (![0, 1, 2, 3, 4] : Fin 5 → Fin S32x80x76x76x3.rank)
  shapeCasts_S32x80x76x76x3_S32x80x17328 : S32x80x76x76x3.ShapeCasts S32x80x17328
  transposes_S32x80x17328_S32x17328x80_0_2_1 : S32x80x17328.Transposes [0, 2, 1] S32x17328x80
  reducesTo_S32x17328x80_S32x17328_d2 : S32x17328x80.ReducesTo [2] S32x17328
  h_S_ : 0 < S_.numel
  concatenates_S32x2x76x76x3_S32x2x76x76x3_S32x4x76x76x3_d1 : Shape.Concatenates [S32x2x76x76x3, S32x2x76x76x3] S32x4x76x76x3 1
  shapeCasts_S32x4x76x76x3_S32x4x17328 : S32x4x76x76x3.ShapeCasts S32x4x17328
  transposes_S32x4x17328_S32x17328x4_0_2_1 : S32x4x17328.Transposes [0, 2, 1] S32x17328x4

variable [Facts₀]

class Facts : Prop extends Facts₀ where

variable [Facts]
-- ==== Proof.WBody.lean ====
/-
  The kernel's body on one tile.

  A grid point is a pair (image b, tile wt of the W axis). There the body finds, in its staging buffers, the input
  tile — all 255 channels of 40 consecutive W rows and all 76 H columns — and the 3 × 2 table of anchor priors, and it
  writes three tiles: the boxes, the class confidences and the scores of those 40 × 76 cells, for the 3 anchors.
  It loads the two input buffers whole and stores the three output buffers whole (it also loads each output buffer
  before storing to it, and uses nothing of what it loaded), so each stored tile is a pure function of the two tiles
  read: `boxBlk`, `confBlk`, `scoreBlk` below, named over the arithmetic of the printed body. This file proves that
  triple, at any float instance; what the three functions compute, cell by cell, is proved elsewhere.
-/
import proofs.«151503_j8108898254914_1_alg».proof.Proof.Gen.Kernel.Frame
import proofs.«151503_j8108898254914_1_alg».proof.Proof.Gen.Kernel.Skeleton
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body leaves -/

def boxBlk (i : grid0.Coords) (x0 : Vec F S1x255x40x76 .f32) (x1 : Vec F S1x1x3x2 .f32) : Vec F S1x40x76x3x4 .f32 :=
  k0_pay1 (k0_pay9 i x0 x1) (k0_pay10 i x0 x1)
def confBlk (x0 : Vec F S1x255x40x76 .f32) : Vec F S1x40x76x3x80 .f32 := k0_pay2 (k0_pay6 x0)
def scoreBlk (x0 : Vec F S1x255x40x76 .f32) : Vec F S1x40x76x3 .f32 := k0_pay3 (k0_pay7 x0)

theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

set_option maxHeartbeats 1000000 in
/-- The body's triple: on whole staging memrefs, the two inputs at `x0` and `x1` and the three outputs at anything, it
    runs to the continuation with the inputs as they were and the outputs at `boxBlk`, `confBlk`, `scoreBlk` of them
    (each store overwrites its whole buffer, so what a buffer held before is immaterial). -/
theorem sound_kernel (c : Dev nD) (E : Set ℕ) (i : grid0.Coords)
    (arg2 : Memref sig .tc .vmem S1x255x40x76 .f32) (harg2 : arg2.IsWhole) (arg3 : Memref sig .tc .vmem S1x1x3x2 .f32) (harg3 : arg3.IsWhole)
    (arg4 : Memref sig .tc .vmem S1x40x76x3x4 .f32) (harg4 : arg4.IsWhole) (arg5 : Memref sig .tc .vmem S1x40x76x3x80 .f32) (harg5 : arg5.IsWhole)
    (arg6 : Memref sig .tc .vmem S1x40x76x3 .f32) (harg6 : arg6.IsWhole)
    (x0 : Vec F S1x255x40x76 .f32) (x1 : Vec F S1x1x3x2 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (boxBlk i x0 x1) ∗ owns (c : Thread nD τ) arg5 fullShare (confBlk x0)
            ∗ owns (c : Thread nD τ) arg6 fullShare (scoreBlk x0)) -∗ K ⟨⟩))
      ⊢ wp frame (wpE (defs₀ (F := F)) Variants.none c none) E (cc0__yolo_kernel i arg2 harg2 arg3 harg3 arg4 harg4 arg5 harg5 arg6 harg6) K := by
  simp only [cc0__yolo_kernel_eq_skeleton]; unfold cc0__yolo_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros5 inb_S1x40x76x3x4_S1x40x76x3x4_0_0_0_0_0 y⟩),
      View.canon_unit_zero zeros5]
    dsimp only
    simp only [View.readAt_eq_ld, View.ld_unit_zero (S := S1x255x40x76) zeros4, View.ld_unit_zero (S := S1x1x3x2) zeros4]
    unfold boxBlk; rfl
  isplitl [H3]
  · iexists _; isplitr
    swap; · iexact H3
    ipureintro
    rw [View.read_writes_eq_canon _ _ _ (fun y => ⟨_, List.mem_singleton_self _, View.mem_set_unit_zero zeros5 inb_S1x40x76x3x80_S1x40x76x3x80_0_0_0_0_0 y⟩),
      View.canon_unit_zero zeros5]
    dsimp only
    simp only [View.readAt_eq_ld, View.ld_unit_zero (S := S1x255x40x76) zeros4, View.ld_unit_zero (S := S1x1x3x2) zeros4]
    unfold confBlk; rfl
  · iexists _; isplitr
    swap; · iexact H4
    ipureintro
    rw [View.read_writes_eq_canon _ _ _ (fun y => ⟨_, List.mem_singleton_self _, View.mem_set_unit_zero zeros4 inb_S1x40x76x3_S1x40x76x3_0_0_0_0 y⟩),
      View.canon_unit_zero zeros4]
    dsimp only
    simp only [View.readAt_eq_ld, View.ld_unit_zero (S := S1x255x40x76) zeros4, View.ld_unit_zero (S := S1x1x3x2) zeros4]
    unfold scoreBlk; rfl

end Cert.Kernel.Body

end
-- ==== Proof.BoxDecode.lean ====
/-
  The box decoding, cell by cell.

  The input is a feature map x[b, ch, w, h] with 255 = 3 · 85 channels, anchor-major: channel 85·a + f is feature f of
  anchor a. For the cell (b, w, h) and the anchor a, with σ the logistic function:
    · the class confidences are  σ(x[85a + 5 + c]) · σ(x[85a + 4])  for the 80 classes c,
    · the score is the greatest of those 80 confidences,
    · the box centre has coordinates  (σ(x[85a + k]) + g k) / 76,  k = 0, 1, where g 0 = w and g 1 = h are the cell's
      own coordinates on the 76 × 76 grid,
    · the box half-extents are  exp(x[85a + 2 + k]) · anchor[k, a] · ½,
    · and the box is (centre − half, centre + half): four numbers, the two differences first.
  Every result element depends on the input only through the 255 channels of ONE cell (`colAt`), which is what makes the
  computation indifferent to how the W axis is cut into tiles.
  The three results as whole arrays are `boxes5`, `conf5` (five axes: b, w, h, a and the coordinate or class) and
  `scores4`; the programs return them with (w, h, a) flattened into one axis of 76 · 76 · 3 = 17328, a row-major
  reshape (`boxesOut`, `confOut`, `scoresOut`).
-/
import Idealize.ShloMosaic.Lib.ValueIdx
import Idealize.ShloMosaic.Lib.Pipeline.Value
import Idealize.ShloMosaic.PureOps.Ideal.Laws

noncomputable section

namespace Cert.BoxDecode

open Idealize.ShloMosaic Idealize.ShloMosaic.ValueIdx

variable {F : FTy → Type} [FloatOps F]

/-- The channel of feature `f` of anchor `a`. -/
def chan (a : Fin 3) (f : Nat) (hf : f < 85) : Fin 255 := ⟨a.val * 85 + f, by have := a.isLt; omega⟩

section Point

variable (col : Fin 255 → F .f32)

/-- Confidence of class `cl` for anchor `a`: σ(class logit) · σ(objectness). -/
def confPt (a : Fin 3) (cl : Fin 80) : F .f32 :=
  FloatOps.mulf (FloatOps.logistic (col (chan a (5 + cl.val) (by have := cl.isLt; omega))))
    (FloatOps.logistic (col (chan a 4 (by omega))))

/-- Centre coordinate `k` of anchor `a`'s box in a cell whose own coordinate is `g`: (σ(t) + g) / 76. -/
def centrePt (g : F .f32) (a : Fin 3) (k : Fin 2) : F .f32 :=
  FloatOps.divf (FloatOps.addf (FloatOps.logistic (col (chan a k.val (by have := k.isLt; omega)))) g)
    (FloatOps.ofBits .f32 0x42980000#32)

/-- Half-extent `k` of anchor `a`'s box, the anchor's prior being `an`: exp(t) · an · ½. -/
def halfPt (an : F .f32) (a : Fin 3) (k : Fin 2) : F .f32 :=
  FloatOps.mulf (FloatOps.mulf (FloatOps.exp (col (chan a (2 + k.val) (by have := k.isLt; omega)))) an)
    (FloatOps.ofBits .f32 0x3F000000#32)

/-- Box coordinate `k` of anchor `a`: centre − half for `k = 0, 1`, centre + half for `k = 2, 3`. -/
def boxPt (g an : Fin 2 → F .f32) (a : Fin 3) (k : Fin 4) : F .f32 :=
  if h : k.val < 2 then
    FloatOps.subf (centrePt col (g ⟨k.val, h⟩) a ⟨k.val, h⟩) (halfPt col (an ⟨k.val, h⟩) a ⟨k.val, h⟩)
  else
    FloatOps.addf (centrePt col (g ⟨k.val - 2, by have := k.isLt; omega⟩) a ⟨k.val - 2, by have := k.isLt; omega⟩)
      (halfPt col (an ⟨k.val - 2, by have := k.isLt; omega⟩) a ⟨k.val - 2, by have := k.isLt; omega⟩)

end Point

/-! ## The arrays -/

abbrev SX : Shape := ⟨4, ![32, 255, 76, 76]⟩
abbrev SA : Shape := ⟨4, ![2, 1, 1, 3]⟩
abbrev SB5 : Shape := ⟨5, ![32, 76, 76, 3, 4]⟩
abbrev SC5 : Shape := ⟨5, ![32, 76, 76, 3, 80]⟩
abbrev SS4 : Shape := ⟨4, ![32, 76, 76, 3]⟩
abbrev SB3 : Shape := ⟨3, ![32, 17328, 4]⟩
abbrev SC3 : Shape := ⟨3, ![32, 17328, 80]⟩
abbrev SS2 : Shape := ⟨2, ![32, 17328]⟩

/-- The 255 channels of the cell (b, w, h). -/
def colAt (x : SX.Idx → F .f32) (b : Fin 32) (w h : Fin 76) : Fin 255 → F .f32 := fun ch => x (ix4 b ch w h)

/-- The cell's own coordinates as floats: `w` for `k = 0`, `h` for `k = 1`. -/
def gridAt (w h : Fin 76) : Fin 2 → F .f32 := fun k =>
  FloatOps.sitofp .f32 (BitVec.ofNat 32 (if k.val = 0 then w.val else h.val))

/-- Anchor `a`'s two priors. -/
def ancAt (an : SA.Idx → F .f32) (a : Fin 3) : Fin 2 → F .f32 := fun k => an (ix4 k 0 0 a)

def boxes5 (x : SX.Idx → F .f32) (an : SA.Idx → F .f32) : SB5.Idx → F .f32 := fun j =>
  boxPt (colAt x (j 0) (j 1) (j 2)) (gridAt (j 1) (j 2)) (ancAt an (j 3)) (j 3) (j 4)

def conf5 (x : SX.Idx → F .f32) : SC5.Idx → F .f32 := fun j =>
  confPt (colAt x (j 0) (j 1) (j 2)) (j 3) (j 4)

/-- The score: the greatest of the 80 confidences, from −∞. -/
def scores4 (x : SX.Idx → Ideal .f32) : SS4.Idx → Ideal .f32 := fun j =>
  (Finset.univ : Finset (Fin 80)).fold max (FloatOps.ofBits .f32 0xFF800000#32)
    (fun cl => confPt (F := Ideal) (colAt x (j 0) (j 1) (j 2)) (j 3) cl)

/-- The results as returned: (w, h, a) flattened row-major. -/
def boxesOut (x : SX.Idx → F .f32) (an : SA.Idx → F .f32) (h : SB5.ShapeCasts SB3) : SB3.Idx → F .f32 :=
  shapeCast SB3 (boxes5 x an) h
def confOut (x : SX.Idx → F .f32) (h : SC5.ShapeCasts SC3) : SC3.Idx → F .f32 := shapeCast SC3 (conf5 x) h
def scoresOut (x : SX.Idx → Ideal .f32) (h : SS4.ShapeCasts SS2) : SS2.Idx → Ideal .f32 := shapeCast SS2 (scores4 x) h

end Cert.BoxDecode

end
-- ==== Proof.WPayload.lean ====
/-
  The kernel's stored payloads read at one index.

  The kernel's input block is x[0, ch, w, h] with 255 = 3 · 85 channels; it is viewed as [3, 85, 40, 76], transposed to
  [40, 76, 3, 85], sliced along the feature axis, and what is stored is pointwise in those slices. Read at one index
  (w, h, a, ·) every stored element is therefore the cell-by-cell formula of the box decoding applied to the 255
  channels of the one cell (w, h) of the block.
-/
import proofs.«151503_j8108898254914_1_alg».proof.Proof.Gen.Kernel.Skeleton
import proofs.«151503_j8108898254914_1_alg».proof.Proof.BoxDecode
import Idealize.ShloMosaic.Lib.ValueIdx
import Idealize.ShloMosaic.Lib.Pipeline.Value
import Idealize.ShloMosaic.PureOps.Reduce
import Idealize.ShloMosaic.PureOps.Ideal.Laws

noncomputable section

namespace Cert.Kernel.Payload

open Cert.Kernel Cert.Kernel.Gen Cert.BoxDecode Idealize.ShloMosaic Idealize.ShloMosaic.ValueIdx

variable {F : FTy → Type} [FloatOps F]

/-- The transposed block at (w, h, a, f) is the input block at channel 85·a + f of the cell (w, h). -/
theorem pay4_at (X0 : Vec F S1x255x40x76 .f32) (w : Fin 40) (h : Fin 76) (a : Fin 3) (f : Fin 85) :
    k0_pay4 X0 (ix4 w h a f) = X0 (ix4 0 (chan a f.val f.isLt) w h) := by
  have hw := w.isLt
  have hh := h.isLt
  have ha := a.isLt
  have hf := f.isLt
  unfold k0_pay4
  -- the transpose [2, 3, 0, 1]: [40,76,3,85] at (w, h, a, f) reads [3,85,40,76] at (a, f, w, h)
  refine (transpose_apply _ _ _ (ix4 w h a f) (ix4 a f w h)
    (fun b => match b with | ⟨0, _⟩ => rfl | ⟨1, _⟩ => rfl | ⟨2, _⟩ => rfl | ⟨3, _⟩ => rfl)).trans ?_
  -- the shape cast [255,40,76] -> [3,85,40,76]: channel 85·a + f
  refine (shapeCast_apply _ _ (ix4 a f w h) (ix3 (chan a f.val f.isLt) w h)
    (by rw [Shape.rowMajor_val_three, Shape.rowMajor_val_four]
        show ((a.val * 85 + f.val) * 40 + w.val) * 76 + h.val = ((a.val * 85 + f.val) * 40 + w.val) * 76 + h.val
        rfl)).trans ?_
  -- the shape cast dropping the block's leading unit axis
  exact shapeCast_apply _ _ (ix3 (chan a f.val f.isLt) w h) (ix4 0 (chan a f.val f.isLt) w h)
    (by rw [Shape.rowMajor_val_three, Shape.rowMajor_val_four]
        show ((0 * 255 + (a.val * 85 + f.val)) * 40 + w.val) * 76 + h.val = ((a.val * 85 + f.val) * 40 + w.val) * 76 + h.val
        omega)

/-- The confidences at (w, h, a, cl): σ(class logit) · σ(objectness) of the cell's channels. -/
theorem pay6_at (X0 : Vec F S1x255x40x76 .f32) (w : Fin 40) (h : Fin 76) (a : Fin 3) (cl : Fin 80) :
    k0_pay6 X0 (ix4 w h a cl) = confPt (fun ch => X0 (ix4 0 ch w h)) a cl := by
  have hcl := cl.isLt
  unfold k0_pay6
  -- the class logits: the slice at feature offset 5
  have e1 : extractStridedSlice S40x76x3x80 ![0, 0, 0, 5] (k0_pay4 X0) slices_S40x76x3x85_o0_0_0_5_S40x76x3x80 (ix4 w h a cl)
      = X0 (ix4 0 (chan a (5 + cl.val) (by omega)) w h) :=
    (extractStridedSlice_apply _ _ _ (ix4 w h a cl) (ix4 w h a (⟨5 + cl.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 5 + cl.val = 5 + cl.val; rfl)).trans (pay4_at X0 w h a ⟨5 + cl.val, by omega⟩)
  -- the objectness: the one-wide slice at feature offset 4, broadcast over the classes
  have e2 : extractStridedSlice S40x76x3x1 ![0, 0, 0, 4] (k0_pay4 X0) slices_S40x76x3x85_o0_0_0_4_S40x76x3x1 (ix4 w h a (0 : Fin 1))
      = X0 (ix4 0 (chan a 4 (by omega)) w h) :=
    (extractStridedSlice_apply _ _ _ (ix4 w h a (0 : Fin 1)) (ix4 w h a (⟨4, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 4 = 4 + 0; rfl)).trans (pay4_at X0 w h a ⟨4, by omega⟩)
  have e3 : broadcastTo S40x76x3x80
        (logistic (extractStridedSlice S40x76x3x1 ![0, 0, 0, 4] (k0_pay4 X0) slices_S40x76x3x85_o0_0_0_4_S40x76x3x1))
        broadcasts_S40x76x3x1_S40x76x3x80 (ix4 w h a cl)
      = FloatOps.logistic (X0 (ix4 0 (chan a 4 (by omega)) w h)) :=
    (broadcastTo_apply _ _ (ix4 w h a cl) (ix4 w h a (0 : Fin 1))
      (fun b => match b with
        | ⟨0, _⟩ => by show w.val = if (40 : Nat) = 1 then 0 else w.val; rfl
        | ⟨1, _⟩ => by show h.val = if (76 : Nat) = 1 then 0 else h.val; rfl
        | ⟨2, _⟩ => by show a.val = if (3 : Nat) = 1 then 0 else a.val; rfl
        | ⟨3, _⟩ => by show (0 : Nat) = if (1 : Nat) = 1 then 0 else cl.val; rfl)).trans (congrArg FloatOps.logistic e2)
  show FloatOps.mulf (FloatOps.logistic (extractStridedSlice S40x76x3x80 ![0, 0, 0, 5] (k0_pay4 X0) slices_S40x76x3x85_o0_0_0_5_S40x76x3x80 (ix4 w h a cl)))
      (broadcastTo S40x76x3x80
        (logistic (extractStridedSlice S40x76x3x1 ![0, 0, 0, 4] (k0_pay4 X0) slices_S40x76x3x85_o0_0_0_4_S40x76x3x1))
        broadcasts_S40x76x3x1_S40x76x3x80 (ix4 w h a cl)) = _
  rw [e1, e3]
  rfl

/-- The stored confidences at (0, w, h, a, cl): the block's leading unit axis added. -/
theorem conf_at (X0 : Vec F S1x255x40x76 .f32) (w : Fin 40) (h : Fin 76) (a : Fin 3) (cl : Fin 80) :
    k0_pay2 (k0_pay6 X0) (ix5 0 w h a cl) = confPt (fun ch => X0 (ix4 0 ch w h)) a cl := by
  unfold k0_pay2
  refine (shapeCast_apply _ _ (ix5 0 w h a cl) (ix4 w h a cl)
    (by rw [Shape.rowMajor_val_four, Shape.rowMajor_val_five]
        show ((w.val * 76 + h.val) * 3 + a.val) * 80 + cl.val = (((0 * 40 + w.val) * 76 + h.val) * 3 + a.val) * 80 + cl.val
        omega)).trans ?_
  exact pay6_at X0 w h a cl

/-! ## The scores: the greatest confidence of a cell's anchor -/

/-- A reduction's fold at `j` reads its operand only at the indices that drop to `j`. -/
theorem reduceFold_congr {α : Type} {s t : Shape} {axes : List (Fin s.rank)} (hr : s.Reduces axes t) (f : α → α → α) (init : α)
    (x x' : s.Idx → α) (j : t.Idx) (hx : ∀ i : s.Idx, hr.drop i = j → x i = x' i) :
    reduceFold hr f init x j = reduceFold hr f init x' j := by
  unfold reduceFold
  refine List.foldl_ext _ _ _ fun r n hn => ?_
  have hd : hr.drop (s.rowMajor.symm n) = j := of_decide_eq_true (List.mem_filter.1 hn).2
  rw [hx _ hd]

/-- An index of the confidences that drops to (w, h, a) along the class axis is (w, h, a, its own class). -/
theorem eq_of_drop (i : S40x76x3x80.Idx) (w : Fin 40) (h : Fin 76) (a : Fin 3)
    (hd : reduces_S40x76x3x80_S40x76x3.drop i = ix3 w h a) : ∃ cl : Fin 80, i = ix4 w h a cl := by
  refine ⟨i 3, ?_⟩
  have e := reduces_S40x76x3x80_S40x76x3.lift_drop i
  rw [hd] at e
  rw [← e]
  funext c
  match c with
  | ⟨0, _⟩ => rfl
  | ⟨1, _⟩ => rfl
  | ⟨2, _⟩ => rfl
  | ⟨3, _⟩ => rfl

/-- The stored score of (w, h, a) depends on the input block only through the 255 channels of the cell (w, h). -/
theorem score_congr (X0 X0' : Vec F S1x255x40x76 .f32) (w : Fin 40) (h : Fin 76) (a : Fin 3)
    (hX : ∀ ch : Fin 255, X0 (ix4 0 ch w h) = X0' (ix4 0 ch w h)) :
    k0_pay3 (k0_pay7 X0) (ix4 0 w h a) = k0_pay3 (k0_pay7 X0') (ix4 0 w h a) := by
  have hsc : ∀ v : FVec F S40x76x3 .f32, k0_pay3 v (ix4 0 w h a) = v (ix3 w h a) := fun v => by
    unfold k0_pay3
    exact shapeCast_apply _ _ (ix4 0 w h a) (ix3 w h a)
      (by rw [Shape.rowMajor_val_three, Shape.rowMajor_val_four]
          show (w.val * 76 + h.val) * 3 + a.val = ((0 * 40 + w.val) * 76 + h.val) * 3 + a.val
          omega)
  rw [hsc, hsc]
  unfold k0_pay7
  -- the maximum reduction is the fold of the instance's maximum from −∞ over the class axis
  refine reduceFold_congr reduces_S40x76x3x80_S40x76x3 FloatOps.maximumf (FloatOps.ofBits .f32 0xFF800000#32)
    (k0_pay6 X0) (k0_pay6 X0') (ix3 w h a) fun i hd => ?_
  obtain ⟨cl, rfl⟩ := eq_of_drop i w h a hd
  rw [pay6_at, pay6_at]
  exact congrArg (fun col => confPt col a cl) (funext hX)

/-- The stored score of (w, h, a) over the extended reals: the greatest of the 80 confidences, from −∞. -/
theorem score_at (X0 : Vec Ideal S1x255x40x76 .f32) (w : Fin 40) (h : Fin 76) (a : Fin 3) :
    k0_pay3 (F := Ideal) (k0_pay7 X0) (ix4 0 w h a)
      = (Finset.univ : Finset (Fin 80)).fold max (FloatOps.ofBits .f32 0xFF800000#32)
          (fun cl => confPt (F := Ideal) (fun ch => X0 (ix4 0 ch w h)) a cl) := by
  unfold k0_pay3
  refine (shapeCast_apply _ _ (ix4 0 w h a) (ix3 w h a)
      (by rw [Shape.rowMajor_val_three, Shape.rowMajor_val_four]
          show (w.val * 76 + h.val) * 3 + a.val = ((0 * 40 + w.val) * 76 + h.val) * 3 + a.val
          omega)).trans ?_
  unfold k0_pay7
  refine (Ideal.multiReduction_maximumf_single _ _ reduces_S40x76x3x80_S40x76x3 _ _ (ix3 w h a)).trans ?_
  refine Finset.fold_congr fun cl _ => ?_
  show k0_pay6 X0 (reduces_S40x76x3x80_S40x76x3.lift (ix3 w h a) cl) = _
  have e : reduces_S40x76x3x80_S40x76x3.lift (ix3 w h a) cl = ix4 w h a cl := by
    funext c
    match c with
    | ⟨0, _⟩ => rfl
    | ⟨1, _⟩ => rfl
    | ⟨2, _⟩ => rfl
    | ⟨3, _⟩ => rfl
  rw [e]
  exact pay6_at X0 w h a cl

/-! ## The boxes -/

/-- The cell's own grid coordinates as the kernel computes them: the tile's first row (40 · the W-tile's number) plus
    the row within the tile for `k = 0`, the column for `k = 1`, each converted from a 32-bit integer. -/
def gridK (i : grid0.Coords) (w : Fin 40) (h : Fin 76) : Fin 2 → F .f32 := fun k =>
  FloatOps.sitofp .f32 (if k.val = 0 then IntOp.addi (BitVec.ofNat 32 w.val) (Scalar.muli (BitVec.ofNat 32 (i 1).val) 40#32)
    else BitVec.ofNat 32 h.val)

/-- The grid coordinate columns: a [40, 76] array cast to [40, 76, 1, 1] and broadcast over the anchors reads (w, h). -/
theorem gridCol_at (g : FVec F S40x76 .f32) (w : Fin 40) (h : Fin 76) (a : Fin 3) :
    broadcastTo S40x76x3x1 (shapeCast S40x76x1x1 g shapeCasts_S40x76_S40x76x1x1) broadcasts_S40x76x1x1_S40x76x3x1
      (ix4 w h a (0 : Fin 1)) = g (ix2 w h) := by
  refine (broadcastTo_apply _ _ (ix4 w h a (0 : Fin 1)) (ix4 w h (0 : Fin 1) (0 : Fin 1))
    (fun b => match b with
      | ⟨0, _⟩ => by show w.val = if (40 : Nat) = 1 then 0 else w.val; rfl
      | ⟨1, _⟩ => by show h.val = if (76 : Nat) = 1 then 0 else h.val; rfl
      | ⟨2, _⟩ => by show (0 : Nat) = if (1 : Nat) = 1 then 0 else a.val; rfl
      | ⟨3, _⟩ => by show (0 : Nat) = if (1 : Nat) = 1 then 0 else 0; rfl)).trans ?_
  exact shapeCast_apply _ _ (ix4 w h (0 : Fin 1) (0 : Fin 1)) (ix2 w h)
    (by rw [Shape.rowMajor_val_two, Shape.rowMajor_val_four]
        show w.val * 76 + h.val = ((w.val * 76 + h.val) * 1 + 0) * 1 + 0
        omega)

/-- The box centres at (w, h, a, k): (σ(t) + grid coordinate) / 76. -/
theorem pay5_at (i : grid0.Coords) (X0 : Vec F S1x255x40x76 .f32) (w : Fin 40) (h : Fin 76) (a : Fin 3) (k : Fin 2) :
    k0_pay5 i X0 (ix4 w h a k) = centrePt (fun ch => X0 (ix4 0 ch w h)) (gridK i w h k) a k := by
  -- the centre logits: feature k of the anchor, through the two nested slices
  have et : ∀ (k' : Fin 2) (hs : S40x76x3x2.Slices ![0, 0, 0, k'.val] S40x76x3x1),
      extractStridedSlice S40x76x3x1 ![0, 0, 0, k'.val]
        (extractStridedSlice S40x76x3x2 ![0, 0, 0, 0] (k0_pay4 X0) slices_S40x76x3x85_o0_0_0_0_S40x76x3x2) hs (ix4 w h a (0 : Fin 1))
      = X0 (ix4 0 (chan a k'.val (by have := k'.isLt; omega)) w h) := fun k' hs => by
    have hk' := k'.isLt
    refine (extractStridedSlice_apply _ _ hs (ix4 w h a (0 : Fin 1)) (ix4 w h a k')
      (fun b => match b with
        | ⟨0, _⟩ => by show w.val = 0 + w.val; omega
        | ⟨1, _⟩ => by show h.val = 0 + h.val; omega
        | ⟨2, _⟩ => by show a.val = 0 + a.val; omega
        | ⟨3, _⟩ => by show k'.val = k'.val + 0; omega)).trans ?_
    refine (extractStridedSlice_apply _ _ _ (ix4 w h a k') (ix4 w h a (⟨k'.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show k'.val = 0 + k'.val; omega)).trans ?_
    exact pay4_at X0 w h a ⟨k'.val, by omega⟩
  unfold k0_pay5
  match k with
  | ⟨0, _⟩ =>
    refine (concatenate_pair_apply_left (t := S40x76x3x2) (s₁ := S40x76x3x1) (s₂ := S40x76x3x1) (3 : Fin 4) _ _ concatenates_S40x76x3x1_S40x76x3x1_S40x76x3x2_d3 (ix4 w h a (⟨0, by omega⟩ : Fin 2)) rfl
      (ix4 w h a (0 : Fin 1))
      (fun b => match b with | ⟨0, _⟩ => rfl | ⟨1, _⟩ => rfl | ⟨2, _⟩ => rfl | ⟨3, _⟩ => rfl)).trans ?_
    have eg := gridCol_at (F := F) (sitofp .f32 (addi (iota .tc S40x76 32 [0] iota_S40x76_d0_w32)
      (broadcast S40x76 (Scalar.muli (BitVec.ofNat 32 (i 1).val) 40#32)))) w h a
    have ei : iota .tc S40x76 32 [0] iota_S40x76_d0_w32 (ix2 w h) = BitVec.ofNat 32 w.val :=
      iota_single_apply .tc S40x76 32 0 iota_S40x76_d0_w32 (ix2 w h)
    have e0 : extractStridedSlice S40x76x3x1 ![0, 0, 0, 0]
        (extractStridedSlice S40x76x3x2 ![0, 0, 0, 0] (k0_pay4 X0) slices_S40x76x3x85_o0_0_0_0_S40x76x3x2)
        slices_S40x76x3x2_o0_0_0_0_S40x76x3x1 (ix4 w h a (0 : Fin 1)) = X0 (ix4 0 (chan a 0 (by omega)) w h) :=
      et 0 slices_S40x76x3x2_o0_0_0_0_S40x76x3x1
    show FloatOps.divf (FloatOps.addf (FloatOps.logistic (extractStridedSlice S40x76x3x1 ![0, 0, 0, 0]
        (extractStridedSlice S40x76x3x2 ![0, 0, 0, 0] (k0_pay4 X0) slices_S40x76x3x85_o0_0_0_0_S40x76x3x2)
        slices_S40x76x3x2_o0_0_0_0_S40x76x3x1 (ix4 w h a (0 : Fin 1))))
      (broadcastTo S40x76x3x1 (shapeCast S40x76x1x1 (sitofp .f32 (addi (iota .tc S40x76 32 [0] iota_S40x76_d0_w32)
        (broadcast S40x76 (Scalar.muli (BitVec.ofNat 32 (i 1).val) 40#32)))) shapeCasts_S40x76_S40x76x1x1)
        broadcasts_S40x76x1x1_S40x76x3x1 (ix4 w h a (0 : Fin 1)))) (FloatOps.ofBits .f32 0x42980000#32) = _
    rw [eg, e0]
    show FloatOps.divf (FloatOps.addf _ (FloatOps.sitofp .f32 (IntOp.addi (iota .tc S40x76 32 [0] iota_S40x76_d0_w32 (ix2 w h)) _))) _ = _
    rw [ei]
    rfl
  | ⟨1, _⟩ =>
    refine (concatenate_pair_apply_right (t := S40x76x3x2) (s₁ := S40x76x3x1) (s₂ := S40x76x3x1) (3 : Fin 4) _ _ concatenates_S40x76x3x1_S40x76x3x1_S40x76x3x2_d3 (ix4 w h a (⟨1, by omega⟩ : Fin 2)) rfl rfl
      (ix4 w h a (0 : Fin 1))
      (fun b => match b with
        | ⟨0, _⟩ => fun _ => rfl | ⟨1, _⟩ => fun _ => rfl | ⟨2, _⟩ => fun _ => rfl
        | ⟨3, _⟩ => fun hne => absurd rfl hne)
      rfl).trans ?_
    have eg := gridCol_at (F := F) (sitofp .f32 (iota .tc S40x76 32 [1] iota_S40x76_d1_w32)) w h a
    have ei : iota .tc S40x76 32 [1] iota_S40x76_d1_w32 (ix2 w h) = BitVec.ofNat 32 h.val :=
      iota_single_apply .tc S40x76 32 1 iota_S40x76_d1_w32 (ix2 w h)
    have e1 : extractStridedSlice S40x76x3x1 ![0, 0, 0, 1]
        (extractStridedSlice S40x76x3x2 ![0, 0, 0, 0] (k0_pay4 X0) slices_S40x76x3x85_o0_0_0_0_S40x76x3x2)
        slices_S40x76x3x2_o0_0_0_1_S40x76x3x1 (ix4 w h a (0 : Fin 1)) = X0 (ix4 0 (chan a 1 (by omega)) w h) :=
      et 1 slices_S40x76x3x2_o0_0_0_1_S40x76x3x1
    show FloatOps.divf (FloatOps.addf (FloatOps.logistic (extractStridedSlice S40x76x3x1 ![0, 0, 0, 1]
        (extractStridedSlice S40x76x3x2 ![0, 0, 0, 0] (k0_pay4 X0) slices_S40x76x3x85_o0_0_0_0_S40x76x3x2)
        slices_S40x76x3x2_o0_0_0_1_S40x76x3x1 (ix4 w h a (0 : Fin 1))))
      (broadcastTo S40x76x3x1 (shapeCast S40x76x1x1 (sitofp .f32 (iota .tc S40x76 32 [1] iota_S40x76_d1_w32)) shapeCasts_S40x76_S40x76x1x1)
        broadcasts_S40x76x1x1_S40x76x3x1 (ix4 w h a (0 : Fin 1)))) (FloatOps.ofBits .f32 0x42980000#32) = _
    rw [eg, e1]
    show FloatOps.divf (FloatOps.addf _ (FloatOps.sitofp .f32 (iota .tc S40x76 32 [1] iota_S40x76_d1_w32 (ix2 w h)))) _ = _
    rw [ei]
    rfl

/-- The box half-extents at (w, h, a, k): exp(t) · the anchor's prior · ½. -/
theorem pay8_at (X0 : Vec F S1x255x40x76 .f32) (X1 : Vec F S1x1x3x2 .f32) (w : Fin 40) (h : Fin 76) (a : Fin 3) (k : Fin 2) :
    k0_pay8 X0 X1 (ix4 w h a k) = halfPt (fun ch => X0 (ix4 0 ch w h)) (X1 (ix4 0 0 a k)) a k := by
  have hk := k.isLt
  unfold k0_pay8
  -- the extent logits: the slice at feature offset 2
  have e1 : extractStridedSlice S40x76x3x2 ![0, 0, 0, 2] (k0_pay4 X0) slices_S40x76x3x85_o0_0_0_2_S40x76x3x2 (ix4 w h a k)
      = X0 (ix4 0 (chan a (2 + k.val) (by omega)) w h) :=
    (extractStridedSlice_apply _ _ _ (ix4 w h a k) (ix4 w h a (⟨2 + k.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 2 + k.val = 2 + k.val; rfl)).trans (pay4_at X0 w h a ⟨2 + k.val, by omega⟩)
  -- the anchors block, cast to [3, 2] and back, broadcast over the cells
  have e2 : broadcastTo S40x76x3x2 (shapeCast S1x1x3x2 (shapeCast S3x2 X1 shapeCasts_S1x1x3x2_S3x2) shapeCasts_S3x2_S1x1x3x2)
      broadcasts_S1x1x3x2_S40x76x3x2 (ix4 w h a k) = X1 (ix4 0 0 a k) := by
    rw [shapeCast_shapeCast]
    exact broadcastTo_apply _ _ (ix4 w h a k) (ix4 (0 : Fin 1) (0 : Fin 1) a k)
      (fun b => match b with
        | ⟨0, _⟩ => by show (0 : Nat) = if (1 : Nat) = 1 then 0 else w.val; rfl
        | ⟨1, _⟩ => by show (0 : Nat) = if (1 : Nat) = 1 then 0 else h.val; rfl
        | ⟨2, _⟩ => by show a.val = if (3 : Nat) = 1 then 0 else a.val; rfl
        | ⟨3, _⟩ => by show k.val = if (2 : Nat) = 1 then 0 else k.val; rfl)
  show FloatOps.mulf (FloatOps.mulf (FloatOps.exp (extractStridedSlice S40x76x3x2 ![0, 0, 0, 2] (k0_pay4 X0) slices_S40x76x3x85_o0_0_0_2_S40x76x3x2 (ix4 w h a k)))
      (broadcastTo S40x76x3x2 (shapeCast S1x1x3x2 (shapeCast S3x2 X1 shapeCasts_S1x1x3x2_S3x2) shapeCasts_S3x2_S1x1x3x2)
        broadcasts_S1x1x3x2_S40x76x3x2 (ix4 w h a k))) (FloatOps.ofBits .f32 0x3F000000#32) = _
  rw [e1, e2]
  rfl

/-- The stored box at (0, w, h, a, k): centre − half for `k = 0, 1`, centre + half for `k = 2, 3`. -/
theorem box_at (i : grid0.Coords) (X0 : Vec F S1x255x40x76 .f32) (X1 : Vec F S1x1x3x2 .f32) (w : Fin 40) (h : Fin 76) (a : Fin 3)
    (k : Fin 4) :
    k0_pay1 (k0_pay9 i X0 X1) (k0_pay10 i X0 X1) (ix5 0 w h a k)
      = boxPt (fun ch => X0 (ix4 0 ch w h)) (gridK i w h) (fun k' => X1 (ix4 0 0 a k')) a k := by
  have hk := k.isLt
  unfold k0_pay1
  -- the stored block's leading unit axis
  refine (shapeCast_apply _ _ (ix5 0 w h a k) (ix4 w h a k)
    (by rw [Shape.rowMajor_val_four, Shape.rowMajor_val_five]
        show ((w.val * 76 + h.val) * 3 + a.val) * 4 + k.val = (((0 * 40 + w.val) * 76 + h.val) * 3 + a.val) * 4 + k.val
        omega)).trans ?_
  unfold boxPt
  by_cases hlt : k.val < 2
  · rw [dif_pos hlt]
    -- the first two coordinates come from the difference
    refine (concatenate_pair_apply_left (t := S40x76x3x4) (s₁ := S40x76x3x2) (s₂ := S40x76x3x2) (3 : Fin 4) _ _ concatenates_S40x76x3x2_S40x76x3x2_S40x76x3x4_d3 (ix4 w h a k) rfl
      (ix4 w h a (⟨k.val, hlt⟩ : Fin 2))
      (fun b => match b with | ⟨0, _⟩ => rfl | ⟨1, _⟩ => rfl | ⟨2, _⟩ => rfl | ⟨3, _⟩ => rfl)).trans ?_
    unfold k0_pay9
    show FloatOps.subf (k0_pay5 i X0 (ix4 w h a ⟨k.val, hlt⟩)) (k0_pay8 X0 X1 (ix4 w h a ⟨k.val, hlt⟩)) = _
    rw [pay5_at, pay8_at]
  · rw [dif_neg hlt]
    -- the last two from the sum
    refine (concatenate_pair_apply_right (t := S40x76x3x4) (s₁ := S40x76x3x2) (s₂ := S40x76x3x2) (3 : Fin 4) _ _ concatenates_S40x76x3x2_S40x76x3x2_S40x76x3x4_d3 (ix4 w h a k) rfl rfl
      (ix4 w h a (⟨k.val - 2, by omega⟩ : Fin 2))
      (fun b => match b with
        | ⟨0, _⟩ => fun _ => rfl | ⟨1, _⟩ => fun _ => rfl | ⟨2, _⟩ => fun _ => rfl
        | ⟨3, _⟩ => fun hne => absurd rfl hne)
      (by show k.val - 2 + 2 = k.val; omega)).trans ?_
    unfold k0_pay10
    show FloatOps.addf (k0_pay5 i X0 (ix4 w h a ⟨k.val - 2, _⟩)) (k0_pay8 X0 X1 (ix4 w h a ⟨k.val - 2, _⟩)) = _
    rw [pay5_at, pay8_at]

end Cert.Kernel.Payload

end
-- ==== Proof.WBlocks.lean ====
/-
  The kernel's stored blocks, cut to the rows inside the array, are the specification's blocks.

  The grid is 32 × 2: point (b, wt) reads the input block of batch entry b and rows 40·wt … 40·wt + 39 of W, and
  writes the three result blocks of the same batch entry and rows. W has 76 rows, so at wt = 1 only 36 rows lie inside
  the arrays: the fetch leaves the staging buffer's last four rows at contents nobody names, and the write-backs move
  only the first 36 rows of what the body stored. Every stored element depends on the input block only through the 255
  channels of its own cell, so on the rows inside the array what is stored is the box decoding of the whole input,
  read at batch entry b and global row 40·wt + w, whatever the unnamed rows hold.
-/
import proofs.«151503_j8108898254914_1_alg».proof.Proof.WPayload
import proofs.«151503_j8108898254914_1_alg».proof.Proof.Gen.Kernel.Points
import Idealize.ShloMosaic.Lib.Pipeline.Value

noncomputable section

namespace Cert.Kernel.Blocks

open Cert.Kernel Cert.Kernel.Gen Cert.Kernel.Payload Cert.BoxDecode Idealize.ShloMosaic Idealize.ShloMosaic.ValueIdx

variable {F : FTy → Type} [FloatOps F]

/-- What the input's staging buffer holds after the fetch at point `t`: the input's block there on the rows inside
    the array, `d` elsewhere. -/
def fetched (t : Fin grid0.N) (X : S32x255x76x76.Idx → Elt F .f32) (d : S1x255x40x76.Idx → Elt F .f32) : Vec F S1x255x40x76 .f32 :=
  win0_0.fill (grid0.coords t) d ((win0_0.blk t).view.read (Elt F) X)

/-! ## The index maps and the cuts, decided over the grid's coordinates -/

/-- The input's block index at (b, wt) is (b, 0, wt, 0). -/
theorem tf0 : ∀ i : grid0.Coords, cc0_transform_0 i 0 = (i 0).val ∧ cc0_transform_0 i 1 = 0 ∧ cc0_transform_0 i 2 = (i 1).val ∧
    cc0_transform_0 i 3 = 0 := by decide +kernel
/-- The boxes' block index at (b, wt) is (b, wt, 0, 0, 0). -/
theorem tf2 : ∀ i : grid0.Coords, cc0_transform_2 i 0 = (i 0).val ∧ cc0_transform_2 i 1 = (i 1).val ∧ cc0_transform_2 i 2 = 0 ∧
    cc0_transform_2 i 3 = 0 ∧ cc0_transform_2 i 4 = 0 := by decide +kernel
/-- The confidences' likewise. -/
theorem tf3 : ∀ i : grid0.Coords, cc0_transform_3 i 0 = (i 0).val ∧ cc0_transform_3 i 1 = (i 1).val ∧ cc0_transform_3 i 2 = 0 ∧
    cc0_transform_3 i 3 = 0 ∧ cc0_transform_3 i 4 = 0 := by decide +kernel
/-- The scores' block index at (b, wt) is (b, wt, 0, 0). -/
theorem tf4 : ∀ i : grid0.Coords, cc0_transform_4 i 0 = (i 0).val ∧ cc0_transform_4 i 1 = (i 1).val ∧ cc0_transform_4 i 2 = 0 ∧
    cc0_transform_4 i 3 = 0 := by decide +kernel

/-- The input's block is cut on the row axis only, and its rows inside the array end at row 76. -/
theorem xs0 : ∀ i : grid0.Coords, win0_0.xsize i 0 = 1 ∧ win0_0.xsize i 1 = 255 ∧ win0_0.xsize i 3 = 76 ∧
    (i 1).val * 40 + win0_0.xsize i 2 ≤ 76 := by decide +kernel
/-- The boxes' block is cut on the row axis only, and as the input's is. -/
theorem xs2 : ∀ i : grid0.Coords, win0_2.xsize i 0 = 1 ∧ win0_2.xsize i 1 = win0_0.xsize i 2 ∧ win0_2.xsize i 2 = 76 ∧
    win0_2.xsize i 3 = 3 ∧ win0_2.xsize i 4 = 4 := by decide +kernel
/-- The confidences' likewise. -/
theorem xs3 : ∀ i : grid0.Coords, win0_3.xsize i 0 = 1 ∧ win0_3.xsize i 1 = win0_0.xsize i 2 ∧ win0_3.xsize i 2 = 76 ∧
    win0_3.xsize i 3 = 3 ∧ win0_3.xsize i 4 = 80 := by decide +kernel
/-- The scores' likewise. -/
theorem xs4 : ∀ i : grid0.Coords, win0_4.xsize i 0 = 1 ∧ win0_4.xsize i 1 = win0_0.xsize i 2 ∧ win0_4.xsize i 2 = 76 ∧
    win0_4.xsize i 3 = 3 := by decide +kernel

/-! ## Where a point's blocks sit in the arrays -/

/-- The batch entry of grid point `t`. -/
def bAt (t : Fin grid0.N) : Fin 32 := ⟨(grid0.coords t 0).val, (grid0.coords t 0).isLt⟩

/-- The row of W under row `w` of the tile of grid point `t`, for a row inside the array. -/
def rowAt (t : Fin grid0.N) (w : Nat) (hw : w < win0_0.xsize (grid0.coords t) 2) : Fin 76 :=
  ⟨(grid0.coords t 1).val * 40 + w, by have := (xs0 (grid0.coords t)).2.2.2; omega⟩

/-- The fetched block at a cell inside the array is the input at the point's batch entry and the cell's global row. -/
theorem fetched_at (t : Fin grid0.N) (X : S32x255x76x76.Idx → Elt F .f32) (d : S1x255x40x76.Idx → Elt F .f32) (ch : Fin 255)
    (w : Fin 40) (h : Fin 76) (hw : w.val < win0_0.xsize (grid0.coords t) 2) :
    fetched t X d (ix4 0 ch w h) = X (ix4 (bAt t) ch (rowAt t w.val hw) h) := by
  have x0 := xs0 (grid0.coords t)
  have f0 := tf0 (grid0.coords t)
  have hm : win0_0.moved (grid0.coords t) (ix4 (0 : Fin 1) ch w h) = true := (win0_0.moved_iff _ _).2 fun a => match a with
    | ⟨0, _⟩ => by have := x0.1; show (0 : Nat) < win0_0.xsize (grid0.coords t) 0; omega
    | ⟨1, _⟩ => by have := x0.2.1; have := ch.isLt; show ch.val < win0_0.xsize (grid0.coords t) 1; omega
    | ⟨2, _⟩ => hw
    | ⟨3, _⟩ => by have := x0.2.2.1; have := h.isLt; show h.val < win0_0.xsize (grid0.coords t) 3; omega
  unfold fetched Pipeline.Window.fill
  rw [dif_pos hm]
  show X ((win0_0.rect t).emb _) = X _
  congr 1
  funext a
  apply Fin.ext
  rw [win0_0.rect_emb_val]
  match a with
  | ⟨0, _⟩ => show cc0_transform_0 (grid0.coords t) 0 * 1 + 0 = (grid0.coords t 0).val; rw [f0.1]; omega
  | ⟨1, _⟩ => show cc0_transform_0 (grid0.coords t) 1 * 255 + ch.val = ch.val; rw [f0.2.1]; omega
  | ⟨2, _⟩ => show cc0_transform_0 (grid0.coords t) 2 * 40 + w.val = (grid0.coords t 1).val * 40 + w.val; rw [f0.2.2.1]
  | ⟨3, _⟩ => show cc0_transform_0 (grid0.coords t) 3 * 76 + h.val = h.val; rw [f0.2.2.2]; omega

/-- So the 255 channels of a cell of the fetched block, on a row inside the array, are the input's at that cell. -/
theorem col_eq (t : Fin grid0.N) (X : S32x255x76x76.Idx → Elt F .f32) (d : S1x255x40x76.Idx → Elt F .f32)
    (w : Fin 40) (h : Fin 76) (hw : w.val < win0_0.xsize (grid0.coords t) 2) :
    (fun ch : Fin 255 => fetched t X d (ix4 0 ch w h)) = colAt X (bAt t) (rowAt t w.val hw) h :=
  funext fun ch => fetched_at t X d ch w h hw

/-! ## The confidences -/

/-- An index of the confidences' block at point `t`, cut to the rows inside the array, by its coordinates: in the
    stored block it is (0, w, h, a, cl), and in the array it sits at (b, 40·wt + w, h, a, cl). -/
theorem split3 (t : Fin grid0.N) (j : (a : Fin 5) → Fin (win0_3.xsize (grid0.coords t) a)) :
    ∃ (w : Fin 40) (hw : w.val < win0_0.xsize (grid0.coords t) 2) (h : Fin 76) (a : Fin 3) (cl : Fin 80),
      win0_3.xinj (grid0.coords t) j = ix5 (0 : Fin 1) w h a cl ∧
      (win0_3.rect t).emb j = ix5 (bAt t) (rowAt t w.val hw) h a cl := by
  have x3 := xs3 (grid0.coords t)
  have f3 := tf3 (grid0.coords t)
  have h0 : (j 0).val < 1 := lt_of_lt_of_eq (j 0).isLt x3.1
  have h1 : (j 1).val < win0_0.xsize (grid0.coords t) 2 := lt_of_lt_of_eq (j 1).isLt x3.2.1
  have h2 : (j 2).val < 76 := lt_of_lt_of_eq (j 2).isLt x3.2.2.1
  have h3 : (j 3).val < 3 := lt_of_lt_of_eq (j 3).isLt x3.2.2.2.1
  have h4 : (j 4).val < 80 := lt_of_lt_of_eq (j 4).isLt x3.2.2.2.2
  have hle : win0_0.xsize (grid0.coords t) 2 ≤ 40 := win0_0.xsize_le _ 2
  refine ⟨⟨(j 1).val, by omega⟩, h1, ⟨(j 2).val, h2⟩, ⟨(j 3).val, h3⟩, ⟨(j 4).val, h4⟩, ?_, ?_⟩
  · funext a
    apply Fin.ext
    match a with
    | ⟨0, _⟩ => show (j 0).val = 0; omega
    | ⟨1, _⟩ => rfl
    | ⟨2, _⟩ => rfl
    | ⟨3, _⟩ => rfl
    | ⟨4, _⟩ => rfl
  · funext a
    apply Fin.ext
    rw [win0_3.rect_emb_val]
    match a with
    | ⟨0, _⟩ => show cc0_transform_3 (grid0.coords t) 0 * 1 + (j 0).val = (grid0.coords t 0).val; rw [f3.1]; omega
    | ⟨1, _⟩ => show cc0_transform_3 (grid0.coords t) 1 * 40 + (j 1).val = (grid0.coords t 1).val * 40 + (j 1).val; rw [f3.2.1]
    | ⟨2, _⟩ => show cc0_transform_3 (grid0.coords t) 2 * 76 + (j 2).val = (j 2).val; rw [f3.2.2.1]; omega
    | ⟨3, _⟩ => show cc0_transform_3 (grid0.coords t) 3 * 3 + (j 3).val = (j 3).val; rw [f3.2.2.2.1]; omega
    | ⟨4, _⟩ => show cc0_transform_3 (grid0.coords t) 4 * 80 + (j 4).val = (j 4).val; rw [f3.2.2.2.2]; omega

/-- The stored confidences, cut to the rows inside the array, are the specification's block at the point. -/
theorem conf_block (t : Fin grid0.N) (X : S32x255x76x76.Idx → Elt F .f32) (d : S1x255x40x76.Idx → Elt F .f32) :
    win0_3.cut (grid0.coords t) (k0_pay2 (k0_pay6 (fetched t X d))) = (win0_3.blk t).view.read (Elt F) (conf5 X) := by
  funext j
  obtain ⟨w, hw, h, a, cl, e1, e2⟩ := split3 t j
  show k0_pay2 (k0_pay6 (fetched t X d)) (win0_3.xinj (grid0.coords t) j) = conf5 X ((win0_3.rect t).emb j)
  rw [e1, e2, conf_at, col_eq t X d w h hw]
  rfl

/-! ## The scores -/

/-- An index of the scores' block at point `t`, cut to the rows inside the array, by its coordinates. -/
theorem split4 (t : Fin grid0.N) (j : (a : Fin 4) → Fin (win0_4.xsize (grid0.coords t) a)) :
    ∃ (w : Fin 40) (hw : w.val < win0_0.xsize (grid0.coords t) 2) (h : Fin 76) (a : Fin 3),
      win0_4.xinj (grid0.coords t) j = ix4 (0 : Fin 1) w h a ∧
      (win0_4.rect t).emb j = ix4 (bAt t) (rowAt t w.val hw) h a := by
  have x4 := xs4 (grid0.coords t)
  have f4 := tf4 (grid0.coords t)
  have h0 : (j 0).val < 1 := lt_of_lt_of_eq (j 0).isLt x4.1
  have h1 : (j 1).val < win0_0.xsize (grid0.coords t) 2 := lt_of_lt_of_eq (j 1).isLt x4.2.1
  have h2 : (j 2).val < 76 := lt_of_lt_of_eq (j 2).isLt x4.2.2.1
  have h3 : (j 3).val < 3 := lt_of_lt_of_eq (j 3).isLt x4.2.2.2
  have hle : win0_0.xsize (grid0.coords t) 2 ≤ 40 := win0_0.xsize_le _ 2
  refine ⟨⟨(j 1).val, by omega⟩, h1, ⟨(j 2).val, h2⟩, ⟨(j 3).val, h3⟩, ?_, ?_⟩
  · funext a
    apply Fin.ext
    match a with
    | ⟨0, _⟩ => show (j 0).val = 0; omega
    | ⟨1, _⟩ => rfl
    | ⟨2, _⟩ => rfl
    | ⟨3, _⟩ => rfl
  · funext a
    apply Fin.ext
    rw [win0_4.rect_emb_val]
    match a with
    | ⟨0, _⟩ => show cc0_transform_4 (grid0.coords t) 0 * 1 + (j 0).val = (grid0.coords t 0).val; rw [f4.1]; omega
    | ⟨1, _⟩ => show cc0_transform_4 (grid0.coords t) 1 * 40 + (j 1).val = (grid0.coords t 1).val * 40 + (j 1).val; rw [f4.2.1]
    | ⟨2, _⟩ => show cc0_transform_4 (grid0.coords t) 2 * 76 + (j 2).val = (j 2).val; rw [f4.2.2.1]; omega
    | ⟨3, _⟩ => show cc0_transform_4 (grid0.coords t) 3 * 3 + (j 3).val = (j 3).val; rw [f4.2.2.2]; omega

/-- The stored scores on the rows inside the array do not depend on what the unnamed rows of the staging buffer hold. -/
theorem score_local (t : Fin grid0.N) (X : S32x255x76x76.Idx → Elt F .f32) (d d' : S1x255x40x76.Idx → Elt F .f32) :
    win0_4.cut (grid0.coords t) (k0_pay3 (k0_pay7 (fetched t X d))) = win0_4.cut (grid0.coords t) (k0_pay3 (k0_pay7 (fetched t X d'))) := by
  funext j
  obtain ⟨w, hw, h, a, e1, -⟩ := split4 t j
  show k0_pay3 (k0_pay7 (fetched t X d)) (win0_4.xinj (grid0.coords t) j)
    = k0_pay3 (k0_pay7 (fetched t X d')) (win0_4.xinj (grid0.coords t) j)
  rw [e1]
  exact score_congr _ _ w h a fun ch => by rw [fetched_at t X d ch w h hw, fetched_at t X d' ch w h hw]

/-- Over the extended reals the stored scores, cut to the rows inside the array, are the specification's block at the point. -/
theorem score_block (t : Fin grid0.N) (X : S32x255x76x76.Idx → Elt Ideal .f32) (d : S1x255x40x76.Idx → Elt Ideal .f32) :
    win0_4.cut (grid0.coords t) (k0_pay3 (F := Ideal) (k0_pay7 (fetched t X d))) = (win0_4.blk t).view.read (Elt Ideal) (scores4 X) := by
  funext j
  obtain ⟨w, hw, h, a, e1, e2⟩ := split4 t j
  show k0_pay3 (F := Ideal) (k0_pay7 (fetched t X d)) (win0_4.xinj (grid0.coords t) j) = scores4 X ((win0_4.rect t).emb j)
  rw [e1, e2, score_at, col_eq t X d w h hw]
  rfl

/-! ## The boxes -/

/-- The tile's first row plus the row within the tile, as 32-bit words, is the global row's word. -/
theorem word_row (n w : Nat) :
    IntOp.addi (BitVec.ofNat 32 w) (Scalar.muli (BitVec.ofNat 32 n) 40#32) = BitVec.ofNat 32 (n * 40 + w) := by
  show BitVec.ofNat 32 w + BitVec.ofNat 32 n * BitVec.ofNat 32 40 = _
  rw [Nat.add_comm, BitVec.ofNat_add, BitVec.ofNat_mul]

/-- The grid coordinates the kernel computes at point `t` are the cell's own coordinates in the whole array. -/
theorem grid_eq (t : Fin grid0.N) (w : Fin 40) (h : Fin 76) (hw : w.val < win0_0.xsize (grid0.coords t) 2) :
    gridK (F := F) (grid0.coords t) w h = gridAt (rowAt t w.val hw) h := by
  funext k
  unfold gridK gridAt
  by_cases hk : k.val = 0
  · rw [if_pos hk, if_pos hk]
    exact congrArg (FloatOps.sitofp .f32) (word_row (grid0.coords t 1).val w.val)
  · rw [if_neg hk, if_neg hk]

/-- An index of the boxes' block at point `t`, cut to the rows inside the array, by its coordinates. -/
theorem split2 (t : Fin grid0.N) (j : (a : Fin 5) → Fin (win0_2.xsize (grid0.coords t) a)) :
    ∃ (w : Fin 40) (hw : w.val < win0_0.xsize (grid0.coords t) 2) (h : Fin 76) (a : Fin 3) (k : Fin 4),
      win0_2.xinj (grid0.coords t) j = ix5 (0 : Fin 1) w h a k ∧
      (win0_2.rect t).emb j = ix5 (bAt t) (rowAt t w.val hw) h a k := by
  have x2 := xs2 (grid0.coords t)
  have f2 := tf2 (grid0.coords t)
  have h0 : (j 0).val < 1 := lt_of_lt_of_eq (j 0).isLt x2.1
  have h1 : (j 1).val < win0_0.xsize (grid0.coords t) 2 := lt_of_lt_of_eq (j 1).isLt x2.2.1
  have h2 : (j 2).val < 76 := lt_of_lt_of_eq (j 2).isLt x2.2.2.1
  have h3 : (j 3).val < 3 := lt_of_lt_of_eq (j 3).isLt x2.2.2.2.1
  have h4 : (j 4).val < 4 := lt_of_lt_of_eq (j 4).isLt x2.2.2.2.2
  have hle : win0_0.xsize (grid0.coords t) 2 ≤ 40 := win0_0.xsize_le _ 2
  refine ⟨⟨(j 1).val, by omega⟩, h1, ⟨(j 2).val, h2⟩, ⟨(j 3).val, h3⟩, ⟨(j 4).val, h4⟩, ?_, ?_⟩
  · funext a
    apply Fin.ext
    match a with
    | ⟨0, _⟩ => show (j 0).val = 0; omega
    | ⟨1, _⟩ => rfl
    | ⟨2, _⟩ => rfl
    | ⟨3, _⟩ => rfl
    | ⟨4, _⟩ => rfl
  · funext a
    apply Fin.ext
    rw [win0_2.rect_emb_val]
    match a with
    | ⟨0, _⟩ => show cc0_transform_2 (grid0.coords t) 0 * 1 + (j 0).val = (grid0.coords t 0).val; rw [f2.1]; omega
    | ⟨1, _⟩ => show cc0_transform_2 (grid0.coords t) 1 * 40 + (j 1).val = (grid0.coords t 1).val * 40 + (j 1).val; rw [f2.2.1]
    | ⟨2, _⟩ => show cc0_transform_2 (grid0.coords t) 2 * 76 + (j 2).val = (j 2).val; rw [f2.2.2.1]; omega
    | ⟨3, _⟩ => show cc0_transform_2 (grid0.coords t) 3 * 3 + (j 3).val = (j 3).val; rw [f2.2.2.2.1]; omega
    | ⟨4, _⟩ => show cc0_transform_2 (grid0.coords t) 4 * 4 + (j 4).val = (j 4).val; rw [f2.2.2.2.2]; omega

/-- The stored boxes, cut to the rows inside the array, are the specification's block at the point, the anchors block
    holding the anchors array transposed. -/
theorem box_block (t : Fin grid0.N) (X : S32x255x76x76.Idx → Elt F .f32) (d : S1x255x40x76.Idx → Elt F .f32)
    (x1 : Vec F S1x1x3x2 .f32) (A : S2x1x1x3.Idx → Elt F .f32) (hA : ∀ (a : Fin 3) (k : Fin 2), x1 (ix4 0 0 a k) = A (ix4 k 0 0 a)) :
    win0_2.cut (grid0.coords t) (k0_pay1 (k0_pay9 (grid0.coords t) (fetched t X d) x1) (k0_pay10 (grid0.coords t) (fetched t X d) x1))
      = (win0_2.blk t).view.read (Elt F) (boxes5 X A) := by
  funext j
  obtain ⟨w, hw, h, a, k, e1, e2⟩ := split2 t j
  show k0_pay1 (k0_pay9 (grid0.coords t) (fetched t X d) x1) (k0_pay10 (grid0.coords t) (fetched t X d) x1)
    (win0_2.xinj (grid0.coords t) j) = boxes5 X A ((win0_2.rect t).emb j)
  have ea : (fun k' : Fin 2 => x1 (ix4 0 0 a k')) = ancAt A a := funext fun k' => hA a k'
  rw [e1, e2, box_at, col_eq t X d w h hw, grid_eq t w h hw, ea]
  rfl

end Cert.Kernel.Blocks

end
-- ==== Proof.WRegion.lean ====
/-
  The pallas_call as a pipeline over its 32 × 2 grid, and the program's frame.

  At the grid point (b, wt) the pipeline fetches the input tile — rows 40 wt … 40 wt + 39 of image b's W axis, or only
  the 36 rows 40 … 75 that exist when wt = 1: the fetch is cut at the array's end and the rest of the staging buffer
  holds values nobody names —, runs the body, and writes the three output tiles back, cut the same way. The proof
  data name, for each point, what each staging buffer holds after the body: the input tile padded with a fixed
  filler, and the three stored tiles computed from THAT. The body really runs on the tile padded with anything; on
  the rows that exist the two agree (locality), and those rows are all that a cut write-back moves.
-/
import proofs.«151503_j8108898254914_1_alg».proof.Proof.WBody
import proofs.«151503_j8108898254914_1_alg».proof.Proof.WBlocks
import proofs.«151503_j8108898254914_1_alg».proof.Proof.Gen.Kernel.Frame
import proofs.«151503_j8108898254914_1_alg».proof.Proof.Gen.Kernel.Skeleton
import proofs.«151503_j8108898254914_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Region

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The feature map as the region finds it. -/
abbrev featMap (c : Dev nD) : S32x255x76x76.Idx → Elt F .f32 := V m c (Pipeline.arrRef spec0 0)

/-- The filler of a staging buffer's rows past the array's end, of which nothing is claimed. -/
def pad : S1x255x40x76.Idx → Elt F .f32 := fun _ => Scalar.ofBits .f32 0#32

/-- The input tile at point `t` as the proof data names it: the array's rows that exist, padded. -/
def inTile (c : Dev nD) (t : Fin cfg0.N) : Vec F S1x255x40x76 .f32 := Blocks.fetched t (featMap m c) pad

/-- The anchors' table as staged. -/
def ancTile (c : Dev nD) (t : Fin cfg0.N) : Vec F S1x1x3x2 .f32 := iblk m c 1 t

def dats (_ : Fin 1) (c : Dev nD) : Dat τ (Elt F) Unit ℕ (UR sig nD τ) ℕ cfg0 c where
  A w := V m c (Pipeline.arrRef spec0 w)
  after w t := match w with
    | ⟨0, _⟩ => inTile m c t
    | ⟨1, _⟩ => iblk m c 1 t
    | ⟨2, _⟩ => boxBlk (grid0.coords t) (inTile m c t) (ancTile m c t)
    | ⟨3, _⟩ => confBlk (inTile m c t)
    | ⟨4, _⟩ => scoreBlk (inTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inTile m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = boxBlk (grid0.coords t) (inTile m c t) (ancTile m c t) := by dsimp only [dats]
theorem after0_3 (c : Dev nD) (t : Fin cfg0.N) : (dats m 0 c).after 3 t = confBlk (inTile m c t) := by dsimp only [dats]
theorem after0_4 (c : Dev nD) (t : Fin cfg0.N) : (dats m 0 c).after 4 t = scoreBlk (inTile m c t) := by dsimp only [dats]

/-- The input tile as the body finds it: just fetched, the rows that exist from the array, the rest anything. -/
theorem before0_0 (c : Dev nD) (t : Fin cfg0.N) (d) :
    (dats m 0 c).before 0 t d = Blocks.fetched t (featMap m c) d := by
  rw [(dats m 0 c).before_fetched 0 t (fetch0_0 t)]
  unfold Dat.fetched Dat.blockOf Blocks.fetched
  rw [A_eq]
theorem before0_1 (c : Dev nD) (t : Fin cfg0.N) (d) : (dats m 0 c).before 1 t d = iblk m c 1 t :=
  before0_1_of m (dats m 0 c) (A_eq m c 1) (after0_1 m c) t d
/-- An output's buffer is fresh at every point: each point writes its tile back. -/
theorem before0_2 (c : Dev nD) (t : Fin cfg0.N) (d) : (dats m 0 c).before 2 t d = d :=
  (dats m 0 c).before_out_reset 2 rfl t (by by_cases h0 : t.val = 0; · exact .inl h0
                                            · exact .inr ⟨h0, flush0_2 _⟩) d
theorem before0_3 (c : Dev nD) (t : Fin cfg0.N) (d) : (dats m 0 c).before 3 t d = d :=
  (dats m 0 c).before_out_reset 3 rfl t (by by_cases h0 : t.val = 0; · exact .inl h0
                                            · exact .inr ⟨h0, flush0_3 _⟩) d
theorem before0_4 (c : Dev nD) (t : Fin cfg0.N) (d) : (dats m 0 c).before 4 t d = d :=
  (dats m 0 c).before_out_reset 4 rfl t (by by_cases h0 : t.val = 0; · exact .inl h0
                                            · exact .inr ⟨h0, flush0_4 _⟩) d

/-! ## Locality: the rows past the array's end reach no row inside it

Every stored cell depends on the input tile through that cell's own 255 channels, so on the rows that exist the
stored tiles do not depend on what the unnamed rows of the input buffer hold. -/

theorem box_local (t : Fin cfg0.N) (X : S32x255x76x76.Idx → Elt F .f32) (d d' : S1x255x40x76.Idx → Elt F .f32) (x1 : Vec F S1x1x3x2 .f32) :
    win0_2.cut (grid0.coords t) (boxBlk (grid0.coords t) (Blocks.fetched t X d) x1)
      = win0_2.cut (grid0.coords t) (boxBlk (grid0.coords t) (Blocks.fetched t X d') x1) :=
  (Blocks.box_block t X d x1 (fun j => x1 (ValueIdx.ix4 0 0 (j 3) (j 0))) (fun _ _ => rfl)).trans
    (Blocks.box_block t X d' x1 (fun j => x1 (ValueIdx.ix4 0 0 (j 3) (j 0))) (fun _ _ => rfl)).symm
theorem conf_local (t : Fin cfg0.N) (X : S32x255x76x76.Idx → Elt F .f32) (d d' : S1x255x40x76.Idx → Elt F .f32) :
    win0_3.cut (grid0.coords t) (confBlk (Blocks.fetched t X d)) = win0_3.cut (grid0.coords t) (confBlk (Blocks.fetched t X d')) :=
  (Blocks.conf_block t X d).trans (Blocks.conf_block t X d').symm
theorem score_local (t : Fin cfg0.N) (X : S32x255x76x76.Idx → Elt F .f32) (d d' : S1x255x40x76.Idx → Elt F .f32) :
    win0_4.cut (grid0.coords t) (scoreBlk (Blocks.fetched t X d)) = win0_4.cut (grid0.coords t) (scoreBlk (Blocks.fetched t X d')) :=
  Blocks.score_local t X d d'

/-! ## The body obligation -/

/-- At every point the body is handed the input tile just fetched (padded with anything), the anchors' table, and
    three output buffers holding anything; it hands back the inputs as they were and the outputs at the stored tiles —
    which on the rows that exist are the proof data's, by locality: all a window cut at the array's end is asked. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := F) c Set.univ (grid0.coords t) _ _ _ _ _ _ _ _ _ _ (Blocks.fetched t (featMap m c) d0) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · iexists d0
    rw [after0_0]
    have e : (win0 0).fill (grid0.coords t) d0 ((win0 0).cut (grid0.coords t) (inTile m c t)) = Blocks.fetched t (featMap m c) d0 := by
      unfold inTile Blocks.fetched
      exact congrArg _ (win0_0.cut_fill _ _ _)
    rw [e]; iexact H0
  isplitl [H1]
  · rw [after0_1]; iexact H1
  isplitl [H2]
  · iexists (boxBlk (grid0.coords t) (Blocks.fetched t (featMap m c) d0) (iblk m c 1 t))
    rw [after0_2]
    have e : (win0 2).fill (grid0.coords t) (boxBlk (grid0.coords t) (Blocks.fetched t (featMap m c) d0) (iblk m c 1 t))
          ((win0 2).cut (grid0.coords t) (boxBlk (grid0.coords t) (inTile m c t) (ancTile m c t)))
        = boxBlk (grid0.coords t) (Blocks.fetched t (featMap m c) d0) (iblk m c 1 t) :=
      win0_2.fill_congr_cut _ (box_local t (featMap m c) d0 pad (iblk m c 1 t))
    rw [e]; iexact H2
  isplitl [H3]
  · iexists (confBlk (Blocks.fetched t (featMap m c) d0))
    rw [after0_3]
    have e : (win0 3).fill (grid0.coords t) (confBlk (Blocks.fetched t (featMap m c) d0))
          ((win0 3).cut (grid0.coords t) (confBlk (inTile m c t))) = confBlk (Blocks.fetched t (featMap m c) d0) :=
      win0_3.fill_congr_cut _ (conf_local t (featMap m c) d0 pad)
    rw [e]; iexact H3
  · iexists (scoreBlk (Blocks.fetched t (featMap m c) d0))
    rw [after0_4]
    have e : (win0 4).fill (grid0.coords t) (scoreBlk (Blocks.fetched t (featMap m c) d0))
          ((win0 4).cut (grid0.coords t) (scoreBlk (inTile m c t))) = scoreBlk (Blocks.fetched t (featMap m c) d0) :=
      win0_4.fill_congr_cut _ (score_local t (featMap m c) d0 pad)
    rw [e]; iexact H4

/-! ## The run and the frame -/

set_option backward.isDefEq.respectTransparency.types false in
/-- Every weakly fair execution of @main ends, faults nowhere, and leaves each array of the pipeline at what the
    write-backs of the proof data's tiles make of it, and every other buffer at what the host operations after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Region

end
-- ==== Proof.Body.lean ====
/-
  The kernel's body on one tile.

  A grid point is a pair (image b, tile wt of the W axis). There the body finds, in its staging buffers, the input
  tile — all 255 channels of 40 consecutive W rows and all 76 H columns — and the 3 × 2 table of anchor priors, and it
  writes three tiles: the boxes, the class confidences and the scores of those 40 × 76 cells, for the 3 anchors.
  It loads the two input buffers whole and stores the three output buffers whole (it also loads each output buffer
  before storing to it, and uses nothing of what it loaded), so each stored tile is a pure function of the two tiles
  read: `boxBlk`, `confBlk`, `scoreBlk` below, named over the arithmetic of the printed body. This file proves that
  triple, at any float instance; what the three functions compute, cell by cell, is proved elsewhere.
-/
import proofs.«151503_j8108898254914_1_alg».proof.Proof.Gen.KernelIdeal.Frame
import proofs.«151503_j8108898254914_1_alg».proof.Proof.Gen.KernelIdeal.Skeleton
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body leaves -/

def boxBlk (i : grid0.Coords) (x0 : Vec F S1x255x40x76 .f32) (x1 : Vec F S1x1x3x2 .f32) : Vec F S1x40x76x3x4 .f32 :=
  k0_pay1 (k0_pay9 i x0 x1) (k0_pay10 i x0 x1)
def confBlk (x0 : Vec F S1x255x40x76 .f32) : Vec F S1x40x76x3x80 .f32 := k0_pay2 (k0_pay6 x0)
def scoreBlk (x0 : Vec F S1x255x40x76 .f32) : Vec F S1x40x76x3 .f32 := k0_pay3 (k0_pay7 x0)

theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

set_option maxHeartbeats 1000000 in
/-- The body's triple: on whole staging memrefs, the two inputs at `x0` and `x1` and the three outputs at anything, it
    runs to the continuation with the inputs as they were and the outputs at `boxBlk`, `confBlk`, `scoreBlk` of them
    (each store overwrites its whole buffer, so what a buffer held before is immaterial). -/
theorem sound_kernel (c : Dev nD) (E : Set ℕ) (i : grid0.Coords)
    (arg2 : Memref sig .tc .vmem S1x255x40x76 .f32) (harg2 : arg2.IsWhole) (arg3 : Memref sig .tc .vmem S1x1x3x2 .f32) (harg3 : arg3.IsWhole)
    (arg4 : Memref sig .tc .vmem S1x40x76x3x4 .f32) (harg4 : arg4.IsWhole) (arg5 : Memref sig .tc .vmem S1x40x76x3x80 .f32) (harg5 : arg5.IsWhole)
    (arg6 : Memref sig .tc .vmem S1x40x76x3 .f32) (harg6 : arg6.IsWhole)
    (x0 : Vec F S1x255x40x76 .f32) (x1 : Vec F S1x1x3x2 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (boxBlk i x0 x1) ∗ owns (c : Thread nD τ) arg5 fullShare (confBlk x0)
            ∗ owns (c : Thread nD τ) arg6 fullShare (scoreBlk x0)) -∗ K ⟨⟩))
      ⊢ wp frame (wpE (defs₀ (F := F)) Variants.none c none) E (cc0__yolo_kernel i arg2 harg2 arg3 harg3 arg4 harg4 arg5 harg5 arg6 harg6) K := by
  simp only [cc0__yolo_kernel_eq_skeleton]; unfold cc0__yolo_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros5 inb_S1x40x76x3x4_S1x40x76x3x4_0_0_0_0_0 y⟩),
      View.canon_unit_zero zeros5]
    dsimp only
    simp only [View.readAt_eq_ld, View.ld_unit_zero (S := S1x255x40x76) zeros4, View.ld_unit_zero (S := S1x1x3x2) zeros4]
    unfold boxBlk; rfl
  isplitl [H3]
  · iexists _; isplitr
    swap; · iexact H3
    ipureintro
    rw [View.read_writes_eq_canon _ _ _ (fun y => ⟨_, List.mem_singleton_self _, View.mem_set_unit_zero zeros5 inb_S1x40x76x3x80_S1x40x76x3x80_0_0_0_0_0 y⟩),
      View.canon_unit_zero zeros5]
    dsimp only
    simp only [View.readAt_eq_ld, View.ld_unit_zero (S := S1x255x40x76) zeros4, View.ld_unit_zero (S := S1x1x3x2) zeros4]
    unfold confBlk; rfl
  · iexists _; isplitr
    swap; · iexact H4
    ipureintro
    rw [View.read_writes_eq_canon _ _ _ (fun y => ⟨_, List.mem_singleton_self _, View.mem_set_unit_zero zeros4 inb_S1x40x76x3_S1x40x76x3_0_0_0_0 y⟩),
      View.canon_unit_zero zeros4]
    dsimp only
    simp only [View.readAt_eq_ld, View.ld_unit_zero (S := S1x255x40x76) zeros4, View.ld_unit_zero (S := S1x1x3x2) zeros4]
    unfold scoreBlk; rfl

end Cert.KernelIdeal.Body

end
-- ==== Proof.Payload.lean ====
/-
  The kernel's stored payloads read at one index.

  The kernel's input block is x[0, ch, w, h] with 255 = 3 · 85 channels; it is viewed as [3, 85, 40, 76], transposed to
  [40, 76, 3, 85], sliced along the feature axis, and what is stored is pointwise in those slices. Read at one index
  (w, h, a, ·) every stored element is therefore the cell-by-cell formula of the box decoding applied to the 255
  channels of the one cell (w, h) of the block.
-/
import proofs.«151503_j8108898254914_1_alg».proof.Proof.Gen.KernelIdeal.Skeleton
import proofs.«151503_j8108898254914_1_alg».proof.Proof.BoxDecode
import Idealize.ShloMosaic.Lib.ValueIdx
import Idealize.ShloMosaic.Lib.Pipeline.Value
import Idealize.ShloMosaic.PureOps.Reduce
import Idealize.ShloMosaic.PureOps.Ideal.Laws

noncomputable section

namespace Cert.KernelIdeal.Payload

open Cert.KernelIdeal Cert.KernelIdeal.Gen Cert.BoxDecode Idealize.ShloMosaic Idealize.ShloMosaic.ValueIdx

variable {F : FTy → Type} [FloatOps F]

/-- The transposed block at (w, h, a, f) is the input block at channel 85·a + f of the cell (w, h). -/
theorem pay4_at (X0 : Vec F S1x255x40x76 .f32) (w : Fin 40) (h : Fin 76) (a : Fin 3) (f : Fin 85) :
    k0_pay4 X0 (ix4 w h a f) = X0 (ix4 0 (chan a f.val f.isLt) w h) := by
  have hw := w.isLt
  have hh := h.isLt
  have ha := a.isLt
  have hf := f.isLt
  unfold k0_pay4
  -- the transpose [2, 3, 0, 1]: [40,76,3,85] at (w, h, a, f) reads [3,85,40,76] at (a, f, w, h)
  refine (transpose_apply _ _ _ (ix4 w h a f) (ix4 a f w h)
    (fun b => match b with | ⟨0, _⟩ => rfl | ⟨1, _⟩ => rfl | ⟨2, _⟩ => rfl | ⟨3, _⟩ => rfl)).trans ?_
  -- the shape cast [255,40,76] -> [3,85,40,76]: channel 85·a + f
  refine (shapeCast_apply _ _ (ix4 a f w h) (ix3 (chan a f.val f.isLt) w h)
    (by rw [Shape.rowMajor_val_three, Shape.rowMajor_val_four]
        show ((a.val * 85 + f.val) * 40 + w.val) * 76 + h.val = ((a.val * 85 + f.val) * 40 + w.val) * 76 + h.val
        rfl)).trans ?_
  -- the shape cast dropping the block's leading unit axis
  exact shapeCast_apply _ _ (ix3 (chan a f.val f.isLt) w h) (ix4 0 (chan a f.val f.isLt) w h)
    (by rw [Shape.rowMajor_val_three, Shape.rowMajor_val_four]
        show ((0 * 255 + (a.val * 85 + f.val)) * 40 + w.val) * 76 + h.val = ((a.val * 85 + f.val) * 40 + w.val) * 76 + h.val
        omega)

/-- The confidences at (w, h, a, cl): σ(class logit) · σ(objectness) of the cell's channels. -/
theorem pay6_at (X0 : Vec F S1x255x40x76 .f32) (w : Fin 40) (h : Fin 76) (a : Fin 3) (cl : Fin 80) :
    k0_pay6 X0 (ix4 w h a cl) = confPt (fun ch => X0 (ix4 0 ch w h)) a cl := by
  have hcl := cl.isLt
  unfold k0_pay6
  -- the class logits: the slice at feature offset 5
  have e1 : extractStridedSlice S40x76x3x80 ![0, 0, 0, 5] (k0_pay4 X0) slices_S40x76x3x85_o0_0_0_5_S40x76x3x80 (ix4 w h a cl)
      = X0 (ix4 0 (chan a (5 + cl.val) (by omega)) w h) :=
    (extractStridedSlice_apply _ _ _ (ix4 w h a cl) (ix4 w h a (⟨5 + cl.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 5 + cl.val = 5 + cl.val; rfl)).trans (pay4_at X0 w h a ⟨5 + cl.val, by omega⟩)
  -- the objectness: the one-wide slice at feature offset 4, broadcast over the classes
  have e2 : extractStridedSlice S40x76x3x1 ![0, 0, 0, 4] (k0_pay4 X0) slices_S40x76x3x85_o0_0_0_4_S40x76x3x1 (ix4 w h a (0 : Fin 1))
      = X0 (ix4 0 (chan a 4 (by omega)) w h) :=
    (extractStridedSlice_apply _ _ _ (ix4 w h a (0 : Fin 1)) (ix4 w h a (⟨4, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 4 = 4 + 0; rfl)).trans (pay4_at X0 w h a ⟨4, by omega⟩)
  have e3 : broadcastTo S40x76x3x80
        (logistic (extractStridedSlice S40x76x3x1 ![0, 0, 0, 4] (k0_pay4 X0) slices_S40x76x3x85_o0_0_0_4_S40x76x3x1))
        broadcasts_S40x76x3x1_S40x76x3x80 (ix4 w h a cl)
      = FloatOps.logistic (X0 (ix4 0 (chan a 4 (by omega)) w h)) :=
    (broadcastTo_apply _ _ (ix4 w h a cl) (ix4 w h a (0 : Fin 1))
      (fun b => match b with
        | ⟨0, _⟩ => by show w.val = if (40 : Nat) = 1 then 0 else w.val; rfl
        | ⟨1, _⟩ => by show h.val = if (76 : Nat) = 1 then 0 else h.val; rfl
        | ⟨2, _⟩ => by show a.val = if (3 : Nat) = 1 then 0 else a.val; rfl
        | ⟨3, _⟩ => by show (0 : Nat) = if (1 : Nat) = 1 then 0 else cl.val; rfl)).trans (congrArg FloatOps.logistic e2)
  show FloatOps.mulf (FloatOps.logistic (extractStridedSlice S40x76x3x80 ![0, 0, 0, 5] (k0_pay4 X0) slices_S40x76x3x85_o0_0_0_5_S40x76x3x80 (ix4 w h a cl)))
      (broadcastTo S40x76x3x80
        (logistic (extractStridedSlice S40x76x3x1 ![0, 0, 0, 4] (k0_pay4 X0) slices_S40x76x3x85_o0_0_0_4_S40x76x3x1))
        broadcasts_S40x76x3x1_S40x76x3x80 (ix4 w h a cl)) = _
  rw [e1, e3]
  rfl

/-- The stored confidences at (0, w, h, a, cl): the block's leading unit axis added. -/
theorem conf_at (X0 : Vec F S1x255x40x76 .f32) (w : Fin 40) (h : Fin 76) (a : Fin 3) (cl : Fin 80) :
    k0_pay2 (k0_pay6 X0) (ix5 0 w h a cl) = confPt (fun ch => X0 (ix4 0 ch w h)) a cl := by
  unfold k0_pay2
  refine (shapeCast_apply _ _ (ix5 0 w h a cl) (ix4 w h a cl)
    (by rw [Shape.rowMajor_val_four, Shape.rowMajor_val_five]
        show ((w.val * 76 + h.val) * 3 + a.val) * 80 + cl.val = (((0 * 40 + w.val) * 76 + h.val) * 3 + a.val) * 80 + cl.val
        omega)).trans ?_
  exact pay6_at X0 w h a cl

/-! ## The scores: the greatest confidence of a cell's anchor -/

/-- A reduction's fold at `j` reads its operand only at the indices that drop to `j`. -/
theorem reduceFold_congr {α : Type} {s t : Shape} {axes : List (Fin s.rank)} (hr : s.Reduces axes t) (f : α → α → α) (init : α)
    (x x' : s.Idx → α) (j : t.Idx) (hx : ∀ i : s.Idx, hr.drop i = j → x i = x' i) :
    reduceFold hr f init x j = reduceFold hr f init x' j := by
  unfold reduceFold
  refine List.foldl_ext _ _ _ fun r n hn => ?_
  have hd : hr.drop (s.rowMajor.symm n) = j := of_decide_eq_true (List.mem_filter.1 hn).2
  rw [hx _ hd]

/-- An index of the confidences that drops to (w, h, a) along the class axis is (w, h, a, its own class). -/
theorem eq_of_drop (i : S40x76x3x80.Idx) (w : Fin 40) (h : Fin 76) (a : Fin 3)
    (hd : reduces_S40x76x3x80_S40x76x3.drop i = ix3 w h a) : ∃ cl : Fin 80, i = ix4 w h a cl := by
  refine ⟨i 3, ?_⟩
  have e := reduces_S40x76x3x80_S40x76x3.lift_drop i
  rw [hd] at e
  rw [← e]
  funext c
  match c with
  | ⟨0, _⟩ => rfl
  | ⟨1, _⟩ => rfl
  | ⟨2, _⟩ => rfl
  | ⟨3, _⟩ => rfl

/-- The stored score of (w, h, a) depends on the input block only through the 255 channels of the cell (w, h). -/
theorem score_congr (X0 X0' : Vec F S1x255x40x76 .f32) (w : Fin 40) (h : Fin 76) (a : Fin 3)
    (hX : ∀ ch : Fin 255, X0 (ix4 0 ch w h) = X0' (ix4 0 ch w h)) :
    k0_pay3 (k0_pay7 X0) (ix4 0 w h a) = k0_pay3 (k0_pay7 X0') (ix4 0 w h a) := by
  have hsc : ∀ v : FVec F S40x76x3 .f32, k0_pay3 v (ix4 0 w h a) = v (ix3 w h a) := fun v => by
    unfold k0_pay3
    exact shapeCast_apply _ _ (ix4 0 w h a) (ix3 w h a)
      (by rw [Shape.rowMajor_val_three, Shape.rowMajor_val_four]
          show (w.val * 76 + h.val) * 3 + a.val = ((0 * 40 + w.val) * 76 + h.val) * 3 + a.val
          omega)
  rw [hsc, hsc]
  unfold k0_pay7
  -- the maximum reduction is the fold of the instance's maximum from −∞ over the class axis
  refine reduceFold_congr reduces_S40x76x3x80_S40x76x3 FloatOps.maximumf (FloatOps.ofBits .f32 0xFF800000#32)
    (k0_pay6 X0) (k0_pay6 X0') (ix3 w h a) fun i hd => ?_
  obtain ⟨cl, rfl⟩ := eq_of_drop i w h a hd
  rw [pay6_at, pay6_at]
  exact congrArg (fun col => confPt col a cl) (funext hX)

/-- The stored score of (w, h, a) over the extended reals: the greatest of the 80 confidences, from −∞. -/
theorem score_at (X0 : Vec Ideal S1x255x40x76 .f32) (w : Fin 40) (h : Fin 76) (a : Fin 3) :
    k0_pay3 (F := Ideal) (k0_pay7 X0) (ix4 0 w h a)
      = (Finset.univ : Finset (Fin 80)).fold max (FloatOps.ofBits .f32 0xFF800000#32)
          (fun cl => confPt (F := Ideal) (fun ch => X0 (ix4 0 ch w h)) a cl) := by
  unfold k0_pay3
  refine (shapeCast_apply _ _ (ix4 0 w h a) (ix3 w h a)
      (by rw [Shape.rowMajor_val_three, Shape.rowMajor_val_four]
          show (w.val * 76 + h.val) * 3 + a.val = ((0 * 40 + w.val) * 76 + h.val) * 3 + a.val
          omega)).trans ?_
  unfold k0_pay7
  refine (Ideal.multiReduction_maximumf_single _ _ reduces_S40x76x3x80_S40x76x3 _ _ (ix3 w h a)).trans ?_
  refine Finset.fold_congr fun cl _ => ?_
  show k0_pay6 X0 (reduces_S40x76x3x80_S40x76x3.lift (ix3 w h a) cl) = _
  have e : reduces_S40x76x3x80_S40x76x3.lift (ix3 w h a) cl = ix4 w h a cl := by
    funext c
    match c with
    | ⟨0, _⟩ => rfl
    | ⟨1, _⟩ => rfl
    | ⟨2, _⟩ => rfl
    | ⟨3, _⟩ => rfl
  rw [e]
  exact pay6_at X0 w h a cl

/-! ## The boxes -/

/-- The cell's own grid coordinates as the kernel computes them: the tile's first row (40 · the W-tile's number) plus
    the row within the tile for `k = 0`, the column for `k = 1`, each converted from a 32-bit integer. -/
def gridK (i : grid0.Coords) (w : Fin 40) (h : Fin 76) : Fin 2 → F .f32 := fun k =>
  FloatOps.sitofp .f32 (if k.val = 0 then IntOp.addi (BitVec.ofNat 32 w.val) (Scalar.muli (BitVec.ofNat 32 (i 1).val) 40#32)
    else BitVec.ofNat 32 h.val)

/-- The grid coordinate columns: a [40, 76] array cast to [40, 76, 1, 1] and broadcast over the anchors reads (w, h). -/
theorem gridCol_at (g : FVec F S40x76 .f32) (w : Fin 40) (h : Fin 76) (a : Fin 3) :
    broadcastTo S40x76x3x1 (shapeCast S40x76x1x1 g shapeCasts_S40x76_S40x76x1x1) broadcasts_S40x76x1x1_S40x76x3x1
      (ix4 w h a (0 : Fin 1)) = g (ix2 w h) := by
  refine (broadcastTo_apply _ _ (ix4 w h a (0 : Fin 1)) (ix4 w h (0 : Fin 1) (0 : Fin 1))
    (fun b => match b with
      | ⟨0, _⟩ => by show w.val = if (40 : Nat) = 1 then 0 else w.val; rfl
      | ⟨1, _⟩ => by show h.val = if (76 : Nat) = 1 then 0 else h.val; rfl
      | ⟨2, _⟩ => by show (0 : Nat) = if (1 : Nat) = 1 then 0 else a.val; rfl
      | ⟨3, _⟩ => by show (0 : Nat) = if (1 : Nat) = 1 then 0 else 0; rfl)).trans ?_
  exact shapeCast_apply _ _ (ix4 w h (0 : Fin 1) (0 : Fin 1)) (ix2 w h)
    (by rw [Shape.rowMajor_val_two, Shape.rowMajor_val_four]
        show w.val * 76 + h.val = ((w.val * 76 + h.val) * 1 + 0) * 1 + 0
        omega)

/-- The box centres at (w, h, a, k): (σ(t) + grid coordinate) / 76. -/
theorem pay5_at (i : grid0.Coords) (X0 : Vec F S1x255x40x76 .f32) (w : Fin 40) (h : Fin 76) (a : Fin 3) (k : Fin 2) :
    k0_pay5 i X0 (ix4 w h a k) = centrePt (fun ch => X0 (ix4 0 ch w h)) (gridK i w h k) a k := by
  -- the centre logits: feature k of the anchor, through the two nested slices
  have et : ∀ (k' : Fin 2) (hs : S40x76x3x2.Slices ![0, 0, 0, k'.val] S40x76x3x1),
      extractStridedSlice S40x76x3x1 ![0, 0, 0, k'.val]
        (extractStridedSlice S40x76x3x2 ![0, 0, 0, 0] (k0_pay4 X0) slices_S40x76x3x85_o0_0_0_0_S40x76x3x2) hs (ix4 w h a (0 : Fin 1))
      = X0 (ix4 0 (chan a k'.val (by have := k'.isLt; omega)) w h) := fun k' hs => by
    have hk' := k'.isLt
    refine (extractStridedSlice_apply _ _ hs (ix4 w h a (0 : Fin 1)) (ix4 w h a k')
      (fun b => match b with
        | ⟨0, _⟩ => by show w.val = 0 + w.val; omega
        | ⟨1, _⟩ => by show h.val = 0 + h.val; omega
        | ⟨2, _⟩ => by show a.val = 0 + a.val; omega
        | ⟨3, _⟩ => by show k'.val = k'.val + 0; omega)).trans ?_
    refine (extractStridedSlice_apply _ _ _ (ix4 w h a k') (ix4 w h a (⟨k'.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show k'.val = 0 + k'.val; omega)).trans ?_
    exact pay4_at X0 w h a ⟨k'.val, by omega⟩
  unfold k0_pay5
  match k with
  | ⟨0, _⟩ =>
    refine (concatenate_pair_apply_left (t := S40x76x3x2) (s₁ := S40x76x3x1) (s₂ := S40x76x3x1) (3 : Fin 4) _ _ concatenates_S40x76x3x1_S40x76x3x1_S40x76x3x2_d3 (ix4 w h a (⟨0, by omega⟩ : Fin 2)) rfl
      (ix4 w h a (0 : Fin 1))
      (fun b => match b with | ⟨0, _⟩ => rfl | ⟨1, _⟩ => rfl | ⟨2, _⟩ => rfl | ⟨3, _⟩ => rfl)).trans ?_
    have eg := gridCol_at (F := F) (sitofp .f32 (addi (iota .tc S40x76 32 [0] iota_S40x76_d0_w32)
      (broadcast S40x76 (Scalar.muli (BitVec.ofNat 32 (i 1).val) 40#32)))) w h a
    have ei : iota .tc S40x76 32 [0] iota_S40x76_d0_w32 (ix2 w h) = BitVec.ofNat 32 w.val :=
      iota_single_apply .tc S40x76 32 0 iota_S40x76_d0_w32 (ix2 w h)
    have e0 : extractStridedSlice S40x76x3x1 ![0, 0, 0, 0]
        (extractStridedSlice S40x76x3x2 ![0, 0, 0, 0] (k0_pay4 X0) slices_S40x76x3x85_o0_0_0_0_S40x76x3x2)
        slices_S40x76x3x2_o0_0_0_0_S40x76x3x1 (ix4 w h a (0 : Fin 1)) = X0 (ix4 0 (chan a 0 (by omega)) w h) :=
      et 0 slices_S40x76x3x2_o0_0_0_0_S40x76x3x1
    show FloatOps.divf (FloatOps.addf (FloatOps.logistic (extractStridedSlice S40x76x3x1 ![0, 0, 0, 0]
        (extractStridedSlice S40x76x3x2 ![0, 0, 0, 0] (k0_pay4 X0) slices_S40x76x3x85_o0_0_0_0_S40x76x3x2)
        slices_S40x76x3x2_o0_0_0_0_S40x76x3x1 (ix4 w h a (0 : Fin 1))))
      (broadcastTo S40x76x3x1 (shapeCast S40x76x1x1 (sitofp .f32 (addi (iota .tc S40x76 32 [0] iota_S40x76_d0_w32)
        (broadcast S40x76 (Scalar.muli (BitVec.ofNat 32 (i 1).val) 40#32)))) shapeCasts_S40x76_S40x76x1x1)
        broadcasts_S40x76x1x1_S40x76x3x1 (ix4 w h a (0 : Fin 1)))) (FloatOps.ofBits .f32 0x42980000#32) = _
    rw [eg, e0]
    show FloatOps.divf (FloatOps.addf _ (FloatOps.sitofp .f32 (IntOp.addi (iota .tc S40x76 32 [0] iota_S40x76_d0_w32 (ix2 w h)) _))) _ = _
    rw [ei]
    rfl
  | ⟨1, _⟩ =>
    refine (concatenate_pair_apply_right (t := S40x76x3x2) (s₁ := S40x76x3x1) (s₂ := S40x76x3x1) (3 : Fin 4) _ _ concatenates_S40x76x3x1_S40x76x3x1_S40x76x3x2_d3 (ix4 w h a (⟨1, by omega⟩ : Fin 2)) rfl rfl
      (ix4 w h a (0 : Fin 1))
      (fun b => match b with
        | ⟨0, _⟩ => fun _ => rfl | ⟨1, _⟩ => fun _ => rfl | ⟨2, _⟩ => fun _ => rfl
        | ⟨3, _⟩ => fun hne => absurd rfl hne)
      rfl).trans ?_
    have eg := gridCol_at (F := F) (sitofp .f32 (iota .tc S40x76 32 [1] iota_S40x76_d1_w32)) w h a
    have ei : iota .tc S40x76 32 [1] iota_S40x76_d1_w32 (ix2 w h) = BitVec.ofNat 32 h.val :=
      iota_single_apply .tc S40x76 32 1 iota_S40x76_d1_w32 (ix2 w h)
    have e1 : extractStridedSlice S40x76x3x1 ![0, 0, 0, 1]
        (extractStridedSlice S40x76x3x2 ![0, 0, 0, 0] (k0_pay4 X0) slices_S40x76x3x85_o0_0_0_0_S40x76x3x2)
        slices_S40x76x3x2_o0_0_0_1_S40x76x3x1 (ix4 w h a (0 : Fin 1)) = X0 (ix4 0 (chan a 1 (by omega)) w h) :=
      et 1 slices_S40x76x3x2_o0_0_0_1_S40x76x3x1
    show FloatOps.divf (FloatOps.addf (FloatOps.logistic (extractStridedSlice S40x76x3x1 ![0, 0, 0, 1]
        (extractStridedSlice S40x76x3x2 ![0, 0, 0, 0] (k0_pay4 X0) slices_S40x76x3x85_o0_0_0_0_S40x76x3x2)
        slices_S40x76x3x2_o0_0_0_1_S40x76x3x1 (ix4 w h a (0 : Fin 1))))
      (broadcastTo S40x76x3x1 (shapeCast S40x76x1x1 (sitofp .f32 (iota .tc S40x76 32 [1] iota_S40x76_d1_w32)) shapeCasts_S40x76_S40x76x1x1)
        broadcasts_S40x76x1x1_S40x76x3x1 (ix4 w h a (0 : Fin 1)))) (FloatOps.ofBits .f32 0x42980000#32) = _
    rw [eg, e1]
    show FloatOps.divf (FloatOps.addf _ (FloatOps.sitofp .f32 (iota .tc S40x76 32 [1] iota_S40x76_d1_w32 (ix2 w h)))) _ = _
    rw [ei]
    rfl

/-- The box half-extents at (w, h, a, k): exp(t) · the anchor's prior · ½. -/
theorem pay8_at (X0 : Vec F S1x255x40x76 .f32) (X1 : Vec F S1x1x3x2 .f32) (w : Fin 40) (h : Fin 76) (a : Fin 3) (k : Fin 2) :
    k0_pay8 X0 X1 (ix4 w h a k) = halfPt (fun ch => X0 (ix4 0 ch w h)) (X1 (ix4 0 0 a k)) a k := by
  have hk := k.isLt
  unfold k0_pay8
  -- the extent logits: the slice at feature offset 2
  have e1 : extractStridedSlice S40x76x3x2 ![0, 0, 0, 2] (k0_pay4 X0) slices_S40x76x3x85_o0_0_0_2_S40x76x3x2 (ix4 w h a k)
      = X0 (ix4 0 (chan a (2 + k.val) (by omega)) w h) :=
    (extractStridedSlice_apply _ _ _ (ix4 w h a k) (ix4 w h a (⟨2 + k.val, by omega⟩ : Fin 85))
      (fun b => match b with
        | ⟨0, _⟩ => by show w.val = 0 + w.val; omega
        | ⟨1, _⟩ => by show h.val = 0 + h.val; omega
        | ⟨2, _⟩ => by show a.val = 0 + a.val; omega
        | ⟨3, _⟩ => by show 2 + k.val = 2 + k.val; rfl)).trans (pay4_at X0 w h a ⟨2 + k.val, by omega⟩)
  -- the anchors block, cast to [3, 2] and back, broadcast over the cells
  have e2 : broadcastTo S40x76x3x2 (shapeCast S1x1x3x2 (shapeCast S3x2 X1 shapeCasts_S1x1x3x2_S3x2) shapeCasts_S3x2_S1x1x3x2)
      broadcasts_S1x1x3x2_S40x76x3x2 (ix4 w h a k) = X1 (ix4 0 0 a k) := by
    rw [shapeCast_shapeCast]
    exact broadcastTo_apply _ _ (ix4 w h a k) (ix4 (0 : Fin 1) (0 : Fin 1) a k)
      (fun b => match b with
        | ⟨0, _⟩ => by show (0 : Nat) = if (1 : Nat) = 1 then 0 else w.val; rfl
        | ⟨1, _⟩ => by show (0 : Nat) = if (1 : Nat) = 1 then 0 else h.val; rfl
        | ⟨2, _⟩ => by show a.val = if (3 : Nat) = 1 then 0 else a.val; rfl
        | ⟨3, _⟩ => by show k.val = if (2 : Nat) = 1 then 0 else k.val; rfl)
  show FloatOps.mulf (FloatOps.mulf (FloatOps.exp (extractStridedSlice S40x76x3x2 ![0, 0, 0, 2] (k0_pay4 X0) slices_S40x76x3x85_o0_0_0_2_S40x76x3x2 (ix4 w h a k)))
      (broadcastTo S40x76x3x2 (shapeCast S1x1x3x2 (shapeCast S3x2 X1 shapeCasts_S1x1x3x2_S3x2) shapeCasts_S3x2_S1x1x3x2)
        broadcasts_S1x1x3x2_S40x76x3x2 (ix4 w h a k))) (FloatOps.ofBits .f32 0x3F000000#32) = _
  rw [e1, e2]
  rfl

/-- The stored box at (0, w, h, a, k): centre − half for `k = 0, 1`, centre + half for `k = 2, 3`. -/
theorem box_at (i : grid0.Coords) (X0 : Vec F S1x255x40x76 .f32) (X1 : Vec F S1x1x3x2 .f32) (w : Fin 40) (h : Fin 76) (a : Fin 3)
    (k : Fin 4) :
    k0_pay1 (k0_pay9 i X0 X1) (k0_pay10 i X0 X1) (ix5 0 w h a k)
      = boxPt (fun ch => X0 (ix4 0 ch w h)) (gridK i w h) (fun k' => X1 (ix4 0 0 a k')) a k := by
  have hk := k.isLt
  unfold k0_pay1
  -- the stored block's leading unit axis
  refine (shapeCast_apply _ _ (ix5 0 w h a k) (ix4 w h a k)
    (by rw [Shape.rowMajor_val_four, Shape.rowMajor_val_five]
        show ((w.val * 76 + h.val) * 3 + a.val) * 4 + k.val = (((0 * 40 + w.val) * 76 + h.val) * 3 + a.val) * 4 + k.val
        omega)).trans ?_
  unfold boxPt
  by_cases hlt : k.val < 2
  · rw [dif_pos hlt]
    -- the first two coordinates come from the difference
    refine (concatenate_pair_apply_left (t := S40x76x3x4) (s₁ := S40x76x3x2) (s₂ := S40x76x3x2) (3 : Fin 4) _ _ concatenates_S40x76x3x2_S40x76x3x2_S40x76x3x4_d3 (ix4 w h a k) rfl
      (ix4 w h a (⟨k.val, hlt⟩ : Fin 2))
      (fun b => match b with | ⟨0, _⟩ => rfl | ⟨1, _⟩ => rfl | ⟨2, _⟩ => rfl | ⟨3, _⟩ => rfl)).trans ?_
    unfold k0_pay9
    show FloatOps.subf (k0_pay5 i X0 (ix4 w h a ⟨k.val, hlt⟩)) (k0_pay8 X0 X1 (ix4 w h a ⟨k.val, hlt⟩)) = _
    rw [pay5_at, pay8_at]
  · rw [dif_neg hlt]
    -- the last two from the sum
    refine (concatenate_pair_apply_right (t := S40x76x3x4) (s₁ := S40x76x3x2) (s₂ := S40x76x3x2) (3 : Fin 4) _ _ concatenates_S40x76x3x2_S40x76x3x2_S40x76x3x4_d3 (ix4 w h a k) rfl rfl
      (ix4 w h a (⟨k.val - 2, by omega⟩ : Fin 2))
      (fun b => match b with
        | ⟨0, _⟩ => fun _ => rfl | ⟨1, _⟩ => fun _ => rfl | ⟨2, _⟩ => fun _ => rfl
        | ⟨3, _⟩ => fun hne => absurd rfl hne)
      (by show k.val - 2 + 2 = k.val; omega)).trans ?_
    unfold k0_pay10
    show FloatOps.addf (k0_pay5 i X0 (ix4 w h a ⟨k.val - 2, _⟩)) (k0_pay8 X0 X1 (ix4 w h a ⟨k.val - 2, _⟩)) = _
    rw [pay5_at, pay8_at]

end Cert.KernelIdeal.Payload

end
-- ==== Proof.Blocks.lean ====
/-
  The kernel's stored blocks, cut to the rows inside the array, are the specification's blocks.

  The grid is 32 × 2: point (b, wt) reads the input block of batch entry b and rows 40·wt … 40·wt + 39 of W, and
  writes the three result blocks of the same batch entry and rows. W has 76 rows, so at wt = 1 only 36 rows lie inside
  the arrays: the fetch leaves the staging buffer's last four rows at contents nobody names, and the write-backs move
  only the first 36 rows of what the body stored. Every stored element depends on the input block only through the 255
  channels of its own cell, so on the rows inside the array what is stored is the box decoding of the whole input,
  read at batch entry b and global row 40·wt + w, whatever the unnamed rows hold.
-/
import proofs.«151503_j8108898254914_1_alg».proof.Proof.Payload
import proofs.«151503_j8108898254914_1_alg».proof.Proof.Gen.KernelIdeal.Points
import Idealize.ShloMosaic.Lib.Pipeline.Value

noncomputable section

namespace Cert.KernelIdeal.Blocks

open Cert.KernelIdeal Cert.KernelIdeal.Gen Cert.KernelIdeal.Payload Cert.BoxDecode Idealize.ShloMosaic Idealize.ShloMosaic.ValueIdx

variable {F : FTy → Type} [FloatOps F]

/-- What the input's staging buffer holds after the fetch at point `t`: the input's block there on the rows inside
    the array, `d` elsewhere. -/
def fetched (t : Fin grid0.N) (X : S32x255x76x76.Idx → Elt F .f32) (d : S1x255x40x76.Idx → Elt F .f32) : Vec F S1x255x40x76 .f32 :=
  win0_0.fill (grid0.coords t) d ((win0_0.blk t).view.read (Elt F) X)

/-! ## The index maps and the cuts, decided over the grid's coordinates -/

/-- The input's block index at (b, wt) is (b, 0, wt, 0). -/
theorem tf0 : ∀ i : grid0.Coords, cc0_transform_0 i 0 = (i 0).val ∧ cc0_transform_0 i 1 = 0 ∧ cc0_transform_0 i 2 = (i 1).val ∧
    cc0_transform_0 i 3 = 0 := by decide +kernel
/-- The boxes' block index at (b, wt) is (b, wt, 0, 0, 0). -/
theorem tf2 : ∀ i : grid0.Coords, cc0_transform_2 i 0 = (i 0).val ∧ cc0_transform_2 i 1 = (i 1).val ∧ cc0_transform_2 i 2 = 0 ∧
    cc0_transform_2 i 3 = 0 ∧ cc0_transform_2 i 4 = 0 := by decide +kernel
/-- The confidences' likewise. -/
theorem tf3 : ∀ i : grid0.Coords, cc0_transform_3 i 0 = (i 0).val ∧ cc0_transform_3 i 1 = (i 1).val ∧ cc0_transform_3 i 2 = 0 ∧
    cc0_transform_3 i 3 = 0 ∧ cc0_transform_3 i 4 = 0 := by decide +kernel
/-- The scores' block index at (b, wt) is (b, wt, 0, 0). -/
theorem tf4 : ∀ i : grid0.Coords, cc0_transform_4 i 0 = (i 0).val ∧ cc0_transform_4 i 1 = (i 1).val ∧ cc0_transform_4 i 2 = 0 ∧
    cc0_transform_4 i 3 = 0 := by decide +kernel

/-- The input's block is cut on the row axis only, and its rows inside the array end at row 76. -/
theorem xs0 : ∀ i : grid0.Coords, win0_0.xsize i 0 = 1 ∧ win0_0.xsize i 1 = 255 ∧ win0_0.xsize i 3 = 76 ∧
    (i 1).val * 40 + win0_0.xsize i 2 ≤ 76 := by decide +kernel
/-- The boxes' block is cut on the row axis only, and as the input's is. -/
theorem xs2 : ∀ i : grid0.Coords, win0_2.xsize i 0 = 1 ∧ win0_2.xsize i 1 = win0_0.xsize i 2 ∧ win0_2.xsize i 2 = 76 ∧
    win0_2.xsize i 3 = 3 ∧ win0_2.xsize i 4 = 4 := by decide +kernel
/-- The confidences' likewise. -/
theorem xs3 : ∀ i : grid0.Coords, win0_3.xsize i 0 = 1 ∧ win0_3.xsize i 1 = win0_0.xsize i 2 ∧ win0_3.xsize i 2 = 76 ∧
    win0_3.xsize i 3 = 3 ∧ win0_3.xsize i 4 = 80 := by decide +kernel
/-- The scores' likewise. -/
theorem xs4 : ∀ i : grid0.Coords, win0_4.xsize i 0 = 1 ∧ win0_4.xsize i 1 = win0_0.xsize i 2 ∧ win0_4.xsize i 2 = 76 ∧
    win0_4.xsize i 3 = 3 := by decide +kernel

/-! ## Where a point's blocks sit in the arrays -/

/-- The batch entry of grid point `t`. -/
def bAt (t : Fin grid0.N) : Fin 32 := ⟨(grid0.coords t 0).val, (grid0.coords t 0).isLt⟩

/-- The row of W under row `w` of the tile of grid point `t`, for a row inside the array. -/
def rowAt (t : Fin grid0.N) (w : Nat) (hw : w < win0_0.xsize (grid0.coords t) 2) : Fin 76 :=
  ⟨(grid0.coords t 1).val * 40 + w, by have := (xs0 (grid0.coords t)).2.2.2; omega⟩

/-- The fetched block at a cell inside the array is the input at the point's batch entry and the cell's global row. -/
theorem fetched_at (t : Fin grid0.N) (X : S32x255x76x76.Idx → Elt F .f32) (d : S1x255x40x76.Idx → Elt F .f32) (ch : Fin 255)
    (w : Fin 40) (h : Fin 76) (hw : w.val < win0_0.xsize (grid0.coords t) 2) :
    fetched t X d (ix4 0 ch w h) = X (ix4 (bAt t) ch (rowAt t w.val hw) h) := by
  have x0 := xs0 (grid0.coords t)
  have f0 := tf0 (grid0.coords t)
  have hm : win0_0.moved (grid0.coords t) (ix4 (0 : Fin 1) ch w h) = true := (win0_0.moved_iff _ _).2 fun a => match a with
    | ⟨0, _⟩ => by have := x0.1; show (0 : Nat) < win0_0.xsize (grid0.coords t) 0; omega
    | ⟨1, _⟩ => by have := x0.2.1; have := ch.isLt; show ch.val < win0_0.xsize (grid0.coords t) 1; omega
    | ⟨2, _⟩ => hw
    | ⟨3, _⟩ => by have := x0.2.2.1; have := h.isLt; show h.val < win0_0.xsize (grid0.coords t) 3; omega
  unfold fetched Pipeline.Window.fill
  rw [dif_pos hm]
  show X ((win0_0.rect t).emb _) = X _
  congr 1
  funext a
  apply Fin.ext
  rw [win0_0.rect_emb_val]
  match a with
  | ⟨0, _⟩ => show cc0_transform_0 (grid0.coords t) 0 * 1 + 0 = (grid0.coords t 0).val; rw [f0.1]; omega
  | ⟨1, _⟩ => show cc0_transform_0 (grid0.coords t) 1 * 255 + ch.val = ch.val; rw [f0.2.1]; omega
  | ⟨2, _⟩ => show cc0_transform_0 (grid0.coords t) 2 * 40 + w.val = (grid0.coords t 1).val * 40 + w.val; rw [f0.2.2.1]
  | ⟨3, _⟩ => show cc0_transform_0 (grid0.coords t) 3 * 76 + h.val = h.val; rw [f0.2.2.2]; omega

/-- So the 255 channels of a cell of the fetched block, on a row inside the array, are the input's at that cell. -/
theorem col_eq (t : Fin grid0.N) (X : S32x255x76x76.Idx → Elt F .f32) (d : S1x255x40x76.Idx → Elt F .f32)
    (w : Fin 40) (h : Fin 76) (hw : w.val < win0_0.xsize (grid0.coords t) 2) :
    (fun ch : Fin 255 => fetched t X d (ix4 0 ch w h)) = colAt X (bAt t) (rowAt t w.val hw) h :=
  funext fun ch => fetched_at t X d ch w h hw

/-! ## The confidences -/

/-- An index of the confidences' block at point `t`, cut to the rows inside the array, by its coordinates: in the
    stored block it is (0, w, h, a, cl), and in the array it sits at (b, 40·wt + w, h, a, cl). -/
theorem split3 (t : Fin grid0.N) (j : (a : Fin 5) → Fin (win0_3.xsize (grid0.coords t) a)) :
    ∃ (w : Fin 40) (hw : w.val < win0_0.xsize (grid0.coords t) 2) (h : Fin 76) (a : Fin 3) (cl : Fin 80),
      win0_3.xinj (grid0.coords t) j = ix5 (0 : Fin 1) w h a cl ∧
      (win0_3.rect t).emb j = ix5 (bAt t) (rowAt t w.val hw) h a cl := by
  have x3 := xs3 (grid0.coords t)
  have f3 := tf3 (grid0.coords t)
  have h0 : (j 0).val < 1 := lt_of_lt_of_eq (j 0).isLt x3.1
  have h1 : (j 1).val < win0_0.xsize (grid0.coords t) 2 := lt_of_lt_of_eq (j 1).isLt x3.2.1
  have h2 : (j 2).val < 76 := lt_of_lt_of_eq (j 2).isLt x3.2.2.1
  have h3 : (j 3).val < 3 := lt_of_lt_of_eq (j 3).isLt x3.2.2.2.1
  have h4 : (j 4).val < 80 := lt_of_lt_of_eq (j 4).isLt x3.2.2.2.2
  have hle : win0_0.xsize (grid0.coords t) 2 ≤ 40 := win0_0.xsize_le _ 2
  refine ⟨⟨(j 1).val, by omega⟩, h1, ⟨(j 2).val, h2⟩, ⟨(j 3).val, h3⟩, ⟨(j 4).val, h4⟩, ?_, ?_⟩
  · funext a
    apply Fin.ext
    match a with
    | ⟨0, _⟩ => show (j 0).val = 0; omega
    | ⟨1, _⟩ => rfl
    | ⟨2, _⟩ => rfl
    | ⟨3, _⟩ => rfl
    | ⟨4, _⟩ => rfl
  · funext a
    apply Fin.ext
    rw [win0_3.rect_emb_val]
    match a with
    | ⟨0, _⟩ => show cc0_transform_3 (grid0.coords t) 0 * 1 + (j 0).val = (grid0.coords t 0).val; rw [f3.1]; omega
    | ⟨1, _⟩ => show cc0_transform_3 (grid0.coords t) 1 * 40 + (j 1).val = (grid0.coords t 1).val * 40 + (j 1).val; rw [f3.2.1]
    | ⟨2, _⟩ => show cc0_transform_3 (grid0.coords t) 2 * 76 + (j 2).val = (j 2).val; rw [f3.2.2.1]; omega
    | ⟨3, _⟩ => show cc0_transform_3 (grid0.coords t) 3 * 3 + (j 3).val = (j 3).val; rw [f3.2.2.2.1]; omega
    | ⟨4, _⟩ => show cc0_transform_3 (grid0.coords t) 4 * 80 + (j 4).val = (j 4).val; rw [f3.2.2.2.2]; omega

/-- The stored confidences, cut to the rows inside the array, are the specification's block at the point. -/
theorem conf_block (t : Fin grid0.N) (X : S32x255x76x76.Idx → Elt F .f32) (d : S1x255x40x76.Idx → Elt F .f32) :
    win0_3.cut (grid0.coords t) (k0_pay2 (k0_pay6 (fetched t X d))) = (win0_3.blk t).view.read (Elt F) (conf5 X) := by
  funext j
  obtain ⟨w, hw, h, a, cl, e1, e2⟩ := split3 t j
  show k0_pay2 (k0_pay6 (fetched t X d)) (win0_3.xinj (grid0.coords t) j) = conf5 X ((win0_3.rect t).emb j)
  rw [e1, e2, conf_at, col_eq t X d w h hw]
  rfl

/-! ## The scores -/

/-- An index of the scores' block at point `t`, cut to the rows inside the array, by its coordinates. -/
theorem split4 (t : Fin grid0.N) (j : (a : Fin 4) → Fin (win0_4.xsize (grid0.coords t) a)) :
    ∃ (w : Fin 40) (hw : w.val < win0_0.xsize (grid0.coords t) 2) (h : Fin 76) (a : Fin 3),
      win0_4.xinj (grid0.coords t) j = ix4 (0 : Fin 1) w h a ∧
      (win0_4.rect t).emb j = ix4 (bAt t) (rowAt t w.val hw) h a := by
  have x4 := xs4 (grid0.coords t)
  have f4 := tf4 (grid0.coords t)
  have h0 : (j 0).val < 1 := lt_of_lt_of_eq (j 0).isLt x4.1
  have h1 : (j 1).val < win0_0.xsize (grid0.coords t) 2 := lt_of_lt_of_eq (j 1).isLt x4.2.1
  have h2 : (j 2).val < 76 := lt_of_lt_of_eq (j 2).isLt x4.2.2.1
  have h3 : (j 3).val < 3 := lt_of_lt_of_eq (j 3).isLt x4.2.2.2
  have hle : win0_0.xsize (grid0.coords t) 2 ≤ 40 := win0_0.xsize_le _ 2
  refine ⟨⟨(j 1).val, by omega⟩, h1, ⟨(j 2).val, h2⟩, ⟨(j 3).val, h3⟩, ?_, ?_⟩
  · funext a
    apply Fin.ext
    match a with
    | ⟨0, _⟩ => show (j 0).val = 0; omega
    | ⟨1, _⟩ => rfl
    | ⟨2, _⟩ => rfl
    | ⟨3, _⟩ => rfl
  · funext a
    apply Fin.ext
    rw [win0_4.rect_emb_val]
    match a with
    | ⟨0, _⟩ => show cc0_transform_4 (grid0.coords t) 0 * 1 + (j 0).val = (grid0.coords t 0).val; rw [f4.1]; omega
    | ⟨1, _⟩ => show cc0_transform_4 (grid0.coords t) 1 * 40 + (j 1).val = (grid0.coords t 1).val * 40 + (j 1).val; rw [f4.2.1]
    | ⟨2, _⟩ => show cc0_transform_4 (grid0.coords t) 2 * 76 + (j 2).val = (j 2).val; rw [f4.2.2.1]; omega
    | ⟨3, _⟩ => show cc0_transform_4 (grid0.coords t) 3 * 3 + (j 3).val = (j 3).val; rw [f4.2.2.2]; omega

/-- The stored scores on the rows inside the array do not depend on what the unnamed rows of the staging buffer hold. -/
theorem score_local (t : Fin grid0.N) (X : S32x255x76x76.Idx → Elt F .f32) (d d' : S1x255x40x76.Idx → Elt F .f32) :
    win0_4.cut (grid0.coords t) (k0_pay3 (k0_pay7 (fetched t X d))) = win0_4.cut (grid0.coords t) (k0_pay3 (k0_pay7 (fetched t X d'))) := by
  funext j
  obtain ⟨w, hw, h, a, e1, -⟩ := split4 t j
  show k0_pay3 (k0_pay7 (fetched t X d)) (win0_4.xinj (grid0.coords t) j)
    = k0_pay3 (k0_pay7 (fetched t X d')) (win0_4.xinj (grid0.coords t) j)
  rw [e1]
  exact score_congr _ _ w h a fun ch => by rw [fetched_at t X d ch w h hw, fetched_at t X d' ch w h hw]

/-- Over the extended reals the stored scores, cut to the rows inside the array, are the specification's block at the point. -/
theorem score_block (t : Fin grid0.N) (X : S32x255x76x76.Idx → Elt Ideal .f32) (d : S1x255x40x76.Idx → Elt Ideal .f32) :
    win0_4.cut (grid0.coords t) (k0_pay3 (F := Ideal) (k0_pay7 (fetched t X d))) = (win0_4.blk t).view.read (Elt Ideal) (scores4 X) := by
  funext j
  obtain ⟨w, hw, h, a, e1, e2⟩ := split4 t j
  show k0_pay3 (F := Ideal) (k0_pay7 (fetched t X d)) (win0_4.xinj (grid0.coords t) j) = scores4 X ((win0_4.rect t).emb j)
  rw [e1, e2, score_at, col_eq t X d w h hw]
  rfl

/-! ## The boxes -/

/-- The tile's first row plus the row within the tile, as 32-bit words, is the global row's word. -/
theorem word_row (n w : Nat) :
    IntOp.addi (BitVec.ofNat 32 w) (Scalar.muli (BitVec.ofNat 32 n) 40#32) = BitVec.ofNat 32 (n * 40 + w) := by
  show BitVec.ofNat 32 w + BitVec.ofNat 32 n * BitVec.ofNat 32 40 = _
  rw [Nat.add_comm, BitVec.ofNat_add, BitVec.ofNat_mul]

/-- The grid coordinates the kernel computes at point `t` are the cell's own coordinates in the whole array. -/
theorem grid_eq (t : Fin grid0.N) (w : Fin 40) (h : Fin 76) (hw : w.val < win0_0.xsize (grid0.coords t) 2) :
    gridK (F := F) (grid0.coords t) w h = gridAt (rowAt t w.val hw) h := by
  funext k
  unfold gridK gridAt
  by_cases hk : k.val = 0
  · rw [if_pos hk, if_pos hk]
    exact congrArg (FloatOps.sitofp .f32) (word_row (grid0.coords t 1).val w.val)
  · rw [if_neg hk, if_neg hk]

/-- An index of the boxes' block at point `t`, cut to the rows inside the array, by its coordinates. -/
theorem split2 (t : Fin grid0.N) (j : (a : Fin 5) → Fin (win0_2.xsize (grid0.coords t) a)) :
    ∃ (w : Fin 40) (hw : w.val < win0_0.xsize (grid0.coords t) 2) (h : Fin 76) (a : Fin 3) (k : Fin 4),
      win0_2.xinj (grid0.coords t) j = ix5 (0 : Fin 1) w h a k ∧
      (win0_2.rect t).emb j = ix5 (bAt t) (rowAt t w.val hw) h a k := by
  have x2 := xs2 (grid0.coords t)
  have f2 := tf2 (grid0.coords t)
  have h0 : (j 0).val < 1 := lt_of_lt_of_eq (j 0).isLt x2.1
  have h1 : (j 1).val < win0_0.xsize (grid0.coords t) 2 := lt_of_lt_of_eq (j 1).isLt x2.2.1
  have h2 : (j 2).val < 76 := lt_of_lt_of_eq (j 2).isLt x2.2.2.1
  have h3 : (j 3).val < 3 := lt_of_lt_of_eq (j 3).isLt x2.2.2.2.1
  have h4 : (j 4).val < 4 := lt_of_lt_of_eq (j 4).isLt x2.2.2.2.2
  have hle : win0_0.xsize (grid0.coords t) 2 ≤ 40 := win0_0.xsize_le _ 2
  refine ⟨⟨(j 1).val, by omega⟩, h1, ⟨(j 2).val, h2⟩, ⟨(j 3).val, h3⟩, ⟨(j 4).val, h4⟩, ?_, ?_⟩
  · funext a
    apply Fin.ext
    match a with
    | ⟨0, _⟩ => show (j 0).val = 0; omega
    | ⟨1, _⟩ => rfl
    | ⟨2, _⟩ => rfl
    | ⟨3, _⟩ => rfl
    | ⟨4, _⟩ => rfl
  · funext a
    apply Fin.ext
    rw [win0_2.rect_emb_val]
    match a with
    | ⟨0, _⟩ => show cc0_transform_2 (grid0.coords t) 0 * 1 + (j 0).val = (grid0.coords t 0).val; rw [f2.1]; omega
    | ⟨1, _⟩ => show cc0_transform_2 (grid0.coords t) 1 * 40 + (j 1).val = (grid0.coords t 1).val * 40 + (j 1).val; rw [f2.2.1]
    | ⟨2, _⟩ => show cc0_transform_2 (grid0.coords t) 2 * 76 + (j 2).val = (j 2).val; rw [f2.2.2.1]; omega
    | ⟨3, _⟩ => show cc0_transform_2 (grid0.coords t) 3 * 3 + (j 3).val = (j 3).val; rw [f2.2.2.2.1]; omega
    | ⟨4, _⟩ => show cc0_transform_2 (grid0.coords t) 4 * 4 + (j 4).val = (j 4).val; rw [f2.2.2.2.2]; omega

/-- The stored boxes, cut to the rows inside the array, are the specification's block at the point, the anchors block
    holding the anchors array transposed. -/
theorem box_block (t : Fin grid0.N) (X : S32x255x76x76.Idx → Elt F .f32) (d : S1x255x40x76.Idx → Elt F .f32)
    (x1 : Vec F S1x1x3x2 .f32) (A : S2x1x1x3.Idx → Elt F .f32) (hA : ∀ (a : Fin 3) (k : Fin 2), x1 (ix4 0 0 a k) = A (ix4 k 0 0 a)) :
    win0_2.cut (grid0.coords t) (k0_pay1 (k0_pay9 (grid0.coords t) (fetched t X d) x1) (k0_pay10 (grid0.coords t) (fetched t X d) x1))
      = (win0_2.blk t).view.read (Elt F) (boxes5 X A) := by
  funext j
  obtain ⟨w, hw, h, a, k, e1, e2⟩ := split2 t j
  show k0_pay1 (k0_pay9 (grid0.coords t) (fetched t X d) x1) (k0_pay10 (grid0.coords t) (fetched t X d) x1)
    (win0_2.xinj (grid0.coords t) j) = boxes5 X A ((win0_2.rect t).emb j)
  have ea : (fun k' : Fin 2 => x1 (ix4 0 0 a k')) = ancAt A a := funext fun k' => hA a k'
  rw [e1, e2, box_at, col_eq t X d w h hw, grid_eq t w h hw, ea]
  rfl

end Cert.KernelIdeal.Blocks

end
-- ==== Proof.Region.lean ====
/-
  The pallas_call as a pipeline over its 32 × 2 grid, and the program's frame.

  At the grid point (b, wt) the pipeline fetches the input tile — rows 40 wt … 40 wt + 39 of image b's W axis, or only
  the 36 rows 40 … 75 that exist when wt = 1: the fetch is cut at the array's end and the rest of the staging buffer
  holds values nobody names —, runs the body, and writes the three output tiles back, cut the same way. The proof
  data name, for each point, what each staging buffer holds after the body: the input tile padded with a fixed
  filler, and the three stored tiles computed from THAT. The body really runs on the tile padded with anything; on
  the rows that exist the two agree (locality), and those rows are all that a cut write-back moves.
-/
import proofs.«151503_j8108898254914_1_alg».proof.Proof.Body
import proofs.«151503_j8108898254914_1_alg».proof.Proof.Blocks
import proofs.«151503_j8108898254914_1_alg».proof.Proof.Gen.KernelIdeal.Frame
import proofs.«151503_j8108898254914_1_alg».proof.Proof.Gen.KernelIdeal.Skeleton
import proofs.«151503_j8108898254914_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Region

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The feature map as the region finds it. -/
abbrev featMap (c : Dev nD) : S32x255x76x76.Idx → Elt F .f32 := V m c (Pipeline.arrRef spec0 0)

/-- The filler of a staging buffer's rows past the array's end, of which nothing is claimed. -/
def pad : S1x255x40x76.Idx → Elt F .f32 := fun _ => Scalar.ofBits .f32 0#32

/-- The input tile at point `t` as the proof data names it: the array's rows that exist, padded. -/
def inTile (c : Dev nD) (t : Fin cfg0.N) : Vec F S1x255x40x76 .f32 := Blocks.fetched t (featMap m c) pad

/-- The anchors' table as staged. -/
def ancTile (c : Dev nD) (t : Fin cfg0.N) : Vec F S1x1x3x2 .f32 := iblk m c 1 t

def dats (_ : Fin 1) (c : Dev nD) : Dat τ (Elt F) Unit ℕ (UR sig nD τ) ℕ cfg0 c where
  A w := V m c (Pipeline.arrRef spec0 w)
  after w t := match w with
    | ⟨0, _⟩ => inTile m c t
    | ⟨1, _⟩ => iblk m c 1 t
    | ⟨2, _⟩ => boxBlk (grid0.coords t) (inTile m c t) (ancTile m c t)
    | ⟨3, _⟩ => confBlk (inTile m c t)
    | ⟨4, _⟩ => scoreBlk (inTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = inTile m c t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = boxBlk (grid0.coords t) (inTile m c t) (ancTile m c t) := by dsimp only [dats]
theorem after0_3 (c : Dev nD) (t : Fin cfg0.N) : (dats m 0 c).after 3 t = confBlk (inTile m c t) := by dsimp only [dats]
theorem after0_4 (c : Dev nD) (t : Fin cfg0.N) : (dats m 0 c).after 4 t = scoreBlk (inTile m c t) := by dsimp only [dats]

/-- The input tile as the body finds it: just fetched, the rows that exist from the array, the rest anything. -/
theorem before0_0 (c : Dev nD) (t : Fin cfg0.N) (d) :
    (dats m 0 c).before 0 t d = Blocks.fetched t (featMap m c) d := by
  rw [(dats m 0 c).before_fetched 0 t (fetch0_0 t)]
  unfold Dat.fetched Dat.blockOf Blocks.fetched
  rw [A_eq]
theorem before0_1 (c : Dev nD) (t : Fin cfg0.N) (d) : (dats m 0 c).before 1 t d = iblk m c 1 t :=
  before0_1_of m (dats m 0 c) (A_eq m c 1) (after0_1 m c) t d
/-- An output's buffer is fresh at every point: each point writes its tile back. -/
theorem before0_2 (c : Dev nD) (t : Fin cfg0.N) (d) : (dats m 0 c).before 2 t d = d :=
  (dats m 0 c).before_out_reset 2 rfl t (by by_cases h0 : t.val = 0; · exact .inl h0
                                            · exact .inr ⟨h0, flush0_2 _⟩) d
theorem before0_3 (c : Dev nD) (t : Fin cfg0.N) (d) : (dats m 0 c).before 3 t d = d :=
  (dats m 0 c).before_out_reset 3 rfl t (by by_cases h0 : t.val = 0; · exact .inl h0
                                            · exact .inr ⟨h0, flush0_3 _⟩) d
theorem before0_4 (c : Dev nD) (t : Fin cfg0.N) (d) : (dats m 0 c).before 4 t d = d :=
  (dats m 0 c).before_out_reset 4 rfl t (by by_cases h0 : t.val = 0; · exact .inl h0
                                            · exact .inr ⟨h0, flush0_4 _⟩) d

/-! ## Locality: the rows past the array's end reach no row inside it

Every stored cell depends on the input tile through that cell's own 255 channels, so on the rows that exist the
stored tiles do not depend on what the unnamed rows of the input buffer hold. -/

theorem box_local (t : Fin cfg0.N) (X : S32x255x76x76.Idx → Elt F .f32) (d d' : S1x255x40x76.Idx → Elt F .f32) (x1 : Vec F S1x1x3x2 .f32) :
    win0_2.cut (grid0.coords t) (boxBlk (grid0.coords t) (Blocks.fetched t X d) x1)
      = win0_2.cut (grid0.coords t) (boxBlk (grid0.coords t) (Blocks.fetched t X d') x1) :=
  (Blocks.box_block t X d x1 (fun j => x1 (ValueIdx.ix4 0 0 (j 3) (j 0))) (fun _ _ => rfl)).trans
    (Blocks.box_block t X d' x1 (fun j => x1 (ValueIdx.ix4 0 0 (j 3) (j 0))) (fun _ _ => rfl)).symm
theorem conf_local (t : Fin cfg0.N) (X : S32x255x76x76.Idx → Elt F .f32) (d d' : S1x255x40x76.Idx → Elt F .f32) :
    win0_3.cut (grid0.coords t) (confBlk (Blocks.fetched t X d)) = win0_3.cut (grid0.coords t) (confBlk (Blocks.fetched t X d')) :=
  (Blocks.conf_block t X d).trans (Blocks.conf_block t X d').symm
theorem score_local (t : Fin cfg0.N) (X : S32x255x76x76.Idx → Elt F .f32) (d d' : S1x255x40x76.Idx → Elt F .f32) :
    win0_4.cut (grid0.coords t) (scoreBlk (Blocks.fetched t X d)) = win0_4.cut (grid0.coords t) (scoreBlk (Blocks.fetched t X d')) :=
  Blocks.score_local t X d d'

/-! ## The body obligation -/

/-- At every point the body is handed the input tile just fetched (padded with anything), the anchors' table, and
    three output buffers holding anything; it hands back the inputs as they were and the outputs at the stored tiles —
    which on the rows that exist are the proof data's, by locality: all a window cut at the array's end is asked. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := F) c Set.univ (grid0.coords t) _ _ _ _ _ _ _ _ _ _ (Blocks.fetched t (featMap m c) d0) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]
  · iexists d0
    rw [after0_0]
    have e : (win0 0).fill (grid0.coords t) d0 ((win0 0).cut (grid0.coords t) (inTile m c t)) = Blocks.fetched t (featMap m c) d0 := by
      unfold inTile Blocks.fetched
      exact congrArg _ (win0_0.cut_fill _ _ _)
    rw [e]; iexact H0
  isplitl [H1]
  · rw [after0_1]; iexact H1
  isplitl [H2]
  · iexists (boxBlk (grid0.coords t) (Blocks.fetched t (featMap m c) d0) (iblk m c 1 t))
    rw [after0_2]
    have e : (win0 2).fill (grid0.coords t) (boxBlk (grid0.coords t) (Blocks.fetched t (featMap m c) d0) (iblk m c 1 t))
          ((win0 2).cut (grid0.coords t) (boxBlk (grid0.coords t) (inTile m c t) (ancTile m c t)))
        = boxBlk (grid0.coords t) (Blocks.fetched t (featMap m c) d0) (iblk m c 1 t) :=
      win0_2.fill_congr_cut _ (box_local t (featMap m c) d0 pad (iblk m c 1 t))
    rw [e]; iexact H2
  isplitl [H3]
  · iexists (confBlk (Blocks.fetched t (featMap m c) d0))
    rw [after0_3]
    have e : (win0 3).fill (grid0.coords t) (confBlk (Blocks.fetched t (featMap m c) d0))
          ((win0 3).cut (grid0.coords t) (confBlk (inTile m c t))) = confBlk (Blocks.fetched t (featMap m c) d0) :=
      win0_3.fill_congr_cut _ (conf_local t (featMap m c) d0 pad)
    rw [e]; iexact H3
  · iexists (scoreBlk (Blocks.fetched t (featMap m c) d0))
    rw [after0_4]
    have e : (win0 4).fill (grid0.coords t) (scoreBlk (Blocks.fetched t (featMap m c) d0))
          ((win0 4).cut (grid0.coords t) (scoreBlk (inTile m c t))) = scoreBlk (Blocks.fetched t (featMap m c) d0) :=
      win0_4.fill_congr_cut _ (score_local t (featMap m c) d0 pad)
    rw [e]; iexact H4

/-! ## The run and the frame -/

set_option backward.isDefEq.respectTransparency.types false in
/-- Every weakly fair execution of @main ends, faults nowhere, and leaves each array of the pipeline at what the
    write-backs of the proof data's tiles make of it, and every other buffer at what the host operations after the
    region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame: the run ends with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Region

end
-- ==== Proof.Arrays.lean ====
import proofs.«151503_j8108898254914_1_alg».proof.Proof.Gen.KernelIdeal.Frame
import Idealize.ShloMosaic.Lib.Pipeline.Value
import Idealize.ShloMosaic.Lib.Pipeline.FrameSuffix
import Idealize.ShloMosaic.Lib.StableHlo.Run
import Idealize.ShloMosaic.Lib.ValueIdx

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The anchors table the region stages: the launched 2×1×1×3 array reshaped to 2×3, transposed to 3×2 and reshaped
    to 1×1×3×2, so that its element (0, 0, a, k) is the launched element (k, 0, 0, a). -/
theorem anchors_staged (c : Dev nD) (a : Fin 3) (k : Fin 2) :
    V m c main_v2 (ix4 0 0 a k) = m ((c : Thread nD τ).loc main_arg1) (ix4 k 0 0 a) := by
  have e : V m c main_v2 = shapeCast S1x1x3x2 (transpose S3x2 [1, 0] (shapeCast S2x3 (m ((c : Thread nD τ).loc main_arg1))
      shapeCasts_S2x1x1x3_S2x3) transposes_S2x3_S3x2_1_0) shapeCasts_S3x2_S1x1x3x2 := by
    show StableHlo.after hostOps0 (fun b => m (c, b)) (Proc.devRef .tc main_v2) = _
    after_results
    rfl
  rw [e]
  have ha := a.isLt; have hk := k.isLt
  refine (shapeCast_apply _ shapeCasts_S3x2_S1x1x3x2 (ix4 0 0 a k) (ix2 a k)
    (by rw [Shape.rowMajor_val_two, Shape.rowMajor_val_four]
        show a.val * 2 + k.val = ((0 * 1 + 0) * 3 + a.val) * 2 + k.val
        omega)).trans ?_
  refine (transpose_apply [1, 0] _ transposes_S2x3_S3x2_1_0 (ix2 a k) (ix2 k a) (fun b => match b with
    | ⟨0, _⟩ => rfl
    | ⟨1, _⟩ => rfl)).trans ?_
  exact shapeCast_apply _ shapeCasts_S2x1x1x3_S2x3 (ix2 k a) (ix4 k 0 0 a)
    (by rw [Shape.rowMajor_val_four, Shape.rowMajor_val_two]
        show ((k.val * 1 + 0) * 1 + 0) * 3 + a.val = k.val * 3 + a.val
        omega)

/-- Window 1's block index is zero on every axis at each of the 64 grid points: it stages its whole array. -/
theorem idx1 : ∀ t : Fin grid0.N,
    win0_1.index t 0 = 0 ∧ win0_1.index t 1 = 0 ∧ win0_1.index t 2 = 0 ∧ win0_1.index t 3 = 0 := by
  decide +kernel

/-- So at every point the staged anchors block is the whole table: its element (0, 0, a, k) is the launched (k, 0, 0, a). -/
theorem anchors_tile (c : Dev nD) (t : Fin cfg0.N) (a : Fin 3) (k : Fin 2) :
    iblk m c 1 t (ix4 0 0 a k) = m ((c : Thread nD τ).loc main_arg1) (ix4 k 0 0 a) := by
  obtain ⟨i0, i1, i2, i3⟩ := idx1 t
  have he : ((cfg0.win 1).blk t).view.emb (ix4 0 0 a k) = (ix4 0 0 a k : S1x1x3x2.Idx) := by
    funext ax
    apply Fin.ext
    match ax with
    | ⟨0, _⟩ => exact win0_1.rect_emb_val_of_index_zero t 0 i0 (ix4 0 0 a k)
    | ⟨1, _⟩ => exact win0_1.rect_emb_val_of_index_zero t 1 i1 (ix4 0 0 a k)
    | ⟨2, _⟩ => exact win0_1.rect_emb_val_of_index_zero t 2 i2 (ix4 0 0 a k)
    | ⟨3, _⟩ => exact win0_1.rect_emb_val_of_index_zero t 3 i3 (ix4 0 0 a k)
  show V m c main_v2 (((cfg0.win 1).blk t).view.emb (ix4 0 0 a k)) = _
  rw [he]
  exact anchors_staged m c a k

/-! ## The output windows' blocks cover their arrays

Grid point t = 2 b + wt writes, of each output array, batch row b and the cell rows 40 wt ‥ 40 wt + 39, cut at row 76:
40 rows at wt = 0 and 36 at wt = 1, every column, anchor and coordinate. So the cell row W of batch b lies in the block
of the point 2 b + W / 40. -/

/-- Window 2's block offsets and cut sizes at each of the 64 grid points, in closed form. -/
theorem idx2 : ∀ t : Fin grid0.N,
    win0_2.index t 0 * win0_2.size 0 = t.val / 2 ∧ win0_2.index t 1 * win0_2.size 1 = t.val % 2 * 40
    ∧ win0_2.index t 2 * win0_2.size 2 = 0 ∧ win0_2.index t 3 * win0_2.size 3 = 0 ∧ win0_2.index t 4 * win0_2.size 4 = 0
    ∧ win0_2.xsize (grid0.coords t) 0 = 1 ∧ win0_2.xsize (grid0.coords t) 1 = 40 - 4 * (t.val % 2)
    ∧ win0_2.xsize (grid0.coords t) 2 = 76 ∧ win0_2.xsize (grid0.coords t) 3 = 3 ∧ win0_2.xsize (grid0.coords t) 4 = 4 := by
  decide +kernel

theorem cover_boxes : ∀ i : S32x76x76x3x4.Idx,
    ∃ t : Fin cfg0.N, (cfg0.win 2).flush t = true ∧ i ∈ ((cfg0.win 2).blk t).view.set := by
  intro i
  have h0 : (i 0).val < 32 := (i 0).isLt
  have h1 : (i 1).val < 76 := (i 1).isLt
  have h2 : (i 2).val < 76 := (i 2).isLt
  have h3 : (i 3).val < 3 := (i 3).isLt
  have h4 : (i 4).val < 4 := (i 4).isLt
  obtain ⟨t, ht⟩ : ∃ t : Fin cfg0.N, t.val = 2 * (i 0).val + (i 1).val / 40 :=
    ⟨⟨2 * (i 0).val + (i 1).val / 40, by have := N_0; show _ < grid0.N; omega⟩, rfl⟩
  refine ⟨t, flush0_2 t, ?_⟩
  show i ∈ ((View.whole main_v3_0).slice (win0_2.rect t)).set
  rw [View.set_slice_whole, Rect.mem_set_unit]
  obtain ⟨e0, e1, e2, e3, e4, x0, x1, x2, x3, x4⟩ := idx2 t
  intro a
  match a with
  | ⟨0, _⟩ =>
    change win0_2.index t 0 * win0_2.size 0 ≤ (i 0 : Nat) ∧ (i 0 : Nat) < win0_2.index t 0 * win0_2.size 0 + win0_2.xsize (grid0.coords t) 0
    rw [e0, x0]; omega
  | ⟨1, _⟩ =>
    change win0_2.index t 1 * win0_2.size 1 ≤ (i 1 : Nat) ∧ (i 1 : Nat) < win0_2.index t 1 * win0_2.size 1 + win0_2.xsize (grid0.coords t) 1
    rw [e1, x1]; omega
  | ⟨2, _⟩ =>
    change win0_2.index t 2 * win0_2.size 2 ≤ (i 2 : Nat) ∧ (i 2 : Nat) < win0_2.index t 2 * win0_2.size 2 + win0_2.xsize (grid0.coords t) 2
    rw [e2, x2]; omega
  | ⟨3, _⟩ =>
    change win0_2.index t 3 * win0_2.size 3 ≤ (i 3 : Nat) ∧ (i 3 : Nat) < win0_2.index t 3 * win0_2.size 3 + win0_2.xsize (grid0.coords t) 3
    rw [e3, x3]; omega
  | ⟨4, _⟩ =>
    change win0_2.index t 4 * win0_2.size 4 ≤ (i 4 : Nat) ∧ (i 4 : Nat) < win0_2.index t 4 * win0_2.size 4 + win0_2.xsize (grid0.coords t) 4
    rw [e4, x4]; omega

/-- Window 3's block offsets and cut sizes at each of the 64 grid points, in closed form. -/
theorem idx3 : ∀ t : Fin grid0.N,
    win0_3.index t 0 * win0_3.size 0 = t.val / 2 ∧ win0_3.index t 1 * win0_3.size 1 = t.val % 2 * 40
    ∧ win0_3.index t 2 * win0_3.size 2 = 0 ∧ win0_3.index t 3 * win0_3.size 3 = 0 ∧ win0_3.index t 4 * win0_3.size 4 = 0
    ∧ win0_3.xsize (grid0.coords t) 0 = 1 ∧ win0_3.xsize (grid0.coords t) 1 = 40 - 4 * (t.val % 2)
    ∧ win0_3.xsize (grid0.coords t) 2 = 76 ∧ win0_3.xsize (grid0.coords t) 3 = 3 ∧ win0_3.xsize (grid0.coords t) 4 = 80 := by
  decide +kernel

theorem cover_conf : ∀ i : S32x76x76x3x80.Idx,
    ∃ t : Fin cfg0.N, (cfg0.win 3).flush t = true ∧ i ∈ ((cfg0.win 3).blk t).view.set := by
  intro i
  have h0 : (i 0).val < 32 := (i 0).isLt
  have h1 : (i 1).val < 76 := (i 1).isLt
  have h2 : (i 2).val < 76 := (i 2).isLt
  have h3 : (i 3).val < 3 := (i 3).isLt
  have h4 : (i 4).val < 80 := (i 4).isLt
  obtain ⟨t, ht⟩ : ∃ t : Fin cfg0.N, t.val = 2 * (i 0).val + (i 1).val / 40 :=
    ⟨⟨2 * (i 0).val + (i 1).val / 40, by have := N_0; show _ < grid0.N; omega⟩, rfl⟩
  refine ⟨t, flush0_3 t, ?_⟩
  show i ∈ ((View.whole main_v3_1).slice (win0_3.rect t)).set
  rw [View.set_slice_whole, Rect.mem_set_unit]
  obtain ⟨e0, e1, e2, e3, e4, x0, x1, x2, x3, x4⟩ := idx3 t
  intro a
  match a with
  | ⟨0, _⟩ =>
    change win0_3.index t 0 * win0_3.size 0 ≤ (i 0 : Nat) ∧ (i 0 : Nat) < win0_3.index t 0 * win0_3.size 0 + win0_3.xsize (grid0.coords t) 0
    rw [e0, x0]; omega
  | ⟨1, _⟩ =>
    change win0_3.index t 1 * win0_3.size 1 ≤ (i 1 : Nat) ∧ (i 1 : Nat) < win0_3.index t 1 * win0_3.size 1 + win0_3.xsize (grid0.coords t) 1
    rw [e1, x1]; omega
  | ⟨2, _⟩ =>
    change win0_3.index t 2 * win0_3.size 2 ≤ (i 2 : Nat) ∧ (i 2 : Nat) < win0_3.index t 2 * win0_3.size 2 + win0_3.xsize (grid0.coords t) 2
    rw [e2, x2]; omega
  | ⟨3, _⟩ =>
    change win0_3.index t 3 * win0_3.size 3 ≤ (i 3 : Nat) ∧ (i 3 : Nat) < win0_3.index t 3 * win0_3.size 3 + win0_3.xsize (grid0.coords t) 3
    rw [e3, x3]; omega
  | ⟨4, _⟩ =>
    change win0_3.index t 4 * win0_3.size 4 ≤ (i 4 : Nat) ∧ (i 4 : Nat) < win0_3.index t 4 * win0_3.size 4 + win0_3.xsize (grid0.coords t) 4
    rw [e4, x4]; omega

/-- Window 4's block offsets and cut sizes at each of the 64 grid points, in closed form. -/
theorem idx4 : ∀ t : Fin grid0.N,
    win0_4.index t 0 * win0_4.size 0 = t.val / 2 ∧ win0_4.index t 1 * win0_4.size 1 = t.val % 2 * 40
    ∧ win0_4.index t 2 * win0_4.size 2 = 0 ∧ win0_4.index t 3 * win0_4.size 3 = 0
    ∧ win0_4.xsize (grid0.coords t) 0 = 1 ∧ win0_4.xsize (grid0.coords t) 1 = 40 - 4 * (t.val % 2)
    ∧ win0_4.xsize (grid0.coords t) 2 = 76 ∧ win0_4.xsize (grid0.coords t) 3 = 3 := by
  decide +kernel

theorem cover_scores : ∀ i : S32x76x76x3.Idx,
    ∃ t : Fin cfg0.N, (cfg0.win 4).flush t = true ∧ i ∈ ((cfg0.win 4).blk t).view.set := by
  intro i
  have h0 : (i 0).val < 32 := (i 0).isLt
  have h1 : (i 1).val < 76 := (i 1).isLt
  have h2 : (i 2).val < 76 := (i 2).isLt
  have h3 : (i 3).val < 3 := (i 3).isLt
  obtain ⟨t, ht⟩ : ∃ t : Fin cfg0.N, t.val = 2 * (i 0).val + (i 1).val / 40 :=
    ⟨⟨2 * (i 0).val + (i 1).val / 40, by have := N_0; show _ < grid0.N; omega⟩, rfl⟩
  refine ⟨t, flush0_4 t, ?_⟩
  show i ∈ ((View.whole main_v3_2).slice (win0_4.rect t)).set
  rw [View.set_slice_whole, Rect.mem_set_unit]
  obtain ⟨e0, e1, e2, e3, x0, x1, x2, x3⟩ := idx4 t
  intro a
  match a with
  | ⟨0, _⟩ =>
    change win0_4.index t 0 * win0_4.size 0 ≤ (i 0 : Nat) ∧ (i 0 : Nat) < win0_4.index t 0 * win0_4.size 0 + win0_4.xsize (grid0.coords t) 0
    rw [e0, x0]; omega
  | ⟨1, _⟩ =>
    change win0_4.index t 1 * win0_4.size 1 ≤ (i 1 : Nat) ∧ (i 1 : Nat) < win0_4.index t 1 * win0_4.size 1 + win0_4.xsize (grid0.coords t) 1
    rw [e1, x1]; omega
  | ⟨2, _⟩ =>
    change win0_4.index t 2 * win0_4.size 2 ≤ (i 2 : Nat) ∧ (i 2 : Nat) < win0_4.index t 2 * win0_4.size 2 + win0_4.xsize (grid0.coords t) 2
    rw [e2, x2]; omega
  | ⟨3, _⟩ =>
    change win0_4.index t 3 * win0_4.size 3 ≤ (i 3 : Nat) ∧ (i 3 : Nat) < win0_4.index t 3 * win0_4.size 3 + win0_4.xsize (grid0.coords t) 3
    rw [e3, x3]; omega

/-! ## The three results after the region

The lines after the region reshape each output array, (w, h, a) flattened row-major; they read the arrays as the
region leaves them. -/

theorem tail_boxes (dats : (p : Fin 1) → (c : Dev nD) → Pipeline.Dat τ (Elt F) Unit ℕ (UR sig nD τ) ℕ (cfgs p) c) (c : Dev nD) :
    Pipeline.afterTail₀ cfgs dats 0 (V0 m) [hostOps1] c main_v4
      = shapeCast S32x17328x4 ((dats 0 c).arrAt 2 cfg0.N) shapeCasts_S32x76x76x3x4_S32x17328x4 := by
  unfold Pipeline.afterTail₀
  show StableHlo.after hostOps1 _ (Proc.devRef .tc main_v4) = _
  after_results
  rw [Pipeline.withArrays_arr spec0 launch0.win.arr_inj c _ _ 2]
  rfl

theorem tail_conf (dats : (p : Fin 1) → (c : Dev nD) → Pipeline.Dat τ (Elt F) Unit ℕ (UR sig nD τ) ℕ (cfgs p) c) (c : Dev nD) :
    Pipeline.afterTail₀ cfgs dats 0 (V0 m) [hostOps1] c main_v5
      = shapeCast S32x17328x80 ((dats 0 c).arrAt 3 cfg0.N) shapeCasts_S32x76x76x3x80_S32x17328x80 := by
  unfold Pipeline.afterTail₀
  show StableHlo.after hostOps1 _ (Proc.devRef .tc main_v5) = _
  after_results
  rw [Pipeline.withArrays_arr spec0 launch0.win.arr_inj c _ _ 3]
  rfl

theorem tail_scores (dats : (p : Fin 1) → (c : Dev nD) → Pipeline.Dat τ (Elt F) Unit ℕ (UR sig nD τ) ℕ (cfgs p) c) (c : Dev nD) :
    Pipeline.afterTail₀ cfgs dats 0 (V0 m) [hostOps1] c main_v6
      = shapeCast S32x17328 ((dats 0 c).arrAt 4 cfg0.N) shapeCasts_S32x76x76x3_S32x17328 := by
  unfold Pipeline.afterTail₀
  show StableHlo.after hostOps1 _ (Proc.devRef .tc main_v6) = _
  after_results
  rw [Pipeline.withArrays_arr spec0 launch0.win.arr_inj c _ _ 4]
  rfl

end Cert.KernelIdeal.Arrays

end
-- ==== Proof.Result.lean ====
/-
  What the idealized program returns.

  After the run each of the three arrays the pallas_call writes is the cell-by-cell specification of the launch
  contents: every tile written back is that specification's tile (each stored cell depends on the input only through
  its own cell's 255 channels, read where the tile sits in the array), and the tiles cover the array. The program then
  flattens (w, h, a) into one axis, a row-major reshape, which is how the specification's results are stated.
-/
import proofs.«151503_j8108898254914_1_alg».proof.Proof.Region
import proofs.«151503_j8108898254914_1_alg».proof.Proof.Arrays
import proofs.«151503_j8108898254914_1_alg».proof.Proof.Gen.KernelIdeal.Frame
import proofs.«151503_j8108898254914_1_alg».proof.Proof.Gen.KernelIdeal.Skeleton
import proofs.«151503_j8108898254914_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Result

open Cert.KernelIdeal Cert.KernelIdeal.Gen Cert.KernelIdeal.Body Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three arrays after the run

Each output window's tiles, cut at the array's end, are the tiles of ONE function of the feature map and the priors
(the cell-by-cell specification), and together they cover their array; so each array ends as that function. -/

/-- The priors as launched. -/
abbrev priors (c : Dev nD) : S2x1x1x3.Idx → Elt F .f32 := m ((c.tc : Thread nD τ).loc main_arg1)

theorem final_boxes (c : Dev nD) : (dats m 0 c).arrAt 2 cfg0.N = BoxDecode.boxes5 (featMap m c) (priors m c) :=
  (dats m 0 c).arrAt_eq_of_cover 2 _ (fun t _ => by
    show (cfg0.win 2).cut (grid0.coords t) ((dats m 0 c).after 2 t) = _
    rw [after0_2]
    exact Blocks.box_block t (featMap m c) pad (ancTile m c t) (priors m c) (Arrays.anchors_tile m c t)) Arrays.cover_boxes

theorem final_conf (c : Dev nD) : (dats m 0 c).arrAt 3 cfg0.N = BoxDecode.conf5 (featMap m c) :=
  (dats m 0 c).arrAt_eq_of_cover 3 _ (fun t _ => by
    show (cfg0.win 3).cut (grid0.coords t) ((dats m 0 c).after 3 t) = _
    rw [after0_3]
    exact Blocks.conf_block t (featMap m c) pad) Arrays.cover_conf

theorem final_scores (m : (ℓ : Loc nD τ sig) → Buf (Elt Ideal) ℓ) (c : Dev nD) :
    (dats m 0 c).arrAt 4 cfg0.N = BoxDecode.scores4 (featMap m c) :=
  (dats m 0 c).arrAt_eq_of_cover 4 _ (fun t _ => by
    show (cfg0.win 4).cut (grid0.coords t) ((dats m 0 c).after 4 t) = _
    rw [after0_4]
    exact Blocks.score_block t (featMap m c) pad) Arrays.cover_scores

/-! ## The results -/

/-- At the exact instance the program ends with its three results at the specification's arrays of the launch
    contents, reshaped, and its arguments as launched. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4)
          = BoxDecode.boxesOut (F := Ideal) (m ((c.tc : Thread nD τ).loc main_arg0)) (m ((c.tc : Thread nD τ).loc main_arg1)) shapeCasts_S32x76x76x3x4_S32x17328x4
      ∧ r.2.mem ((c.tc : Thread nD τ).loc main_v5)
          = BoxDecode.confOut (F := Ideal) (m ((c.tc : Thread nD τ).loc main_arg0)) shapeCasts_S32x76x76x3x80_S32x17328x80
      ∧ r.2.mem ((c.tc : Thread nD τ).loc main_v6)
          = BoxDecode.scoresOut (m ((c.tc : Thread nD τ).loc main_arg0)) shapeCasts_S32x76x76x3_S32x17328
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  have hX : featMap m c = m ((c.tc : Thread nD τ).loc main_arg0) := V_main_arg0 m c
  refine ⟨?_, ?_, ?_, ?_, ?_⟩
  · rw [(h c).2 main_v4 (Pipeline.mem_restRefs_of main_v4 (by decide) (by decide)), Arrays.tail_boxes m (dats m) c, final_boxes m c, hX]
    rfl
  · rw [(h c).2 main_v5 (Pipeline.mem_restRefs_of main_v5 (by decide) (by decide)), Arrays.tail_conf m (dats m) c, final_conf m c, hX]
    rfl
  · rw [(h c).2 main_v6 (Pipeline.mem_restRefs_of main_v6 (by decide) (by decide)), Arrays.tail_scores m (dats m) c, final_scores m c, hX]
    rfl
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Result

end
-- ==== Proof.RefSide.lean ====
import proofs.«151503_j8108898254914_1_alg».proof.Defs
import proofs.«151503_j8108898254914_1_alg».proof.Proof.Gen.ReferenceIdeal.Run
import proofs.«151503_j8108898254914_1_alg».proof.Proof.Gen.ReferenceIdeal.Read
import proofs.«151503_j8108898254914_1_alg».proof.Proof.BoxDecode
import Idealize.ShloMosaic.Lib.ValueIdx
import Idealize.ShloMosaic.Lib.Pipeline.Value
import Idealize.ShloMosaic.PureOps.Ideal.Laws
import Idealize.ShloMosaic.PureOps.Reduce

noncomputable section

namespace Cert.RefSide

open Cert.ReferenceIdeal Cert.ReferenceIdeal.Read Cert.BoxDecode Idealize.ShloMosaic Idealize.ShloMosaic.ValueIdx

/-- The f32 pattern of 1.0 is the extended real 1. -/
theorem ofBits_one : FloatOps.ofBits (F := Ideal) .f32 0x3F800000#32 = 1 := by
  exact IdealRules.sign_bit.ideal_onePat .f32

/-- Feature `f` of anchor `a` at the cell (b, w, h), read through the reshape to 32×3×85×76×76 and the transpose that
    moves the anchor axis last: it is channel 85·a + f of the input. -/
theorem feat_apply (x0 : (⟨S32x255x76x76, .f32⟩ : BufTy).Contents (Elt Ideal)) (b : Fin 32) (f : Fin 85) (w hh : Fin 76) (a : Fin 3) :
    val_main_v1 (F := Ideal) x0 (ix5 b f w hh a) = x0 (ix4 b (chan a f.val f.isLt) w hh) := by
  rw [val_main_v1_apply, val_main_v0_apply]
  congr 1
  funext e
  have hb := b.isLt; have hf := f.isLt; have hw := w.isLt; have hh' := hh.isLt; have ha := a.isLt
  match e with
  | ⟨0, _⟩ => exact Fin.ext (show ((((b.val * 3 + a.val) * 85 + f.val) * 76 + w.val) * 76 + hh.val) / 1472880 = b.val by omega)
  | ⟨1, _⟩ => exact Fin.ext (show ((((b.val * 3 + a.val) * 85 + f.val) * 76 + w.val) * 76 + hh.val) / 5776 % 255 = a.val * 85 + f.val by omega)
  | ⟨2, _⟩ => exact Fin.ext (show ((((b.val * 3 + a.val) * 85 + f.val) * 76 + w.val) * 76 + hh.val) / 76 % 76 = w.val by omega)
  | ⟨3, _⟩ => exact Fin.ext (show ((((b.val * 3 + a.val) * 85 + f.val) * 76 + w.val) * 76 + hh.val) % 76 = hh.val by omega)

/-- The class logit's stage: 1 / (1 + exp (−t)) of feature 5 + c, which is the logistic function of it. -/
theorem cls_apply (x0 : (⟨S32x255x76x76, .f32⟩ : BufTy).Contents (Elt Ideal)) (b : Fin 32) (c : Fin 80) (w hh : Fin 76) (a : Fin 3) :
    val_main_v35 (F := Ideal) x0 (ix5 b c w hh a)
      = FloatOps.logistic (F := Ideal) (φ := .f32) (x0 (ix4 b (chan a (5 + c.val) (by have := c.isLt; omega)) w hh)) := by
  have hi : idx_main_v5 (ix5 b c w hh a) = ix5 b (⟨5 + c.val, by have := c.isLt; omega⟩ : Fin 85) w hh a := by
    funext e
    match e with
    | ⟨0, _⟩ => rfl
    | ⟨1, _⟩ => rfl
    | ⟨2, _⟩ => rfl
    | ⟨3, _⟩ => rfl
    | ⟨4, _⟩ => rfl
  rw [val_main_v35_apply, val_main_v34_apply, val_main_cst_3_apply, val_main_v33_apply, val_main_v32_apply,
    val_main_cst_2_apply, val_main_v31_apply, val_main_v30_apply, val_main_v5_apply, hi, feat_apply, ofBits_one]
  rfl

/-- The objectness stage, broadcast over the 80 classes: the logistic function of feature 4. -/
theorem obj_apply (x0 : (⟨S32x255x76x76, .f32⟩ : BufTy).Contents (Elt Ideal)) (b : Fin 32) (c : Fin 80) (w hh : Fin 76) (a : Fin 3) :
    val_main_v42 (F := Ideal) x0 (ix5 b c w hh a)
      = FloatOps.logistic (F := Ideal) (φ := .f32) (x0 (ix4 b (chan a 4 (by omega)) w hh)) := by
  have hi : idx_main_v4 (idx_main_v42 (ix5 b c w hh a)) = ix5 b (⟨4, by omega⟩ : Fin 85) w hh a := by
    funext e
    match e with
    | ⟨0, _⟩ => rfl
    | ⟨1, _⟩ => rfl
    | ⟨2, _⟩ => rfl
    | ⟨3, _⟩ => rfl
    | ⟨4, _⟩ => rfl
  rw [val_main_v42_apply, val_main_v41_apply, val_main_v40_apply, val_main_cst_5_apply, val_main_v39_apply,
    val_main_v38_apply, val_main_cst_4_apply, val_main_v37_apply, val_main_v36_apply, val_main_v4_apply, hi, feat_apply,
    ofBits_one]
  rfl

/-- The flat cell-and-anchor position n = (w · 76 + h) · 3 + a, split back into its three coordinates. -/
abbrev cellW (n : Fin 17328) : Fin 76 := ⟨n.val / 228, by have := n.isLt; omega⟩
abbrev cellH (n : Fin 17328) : Fin 76 := ⟨n.val / 3 % 76, by omega⟩
abbrev cellA (n : Fin 17328) : Fin 3 := ⟨n.val % 3, by omega⟩

/-- The product stage read at the flat position: through the reshape to 32×80×17328 and the transpose of its last two axes. -/
theorem conf_idx (b : Fin 32) (n : Fin 17328) (c : Fin 80) :
    idx_main_v44 (idx_main_v45 (ix3 b n c)) = ix5 b c (cellW n) (cellH n) (cellA n) := by
  have hb := b.isLt; have hn := n.isLt; have hc := c.isLt
  funext e
  match e with
  | ⟨0, _⟩ => exact Fin.ext (show ((b.val * 80 + c.val) * 17328 + n.val) / 1386240 = b.val by omega)
  | ⟨1, _⟩ => exact Fin.ext (show ((b.val * 80 + c.val) * 17328 + n.val) / 17328 % 80 = c.val by omega)
  | ⟨2, _⟩ => exact Fin.ext (show ((b.val * 80 + c.val) * 17328 + n.val) / 228 % 76 = n.val / 228 by omega)
  | ⟨3, _⟩ => exact Fin.ext (show ((b.val * 80 + c.val) * 17328 + n.val) / 3 % 76 = n.val / 3 % 76 by omega)
  | ⟨4, _⟩ => exact Fin.ext (show ((b.val * 80 + c.val) * 17328 + n.val) % 3 = n.val % 3 by omega)

/-- The reference's confidences at (b, n, c): the class confidence of the cell and anchor that n names. -/
theorem ref_conf_apply (x0 : (⟨S32x255x76x76, .f32⟩ : BufTy).Contents (Elt Ideal)) (b : Fin 32) (n : Fin 17328) (c : Fin 80) :
    val_main_v45 (F := Ideal) x0 (ix3 b n c) = confPt (F := Ideal) (colAt x0 b (cellW n) (cellH n)) (cellA n) c := by
  rw [val_main_v45_apply, val_main_v44_apply, conf_idx, val_main_v43_apply, cls_apply, obj_apply]
  rfl

/-- The specification's confidences at (b, n, c): the same point of the five-axis array. -/
theorem confOut_apply (x0 : SX.Idx → Ideal .f32) (h : SC5.ShapeCasts SC3) (b : Fin 32) (n : Fin 17328) (c : Fin 80) :
    confOut x0 h (ix3 b n c) = confPt (F := Ideal) (colAt x0 b (cellW n) (cellH n)) (cellA n) c := by
  unfold confOut
  rw [shapeCast_apply (conf5 x0) h (ix3 b n c) (ix5 b (cellW n) (cellH n) (cellA n) c)
    (by rw [Shape.rowMajor_val_five, Shape.rowMajor_val_three]
        have hn := n.isLt
        show (((b.val * 76 + n.val / 228) * 76 + n.val / 3 % 76) * 3 + n.val % 3) * 80 + c.val = (b.val * 17328 + n.val) * 80 + c.val
        omega)]
  rfl

theorem ref_conf (x0 : (⟨S32x255x76x76, .f32⟩ : BufTy).Contents (Elt Ideal)) (h : SC5.ShapeCasts SC3) :
    val_main_v45 (F := Ideal) x0 = confOut (F := Ideal) x0 h := by
  funext i
  obtain ⟨b, n, c, rfl⟩ : ∃ b n c, i = ix3 b n c := ⟨_, _, _, eq_ix3 i⟩
  rw [ref_conf_apply, confOut_apply]

/-- The reference's scores at (b, n): the greatest, from −∞, of the 80 class confidences of the cell and anchor that n names. -/
theorem ref_scores_apply (x0 : (⟨S32x255x76x76, .f32⟩ : BufTy).Contents (Elt Ideal)) (b : Fin 32) (n : Fin 17328) :
    val_main_v46 (F := Ideal) x0 (ix2 b n)
      = (Finset.univ : Finset (Fin 80)).fold max (FloatOps.ofBits (F := Ideal) .f32 0xFF800000#32)
          (fun cl => confPt (F := Ideal) (colAt x0 b (cellW n) (cellH n)) (cellA n) cl) := by
  have hR : S32x17328x80.Reduces [2] S32x17328 := by decide
  unfold val_main_v46
  rw [Host.reduce_eq_fold_single FloatOps.maximumf _ _ _ hR]
  refine Finset.fold_congr (fun cl _ => ?_)
  have hl : hR.lift (ix2 b n) cl = ix3 b n cl := by
    funext e
    match e with
    | ⟨0, _⟩ => rfl
    | ⟨1, _⟩ => rfl
    | ⟨2, _⟩ => rfl
  show val_main_v45 (F := Ideal) x0 (hR.lift (ix2 b n) cl) = _
  rw [hl]
  exact ref_conf_apply x0 b n cl

/-- The specification's scores at (b, n): the same fold. -/
theorem scoresOut_apply (x0 : SX.Idx → Ideal .f32) (h : SS4.ShapeCasts SS2) (b : Fin 32) (n : Fin 17328) :
    scoresOut x0 h (ix2 b n)
      = (Finset.univ : Finset (Fin 80)).fold max (FloatOps.ofBits (F := Ideal) .f32 0xFF800000#32)
          (fun cl => confPt (F := Ideal) (colAt x0 b (cellW n) (cellH n)) (cellA n) cl) := by
  unfold scoresOut
  rw [shapeCast_apply (scores4 x0) h (ix2 b n) (ix4 b (cellW n) (cellH n) (cellA n))
    (by rw [Shape.rowMajor_val_four, Shape.rowMajor_val_two]
        have hn := n.isLt
        show ((b.val * 76 + n.val / 228) * 76 + n.val / 3 % 76) * 3 + n.val % 3 = b.val * 17328 + n.val
        omega)]
  rfl

theorem ref_scores (x0 : (⟨S32x255x76x76, .f32⟩ : BufTy).Contents (Elt Ideal)) (h : SS4.ShapeCasts SS2) :
    val_main_v46 (F := Ideal) x0 = scoresOut x0 h := by
  funext i
  obtain ⟨b, n, rfl⟩ : ∃ b n, i = ix2 b n := ⟨_, _, eq_ix2 i⟩
  rw [ref_scores_apply, scoresOut_apply]

/-- The stacked grid coordinates: plane 0 holds each cell's row w, plane 1 its column h, as 32-bit integers. -/
theorem iota_apply (k : Fin 2) (w hh : Fin 76) :
    val_main_v12 (F := Ideal) (ix3 k w hh) = BitVec.ofNat 32 (if k.val = 0 then w.val else hh.val) := by
  have hk2 := k.isLt
  unfold val_main_v12
  by_cases hk : k.val = 0
  · rw [if_pos hk]
    refine (concatenate_pair_apply_left (t := S2x76x76) (s₁ := S1x76x76) (s₂ := S1x76x76) 0 _ _ _ (ix3 k w hh) rfl
      (ix3 (0 : Fin 1) w hh) (fun e => match e with
        | ⟨0, _⟩ => (show 0 = k.val by omega)
        | ⟨1, _⟩ => rfl
        | ⟨2, _⟩ => rfl)).trans ?_
    rw [val_main_v10_apply, val_main_v8_apply, val_main_v6_apply]
  · rw [if_neg hk]
    refine (concatenate_pair_apply_right (t := S2x76x76) (s₁ := S1x76x76) (s₂ := S1x76x76) 0 _ _ _ (ix3 k w hh) rfl rfl
      (ix3 (0 : Fin 1) w hh) (fun e => match e with
        | ⟨0, _⟩ => fun hne => absurd rfl hne
        | ⟨1, _⟩ => fun _ => rfl
        | ⟨2, _⟩ => fun _ => rfl) (show 0 + 1 = k.val by omega)).trans ?_
    rw [val_main_v11_apply, val_main_v9_apply, val_main_v7_apply]

/-- The grid offset added to the centre: the cell's own coordinate on axis k, converted to a float. -/
theorem grid_apply (b : Fin 32) (k : Fin 2) (w hh : Fin 76) (a : Fin 3) :
    val_main_v22 (F := Ideal) (ix5 b k w hh a) = gridAt (F := Ideal) w hh k := by
  have hi : idx_main_v13 (idx_main_v22 (ix5 b k w hh a)) = ix3 k w hh := by
    have hk := k.isLt; have hw := w.isLt; have hh' := hh.isLt
    funext e
    match e with
    | ⟨0, _⟩ => exact Fin.ext (show ((((0 * 2 + k.val) * 76 + w.val) * 76 + hh.val) * 1 + 0) / 5776 = k.val by omega)
    | ⟨1, _⟩ => exact Fin.ext (show ((((0 * 2 + k.val) * 76 + w.val) * 76 + hh.val) * 1 + 0) / 76 % 76 = w.val by omega)
    | ⟨2, _⟩ => exact Fin.ext (show ((((0 * 2 + k.val) * 76 + w.val) * 76 + hh.val) * 1 + 0) % 76 = hh.val by omega)
  rw [val_main_v22_apply, val_main_v14_apply, val_main_v13_apply, hi, iota_apply]
  rfl

/-- The centre stage: (σ(t) + g) / 76 with t feature k of the anchor and g the cell's coordinate. -/
theorem centre_apply (x0 : (⟨S32x255x76x76, .f32⟩ : BufTy).Contents (Elt Ideal)) (b : Fin 32) (k : Fin 2) (w hh : Fin 76) (a : Fin 3) :
    val_main_v25 (F := Ideal) x0 (ix5 b k w hh a)
      = centrePt (F := Ideal) (colAt x0 b w hh) (gridAt w hh k) a k := by
  have hi : idx_main_v2 (ix5 b k w hh a) = ix5 b (⟨k.val, by have := k.isLt; omega⟩ : Fin 85) w hh a := by
    funext e
    match e with
    | ⟨0, _⟩ => rfl
    | ⟨1, _⟩ => rfl
    | ⟨2, _⟩ => rfl
    | ⟨3, _⟩ => rfl
    | ⟨4, _⟩ => rfl
  rw [val_main_v25_apply, val_main_v24_apply, val_main_v15_apply, val_main_cst_apply, val_main_v23_apply, grid_apply,
    val_main_v21_apply, val_main_v20_apply, val_main_cst_1_apply, val_main_v19_apply, val_main_v18_apply,
    val_main_cst_0_apply, val_main_v17_apply, val_main_v16_apply, val_main_v2_apply, hi, feat_apply, ofBits_one]
  rfl

/-- The half-extent stage: exp(t) · prior · ½ with t feature 2 + k of the anchor. -/
theorem half_apply (x0 : (⟨S32x255x76x76, .f32⟩ : BufTy).Contents (Elt Ideal)) (x1 : (⟨S2x1x1x3, .f32⟩ : BufTy).Contents (Elt Ideal))
    (b : Fin 32) (k : Fin 2) (w hh : Fin 76) (a : Fin 3) :
    val_main_v48 (F := Ideal) x0 x1 (ix5 b k w hh a)
      = halfPt (F := Ideal) (colAt x0 b w hh) (ancAt x1 a k) a k := by
  have hi : idx_main_v3 (ix5 b k w hh a) = ix5 b (⟨2 + k.val, by have := k.isLt; omega⟩ : Fin 85) w hh a := by
    funext e
    match e with
    | ⟨0, _⟩ => rfl
    | ⟨1, _⟩ => rfl
    | ⟨2, _⟩ => rfl
    | ⟨3, _⟩ => rfl
    | ⟨4, _⟩ => rfl
  have ha : idx_main_v27 (idx_main_v28 (ix5 b k w hh a)) = ix4 k (0 : Fin 1) (0 : Fin 1) a := by
    funext e
    match e with
    | ⟨0, _⟩ => rfl
    | ⟨1, _⟩ => rfl
    | ⟨2, _⟩ => rfl
    | ⟨3, _⟩ => rfl
  rw [val_main_v48_apply, val_main_v47_apply, val_main_cst_7_apply, val_main_v29_apply, val_main_v28_apply,
    val_main_v27_apply, ha, val_main_v26_apply, val_main_v3_apply, hi, feat_apply]
  rfl

/-- The joined box array read at the flat position: through the reshape to 32×4×17328 and the transpose of its last two axes. -/
theorem box_idx (b : Fin 32) (n : Fin 17328) (k : Fin 4) :
    idx_main_v52 (idx_main_v53 (ix3 b n k)) = ix5 b k (cellW n) (cellH n) (cellA n) := by
  have hb := b.isLt; have hn := n.isLt; have hk := k.isLt
  funext e
  match e with
  | ⟨0, _⟩ => exact Fin.ext (show ((b.val * 4 + k.val) * 17328 + n.val) / 69312 = b.val by omega)
  | ⟨1, _⟩ => exact Fin.ext (show ((b.val * 4 + k.val) * 17328 + n.val) / 17328 % 4 = k.val by omega)
  | ⟨2, _⟩ => exact Fin.ext (show ((b.val * 4 + k.val) * 17328 + n.val) / 228 % 76 = n.val / 228 by omega)
  | ⟨3, _⟩ => exact Fin.ext (show ((b.val * 4 + k.val) * 17328 + n.val) / 3 % 76 = n.val / 3 % 76 by omega)
  | ⟨4, _⟩ => exact Fin.ext (show ((b.val * 4 + k.val) * 17328 + n.val) % 3 = n.val % 3 by omega)

/-- The reference's boxes at (b, n, k): coordinate k of the box of the cell and anchor that n names. -/
theorem ref_boxes_apply (x0 : (⟨S32x255x76x76, .f32⟩ : BufTy).Contents (Elt Ideal)) (x1 : (⟨S2x1x1x3, .f32⟩ : BufTy).Contents (Elt Ideal))
    (b : Fin 32) (n : Fin 17328) (k : Fin 4) :
    val_main_v53 (F := Ideal) x0 x1 (ix3 b n k)
      = boxPt (F := Ideal) (colAt x0 b (cellW n) (cellH n)) (gridAt (cellW n) (cellH n)) (ancAt x1 (cellA n)) (cellA n) k := by
  have hk4 := k.isLt
  rw [val_main_v53_apply, val_main_v52_apply, box_idx]
  unfold val_main_v51 boxPt
  by_cases hk : k.val < 2
  · rw [dif_pos hk]
    refine (concatenate_pair_apply_left (t := S32x4x76x76x3) (s₁ := S32x2x76x76x3) (s₂ := S32x2x76x76x3) 1 _ _ _
      (ix5 b k (cellW n) (cellH n) (cellA n)) rfl
      (ix5 b (⟨k.val, hk⟩ : Fin 2) (cellW n) (cellH n) (cellA n)) (fun e => match e with
        | ⟨0, _⟩ => rfl
        | ⟨1, _⟩ => rfl
        | ⟨2, _⟩ => rfl
        | ⟨3, _⟩ => rfl
        | ⟨4, _⟩ => rfl)).trans ?_
    rw [val_main_v49_apply, centre_apply, half_apply]
  · rw [dif_neg hk]
    refine (concatenate_pair_apply_right (t := S32x4x76x76x3) (s₁ := S32x2x76x76x3) (s₂ := S32x2x76x76x3) 1 _ _ _
      (ix5 b k (cellW n) (cellH n) (cellA n)) rfl rfl
      (ix5 b (⟨k.val - 2, by omega⟩ : Fin 2) (cellW n) (cellH n) (cellA n)) (fun e => match e with
        | ⟨0, _⟩ => fun _ => rfl
        | ⟨1, _⟩ => fun hne => absurd rfl hne
        | ⟨2, _⟩ => fun _ => rfl
        | ⟨3, _⟩ => fun _ => rfl
        | ⟨4, _⟩ => fun _ => rfl) (show k.val - 2 + 2 = k.val by omega)).trans ?_
    rw [val_main_v50_apply, centre_apply, half_apply]

/-- The specification's boxes at (b, n, k): the same point of the five-axis array. -/
theorem boxesOut_apply (x0 : SX.Idx → Ideal .f32) (x1 : SA.Idx → Ideal .f32) (h : SB5.ShapeCasts SB3)
    (b : Fin 32) (n : Fin 17328) (k : Fin 4) :
    boxesOut x0 x1 h (ix3 b n k)
      = boxPt (F := Ideal) (colAt x0 b (cellW n) (cellH n)) (gridAt (cellW n) (cellH n)) (ancAt x1 (cellA n)) (cellA n) k := by
  unfold boxesOut
  rw [shapeCast_apply (boxes5 x0 x1) h (ix3 b n k) (ix5 b (cellW n) (cellH n) (cellA n) k)
    (by rw [Shape.rowMajor_val_five, Shape.rowMajor_val_three]
        have hn := n.isLt
        show (((b.val * 76 + n.val / 228) * 76 + n.val / 3 % 76) * 3 + n.val % 3) * 4 + k.val = (b.val * 17328 + n.val) * 4 + k.val
        omega)]
  rfl

theorem ref_boxes (x0 : (⟨S32x255x76x76, .f32⟩ : BufTy).Contents (Elt Ideal)) (x1 : (⟨S2x1x1x3, .f32⟩ : BufTy).Contents (Elt Ideal))
    (h : SB5.ShapeCasts SB3) :
    val_main_v53 (F := Ideal) x0 x1 = boxesOut (F := Ideal) x0 x1 h := by
  funext i
  obtain ⟨b, n, k, rfl⟩ : ∃ b n k, i = ix3 b n k := ⟨_, _, _, eq_ix3 i⟩
  rw [ref_boxes_apply, boxesOut_apply]

end Cert.RefSide

end
-- ==== Proof.lean ====
/-
  The certificate: a YOLO-style box decoder computed tile by tile on a 32 × 2 grid equals its whole-array reference.

  Both programs take a feature map x[b, ch, w, h] (255 = 3 anchors × 85 features, anchor-major) and the anchors'
  priors, and return, for every cell (b, w, h) and anchor a: the box (centre ∓ half-extent, with centre
  (σ(t) + cell coordinate) / 76 and half-extent exp(t) · prior · ½), the 80 class confidences σ(class) · σ(objectness),
  and the score, their maximum. The kernel computes them on tiles of 40 rows of the W axis — the second tile has only
  36 rows inside the array, so its fetch and its write-backs are cut there —, transposing each tile to put the anchor
  and feature axes last; the reference works on the whole arrays in another axis order and spells σ as 1 / (1 + exp(−t)),
  which at the exact instance is the same function. Every result element depends on the inputs through ONE cell's
  255 channels and ONE anchor's priors, so the two programs agree element by element once each is read at an index;
  no algebraic law beyond that is needed, and the finiteness precondition is never opened.

  The parts: the cell-by-cell specification (BoxDecode); the kernel's stored tiles at an index (Payload) and as tiles of
  the specification's arrays (Blocks); the body's triple (Body); the pipeline's proof data, body obligation, run and
  frame (Region; the word-level program's copies are WPayload, WBlocks, WBody, WRegion); the host operations around
  the call and the tiles' cover (Arrays); the idealized program's results (Result); the reference's results (RefSide).
-/
import proofs.«151503_j8108898254914_1_alg».proof.Defs
import proofs.«151503_j8108898254914_1_alg».proof.Proof.Gen.Kernel
import proofs.«151503_j8108898254914_1_alg».proof.Proof.Gen.KernelIdeal
import proofs.«151503_j8108898254914_1_alg».proof.Proof.Gen.ReferenceIdeal
import proofs.«151503_j8108898254914_1_alg».proof.Proof.Gen.Pre_finite_inputs
import proofs.«151503_j8108898254914_1_alg».proof.Proof.Gen.ReferenceIdeal.Run
import proofs.«151503_j8108898254914_1_alg».proof.Proof.Gen.ReferenceIdeal.Read
import proofs.«151503_j8108898254914_1_alg».proof.Proof.WRegion
import proofs.«151503_j8108898254914_1_alg».proof.Proof.Region
import proofs.«151503_j8108898254914_1_alg».proof.Proof.Result
import proofs.«151503_j8108898254914_1_alg».proof.Proof.RefSide
import Idealize.ShloMosaic.Adequacy
import Idealize.ShloMosaic.Init

noncomputable section

namespace Cert.Proof

open Idealize.ShloMosaic Idealize.SL.Sem

/-- The program as printed runs to the end, faults nowhere and leaves its arguments as launched. -/
theorem frame_word : Cert.frame_Kernel := fun m ρ _ => Cert.Kernel.Region.frame m ρ

/-- So does its reading at the exact instance. -/
theorem frame_ideal : Cert.frame_KernelIdeal := fun m ρ _ => Cert.KernelIdeal.Region.frame m ρ

/-- The reference is host operations only: its run, with the results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-- The idealization rewrote nothing: the idealized program is the printed text read at the exact instance. -/
theorem preserves : Cert.preserves_Kernel_KernelIdeal := trivial

/-- From memories that agree on the two arguments both programs end with the specification's three arrays of those
    arguments: the kernel by its tiles (`Result.run_values`), the reference by its operations read at an index
    (`RefSide`). -/
theorem algebraic : Cert.algebraic_KernelIdeal_ReferenceIdeal := by
  intro m ρ m' ρ' _ hagree
  refine ⟨_, _, _, Cert.KernelIdeal.Result.run_values m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · refine (h c).1.trans ?_
    rw [Cert.ReferenceIdeal.Read.val_main_v53_eq, Cert.RefSide.ref_boxes _ _ Cert.KernelIdeal.Gen.shapeCasts_S32x76x76x3x4_S32x17328x4,
      (hagree c).1, (hagree c).2]
  · refine (h c).2.1.trans ?_
    rw [Cert.ReferenceIdeal.Read.val_main_v45_eq, Cert.RefSide.ref_conf _ Cert.KernelIdeal.Gen.shapeCasts_S32x76x76x3x80_S32x17328x80,
      (hagree c).1]
  · refine (h c).2.2.1.trans ?_
    rw [Cert.ReferenceIdeal.Read.val_main_v46_eq, Cert.RefSide.ref_scores _ Cert.KernelIdeal.Gen.shapeCasts_S32x76x76x3_S32x17328,
      (hagree c).1]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
